-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x1 : Shape := ⟨2, ![200000, 1]⟩
abbrev S2x3200000 : Shape := ⟨2, ![2, 3200000]⟩
abbrev S200000 : Shape := ⟨1, ![200000]⟩
abbrev S1x64 : Shape := ⟨2, ![1, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S200000x1 : S_.BroadcastsInDim S200000x1 (![] : Fin 0 → Fin S200000x1.rank)
  reducesTo_S200000x1_S_d0_1 : S200000x1.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S64 .f32) (main_arg7 : FVec F S64x1 .f32) (main_arg8 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg7
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S200000x1 .f32) (main_arg1 : IVec S2x3200000 32) (main_arg2 : IVec S200000 32) (main_arg3 : FVec F S1x64 .f32) (main_arg4 : FVec F S64 .f32) (main_arg5 : FVec F S64x64 .f32) (main_arg6 : FVec F S64 .f32) (main_arg7 : FVec F S64x1 .f32) (main_arg8 : FVec F S1 .f32) : IVec S_ 1 :=
  let main_v0 : FVec F S200000x1 .f32 := Host.absf main_arg0
  let main_cst : FVec F S_ .f32 := constant S_ .f32 0x7F800000#32
  let main_v1 : FVec F S200000x1 .f32 := broadcastInDim S200000x1 ![] bcast_S_S200000x1 main_cst
  let main_v2 : IVec S200000x1 1 := cmpf .olt main_v0 main_v1
  let main_c : IVec S_ 1 := constantI S_ 1 1#1
  let main_v3 : IVec S_ 1 := (fun x v => Host.reduce IntOp.andi x v reducesTo_S200000x1_S_d0_1 h_S_) main_v2 main_c
  let main_v4 : FVec F S1x64 .f32 := Host.absf main_arg3
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S200000x1 : Shape := ⟨2, ![200000, 1]⟩
abbrev S2x3200000 : Shape := ⟨2, ![2, 3200000]⟩
abbrev S200000 : Shape := ⟨1, ![200000]⟩
abbrev S1x64 : Shape := ⟨2, ![1, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S3400000 : Shape := ⟨1, ![3400000]⟩
abbrev S_ : Shape := ⟨0, ![]⟩
abbrev S3400000x1 : Shape := ⟨2, ![3400000, 1]⟩
abbrev S200000x64 : Shape := ⟨2, ![200000, 64]⟩
abbrev S5000x1 : Shape := ⟨2, ![5000, 1]⟩
abbrev S5000x64 : Shape := ⟨2, ![5000, 64]⟩
abbrev S3400000x64 : Shape := ⟨2, ![3400000, 64]⟩
abbrev S1024x1 : Shape := ⟨2, ![1024, 1]⟩
abbrev S200960 : Shape := ⟨1, ![200960]⟩
abbrev S1x200960 : Shape := ⟨2, ![1, 200960]⟩
abbrev S200960x64 : Shape := ⟨2, ![200960, 64]⟩
abbrev S1x1 : Shape := ⟨2, ![1, 1]⟩
abbrev S1280x64 : Shape := ⟨2, ![1280, 64]⟩
abbrev S1x1280 : Shape := ⟨2, ![1, 1280]⟩
abbrev S1024x64 : Shape := ⟨2, ![1024, 64]⟩
abbrev S1024x1280 : Shape := ⟨2, ![1024, 1280]⟩
abbrev S1024 : Shape := ⟨1, ![1024]⟩

abbrev nBuf : Space → Nat
  | .hbm => 81
  | .vmem => 31
  | .smem => 0
  | _ => 0

abbrev bufTy : (tb : Table) → Fin (tcTables nBuf tb) → BufTy
  | .hbm, ⟨0, _⟩ => ⟨S200000x1, .f32⟩
  | .hbm, ⟨1, _⟩ => ⟨S2x3200000, .i32⟩
  | .hbm, ⟨2, _⟩ => ⟨S200000, .i32⟩
  | .hbm, ⟨3, _⟩ => ⟨S1x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S200000, .i32⟩
  | .hbm, ⟨10, _⟩ => ⟨S1x3200000, .i32⟩
  | .hbm, ⟨11, _⟩ => ⟨S3200000, .i32⟩
  | .hbm, ⟨12, _⟩ => ⟨S3400000, .i32⟩
  | .hbm, ⟨13, _⟩ => ⟨S1x3200000, .i32⟩
  | .hbm, ⟨14, _⟩ => ⟨S3200000, .i32⟩
  | .hbm, ⟨15, _⟩ => ⟨S3400000, .i32⟩
  | .hbm, ⟨16, _⟩ => ⟨S_, .f32⟩
  | .hbm, ⟨17, _⟩ => ⟨S3400000, .f32⟩
  | .hbm, ⟨18, _⟩ => ⟨S_, .f32⟩
  | .hbm, ⟨19, _⟩ => ⟨S200000, .f32⟩
  | .hbm, ⟨20, _⟩ => ⟨S3400000x1, .i32⟩
  | .hbm, ⟨21, _⟩ => ⟨S200000, .f32⟩
  | .hbm, ⟨22, _⟩ => ⟨S_, .f32⟩
  | .hbm, ⟨23, _⟩ => ⟨S200000, .f32⟩
  | .hbm, ⟨24, _⟩ => ⟨S200000, .i1⟩
  | .hbm, ⟨25, _⟩ => ⟨S200000, .f32⟩
  | .hbm, ⟨26, _⟩ => ⟨S_, .f32⟩
  | .hbm, ⟨27, _⟩ => ⟨S_, .f32⟩
  | .hbm, ⟨28, _⟩ => ⟨S200000, .f32⟩
  | .hbm, ⟨29, _⟩ => ⟨S200000, .f32⟩
  | .hbm, ⟨30, _⟩ => ⟨S200000x1, .f32⟩
  | .hbm, ⟨31, _⟩ => ⟨S200000, .f32⟩
  | .hbm, ⟨32, _⟩ => ⟨S200000, .f32⟩
  | .hbm, ⟨33, _⟩ => ⟨S_, .i32⟩
  | .hbm, ⟨34, _⟩ => ⟨S3400000, .i32⟩
  | .hbm, ⟨35, _⟩ => ⟨S3400000, .i1⟩
  | .hbm, ⟨36, _⟩ => ⟨S_, .i32⟩
  | .hbm, ⟨37, _⟩ => ⟨S3400000, .i32⟩
  | .hbm, ⟨38, _⟩ => ⟨S3400000, .i32⟩
  | .hbm, ⟨39, _⟩ => ⟨S3400000, .i32⟩
  | .hbm, ⟨40, _⟩ => ⟨S3400000x1, .i32⟩
  | .hbm, ⟨41, _⟩ => ⟨S3400000, .f32⟩
  | .hbm, ⟨42, _⟩ => ⟨S_, .f32⟩
  | .hbm, ⟨43, _⟩ => ⟨S200000, .f32⟩
  | .hbm, ⟨44, _⟩ => ⟨S3400000x1, .i32⟩
  | .hbm, ⟨45, _⟩ => ⟨S200000, .f32⟩
  | .hbm, ⟨46, _⟩ => ⟨S200000x1, .f32⟩
  | .hbm, ⟨47, _⟩ => ⟨S1x64, .f32⟩
  | .hbm, ⟨48, _⟩ => ⟨S200000x64, .f32⟩
  | .hbm, ⟨49, _⟩ => ⟨S200000x64, .f32⟩
  | .hbm, ⟨50, _⟩ => ⟨S_, .i32⟩
  | .hbm, ⟨51, _⟩ => ⟨S3400000, .i32⟩
  | .hbm, ⟨52, _⟩ => ⟨S3400000, .i1⟩
  | .hbm, ⟨53, _⟩ => ⟨S_, .i32⟩
  | .hbm, ⟨54, _⟩ => ⟨S3400000, .i32⟩
  | .hbm, ⟨55, _⟩ => ⟨S3400000, .i32⟩
  | .hbm, ⟨56, _⟩ => ⟨S3400000, .i32⟩
  | .hbm, ⟨57, _⟩ => ⟨S3400000x1, .i32⟩
  | .hbm, ⟨58, _⟩ => ⟨S3400000x64, .f32⟩
  | .hbm, ⟨59, _⟩ => ⟨S_, .f32⟩
  | .hbm, ⟨60, _⟩ => ⟨S200000x64, .f32⟩
  | .hbm, ⟨61, _⟩ => ⟨S3400000x1, .i32⟩
  | .hbm, ⟨62, _⟩ => ⟨S200000x64, .f32⟩
  | .hbm, ⟨63, _⟩ => ⟨S1x64, .f32⟩
  | .hbm, ⟨64, _⟩ => ⟨S200000x64, .f32⟩
  | .hbm, ⟨65, _⟩ => ⟨S_, .f32⟩
  | .hbm, ⟨66, _⟩ => ⟨S200000x1, .f32⟩
  | .hbm, ⟨67, _⟩ => ⟨S_, .f32⟩
  | .hbm, ⟨68, _⟩ => ⟨S1024x1, .f32⟩
  | .hbm, ⟨69, _⟩ => ⟨S200000x1, .i32⟩
  | .hbm, ⟨70, _⟩ => ⟨S1024x1, .f32⟩
  | .hbm, ⟨71, _⟩ => ⟨S_, .i32⟩
  | .hbm, ⟨72, _⟩ => ⟨S_, .i32⟩
  | .hbm, ⟨73, _⟩ => ⟨S200960, .i32⟩
  | .hbm, ⟨74, _⟩ => ⟨S1x200960, .i32⟩
  | .hbm, ⟨75, _⟩ => ⟨S_, .i32⟩
  | .hbm, ⟨76, _⟩ => ⟨S_, .f32⟩
  | .hbm, ⟨77, _⟩ => ⟨S200960x64, .f32⟩
  | .hbm, ⟨78, _⟩ => ⟨S1x1, .f32⟩
  | .hbm, ⟨79, _⟩ => ⟨S1024x1, .f32⟩
  | .hbm, ⟨80, _⟩ => ⟨S1024, .f32⟩
  | .local _ .vmem, ⟨0, _⟩ => ⟨S5000x1, .f32⟩
  | .local _ .vmem, ⟨1, _⟩ => ⟨S5000x1, .f32⟩
  | .local _ .vmem, ⟨2, _⟩ => ⟨S5000x1, .f32⟩
  | .local _ .vmem, ⟨3, _⟩ => ⟨S5000x1, .f32⟩
  | .local _ .vmem, ⟨4, _⟩ => ⟨S1x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S5000x1, .f32⟩
  | .local _ .vmem, ⟨12, _⟩ => ⟨S5000x1, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S1280x64, .f32⟩
  | .local _ .vmem, ⟨23, _⟩ => ⟨S1280x64, .f32⟩
  | .local _ .vmem, ⟨24, _⟩ => ⟨S1x1280, .i32⟩
  | .local _ .vmem, ⟨25, _⟩ => ⟨S1x1280, .i32⟩
  | .local _ .vmem, ⟨26, _⟩ => ⟨S1024x1, .f32⟩
  | .local _ .vmem, ⟨27, _⟩ => ⟨S64x1, .f32⟩
  | .local _ .vmem, ⟨28, _⟩ => ⟨S1x1, .f32⟩
  | .local _ .vmem, ⟨29, _⟩ => ⟨S1024x1, .f32⟩
  | .local _ .vmem, ⟨30, _⟩ => ⟨S1024x64, .f32⟩
  | _, _ => ⟨S200000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_10 : Ref sig .tc := ⟨.hbm, 71, rfl⟩
abbrev main_call1_v0 : Ref sig .tc := ⟨.hbm, 72, rfl⟩
abbrev main_v48 : Ref sig .tc := ⟨.hbm, 73, rfl⟩
abbrev main_v49 : Ref sig .tc := ⟨.hbm, 74, rfl⟩
abbrev main_c_11 : Ref sig .tc := ⟨.hbm, 75, rfl⟩
abbrev main_call2_v0 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![157], ![false]⟩

def k3_cond2 (i : grid3.Coords) : BitVec 1 :=
  let arg0 : BitVec 32 := BitVec.ofNat 32 (i 0).val
  let c156_i32 : BitVec 32 := 156#32
  let v21 : BitVec 1 := Scalar.cmpi .eq arg0 c156_i32
  let v22 : BitVec 32 := Scalar.extui v21
  let c0_i32_8 : BitVec 32 := 0#32
  let v23 : BitVec 1 := Scalar.cmpi .ne v22 c0_i32_8
  v23

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1280x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1280 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1024x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1024x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S200000_S3400000_d0 : Shape.Concatenates [S3200000, S200000] S3400000 0
  slices_S2x3200000_S1x3200000_1_0 : S2x3200000.Slices ![1, 0] S1x3200000
  bcast_S_S3400000 : S_.BroadcastsInDim S3400000 (![] : Fin 0 → Fin S3400000.rank)
  bcast_S_S200000 : S_.BroadcastsInDim S200000 (![] : Fin 0 → Fin S200000.rank)
  bcast_S3400000_S3400000x1_0 : S3400000.BroadcastsInDim S3400000x1 (![0] : Fin 1 → Fin S3400000x1.rank)
  shapeCasts_S200000_S200000x1 : S200000.ShapeCasts S200000x1
  shapeCasts_S200000x1_S200000 : S200000x1.ShapeCasts S200000
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x64_S1x64_0_0 : ∀ a, (![0, 0] : Fin 2 → Nat) a + S1x64.size a ≤ S1x64.size a
  h_S1x64 : 0 < S1x64.numel
  broadcasts_S5000x1_S5000x64 : S5000x1.Broadcasts S5000x64
  broadcasts_S1x64_S5000x64 : S1x64.Broadcasts S5000x64
  shapeCasts_S1x64_S1x64 : S1x64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S200000x64 : S_.BroadcastsInDim S200000x64 (![] : Fin 0 → Fin S200000x64.rank)
  bcast_S_S200000x1 : S_.BroadcastsInDim S200000x1 (![] : Fin 0 → Fin S200000x1.rank)
  bcast_S_S1024x1 : S_.BroadcastsInDim S1024x1 (![] : Fin 0 → Fin S1024x1.rank)
  bcast_S200000_S200000x1_0 : S200000.BroadcastsInDim S200000x1 (![0] : Fin 1 → Fin S200000x1.rank)
  pads_S200000_S200960_09600 : S200000.Pads (![0] : Fin 1 → Nat) ![960] ![0] S200960
  h_S_ : 0 < S_.numel
  shapeCasts_S200960_S1x200960 : S200960.ShapeCasts S1x200960
  pads_S200000x64_S200960x64_09600_000 : S200000x64.Pads (![0, 0] : Fin 2 → Nat) ![960, 0] ![0, 0] S200960x64
  shapeCasts_S1_S1x1 : S1.ShapeCasts S1x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  iota_S1024x1280_d0_w32 : S1024x1280.Iotas .tc 32 [0]
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S1024x1280 : S1x1280.Broadcasts S1024x1280
  natLt_1_32 : 1 < 32
  inb_S1280x64_S1280x64_0_0 : ∀ a, (![0, 0] : Fin 2 → Nat) a + S1280x64.size a ≤ S1280x64.size a
  h_S1280x64 : 0 < S1280x64.numel
  shapeCasts_S1280x64_S1280x64 : S1280x64.ShapeCasts S1280x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x64 : S1024x1.Broadcasts S1024x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  shapeCasts_S1024x1_S1024 : S1024x1.ShapeCasts S1024
  scatter_S200000_S3400000x1_S3400000_n_0_0_1_wf : ScatterDims.WF S200000 S3400000x1 S3400000 [] [0] [0] 1
  gather_S200000_S3400000x1_S3400000_n_0_n_n_0_1_1_wf : GatherDims.WF S200000 S3400000x1 S3400000 [] [0] [] [0] [] 1 ![1]
  dot_S5000x64_S64x64_S5000x64_1_0_0_1_n_n_wf : DotDims.WF S5000x64 S64x64 S5000x64 [1] [0] [0] [1] [] []
  gather_S200000x64_S3400000x1_S3400000x64_1_0_n_n_0_1_164_wf : GatherDims.WF S200000x64 S3400000x1 S3400000x64 [1] [0] [] [0] [] 1 ![1, 64]
  scatter_S200000x64_S3400000x1_S3400000x64_1_0_0_1_wf : ScatterDims.WF S200000x64 S3400000x1 S3400000x64 [1] [0] [0] 1
  scatter_S1024x1_S200000x1_S200000x1_1_0_0_1_wf : ScatterDims.WF S1024x1 S200000x1 S200000x1 [1] [0] [0] 1
  dot_S1024x1280_S1280x64_S1024x64_1_0_0_1_n_n_wf : DotDims.WF S1024x1280 S1280x64 S1024x64 [1] [0] [0] [1] [] []
  dot_S1024x64_S64x1_S1024x1_1_0_0_1_n_n_wf : DotDims.WF S1024x64 S64x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S200000x1.size a
  hwx0_0 : ∀ i : grid0.Coords, EltTy.bits .f32 = 32 ∨ (Rect.block (s := S200000x1) S5000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S200000x1.size a
  hwx0_1 : ∀ i : grid0.Coords, EltTy.bits .f32 = 32 ∨ (Rect.block (s := S200000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S200000x64.size a
  hwx0_4 : ∀ i : grid0.Coords, EltTy.bits .f32 = 32 ∨ (Rect.block (s := S200000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S200000x64.size a
  hwx1_0 : ∀ i : grid1.Coords, EltTy.bits .f32 = 32 ∨ (Rect.block (s := S200000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S200000x1.size a
  hwx1_2 : ∀ i : grid1.Coords, EltTy.bits .f32 = 32 ∨ (Rect.block (s := S200000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S200000x64.size a
  hwx1_3 : ∀ i : grid1.Coords, EltTy.bits .f32 = 32 ∨ (Rect.block (s := S200000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S200000x64.size a
  hwx2_0 : ∀ i : grid2.Coords, EltTy.bits .f32 = 32 ∨ (Rect.block (s := S200000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S200000x1.size a
  hwx2_1 : ∀ i : grid2.Coords, EltTy.bits .f32 = 32 ∨ (Rect.block (s := S200000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S200000x64.size a
  hwx2_3 : ∀ i : grid2.Coords, EltTy.bits .f32 = 32 ∨ (Rect.block (s := S200000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1280x64.size a ≤ S200960x64.size a
  hwx3_0 : ∀ i : grid3.Coords, EltTy.bits .f32 = 32 ∨ (Rect.block (s := S200960x64) S1280x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1280.size a ≤ S1x200960.size a
  hwx3_1 : ∀ i : grid3.Coords, EltTy.bits .i32 = 32 ∨ (Rect.block (s := S1x200960) S1x1280.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1024x1.size a ≤ S1024x1.size a
  hwx3_2 : ∀ i : grid3.Coords, EltTy.bits .f32 = 32 ∨ (Rect.block (s := S1024x1) S1024x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x1.size a ≤ S64x1.size a
  hwx3_3 : ∀ i : grid3.Coords, EltTy.bits .f32 = 32 ∨ (Rect.block (s := S64x1) S64x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1024x1.size a ≤ S1024x1.size a
  hwx3_5 : ∀ i : grid3.Coords, EltTy.bits .f32 = 32 ∨ (Rect.block (s := S1024x1) S1024x1.size (cc3_transform_5 i) (hinb3_5 i)).WholeWords (EltTy.packing .f32)

variable [Facts₀]

def scatter_S200000_S3400000x1_S3400000_n_0_0_1 : ScatterDims S200000 S3400000x1 S3400000 where
  updateWindowDims := []
  insertedWindowDims := [0]
  scatterDimsToOperandDims := [0]
  indexVectorDim := 1
  wf := scatter_S200000_S3400000x1_S3400000_n_0_0_1_wf
def gather_S200000_S3400000x1_S3400000_n_0_n_n_0_1_1 : GatherDims S200000 S3400000x1 S3400000 where
  offsetDims := []
  collapsedSliceDims := [0]
  operandBatchingDims := []
  startIndicesBatchingDims := []
  startIndexMap := [0]
  indexVectorDim := 1
  sliceSizes := ![1]
  wf := gather_S200000_S3400000x1_S3400000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S200000x64_S3400000x1_S3400000x64_1_0_n_n_0_1_164 : GatherDims S200000x64 S3400000x1 S3400000x64 where
  offsetDims := [1]
  collapsedSliceDims := [0]
  operandBatchingDims := []
  startIndicesBatchingDims := []
  startIndexMap := [0]
  indexVectorDim := 1
  sliceSizes := ![1, 64]
  wf := gather_S200000x64_S3400000x1_S3400000x64_1_0_n_n_0_1_164_wf
def scatter_S200000x64_S3400000x1_S3400000x64_1_0_0_1 : ScatterDims S200000x64 S3400000x1 S3400000x64 where
  updateWindowDims := [1]
  insertedWindowDims := [0]
  scatterDimsToOperandDims := [0]
  indexVectorDim := 1
  wf := scatter_S200000x64_S3400000x1_S3400000x64_1_0_0_1_wf
def scatter_S1024x1_S200000x1_S200000x1_1_0_0_1 : ScatterDims S1024x1 S200000x1 S200000x1 where
  updateWindowDims := [1]
  insertedWindowDims := [0]
  scatterDimsToOperandDims := [0]
  indexVectorDim := 1
  wf := scatter_S1024x1_S200000x1_S200000x1_1_0_0_1_wf
def dot_S1024x1280_S1280x64_S1024x64_1_0_0_1_n_n : DotDims S1024x1280 S1280x64 S1024x64 where
  lhsContracting := [1]
  rhsContracting := [0]
  lhsNonContracting := [0]
  rhsNonContracting := [1]
  lhsBatch := []
  rhsBatch := []
  wf := dot_S1024x1280_S1280x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

abbrev win0_0 : Pipeline.Window sig grid0 :=
  Pipeline.Window.ofSpec (Memref.whole main_v28) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v30) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v31) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v41) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v50) S1280x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S1x1280.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v47) S1024x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg7) S64x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v51) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v52) S1024x1.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

class Facts : Prop extends Facts₀ where

variable [Facts]
-- ==== ReferenceIdeal.lean ====
abbrev S200000x1 : Shape := ⟨2, ![200000, 1]⟩
abbrev S2x3200000 : Shape := ⟨2, ![2, 3200000]⟩
abbrev S200000 : Shape := ⟨1, ![200000]⟩
abbrev S1x64 : Shape := ⟨2, ![1, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S200000x64 : Shape := ⟨2, ![200000, 64]⟩
abbrev S1x3200000 : Shape := ⟨2, ![1, 3200000]⟩
abbrev S3200000 : Shape := ⟨1, ![3200000]⟩
abbrev S3400000 : Shape := ⟨1, ![3400000]⟩
abbrev S_ : Shape := ⟨0, ![]⟩
abbrev S3400000x1 : Shape := ⟨2, ![3400000, 1]⟩
abbrev S3400000x64 : Shape := ⟨2, ![3400000, 64]⟩
abbrev S1024x64 : Shape := ⟨2, ![1024, 64]⟩
abbrev S1024x1 : Shape := ⟨2, ![1024, 1]⟩
abbrev S1x1 : Shape := ⟨2, ![1, 1]⟩
abbrev S1024 : Shape := ⟨1, ![1024]⟩

abbrev nBuf : Space → Nat
  | .hbm => 155
  | .vmem => 0
  | .smem => 0
  | _ => 0

abbrev hbmTy0_0 (i : Nat) : BufTy := match i % 128 with
  | 0 => ⟨S200000x1, .f32⟩
  | 1 => ⟨S2x3200000, .i32⟩
  | 2 => ⟨S200000, .i32⟩
  | 3 => ⟨S1x64, .f32⟩
  | 4 => ⟨S64, .f32⟩
  | 5 => ⟨S64x64, .f32⟩
  | 6 => ⟨S64, .f32⟩
  | 7 => ⟨S64x1, .f32⟩
  | 8 => ⟨S1, .f32⟩
  | 9 => ⟨S200000x64, .f32⟩
  | 10 => ⟨S200000, .i32⟩
  | 11 => ⟨S1x3200000, .i32⟩
  | 12 => ⟨S3200000, .i32⟩
  | 13 => ⟨S3400000, .i32⟩
  | 14 => ⟨S1x3200000, .i32⟩
  | 15 => ⟨S3200000, .i32⟩
  | 16 => ⟨S3400000, .i32⟩
  | 17 => ⟨S_, .f32⟩
  | 18 => ⟨S3400000, .f32⟩
  | 19 => ⟨S_, .f32⟩
  | 20 => ⟨S200000, .f32⟩
  | 21 => ⟨S3400000x1, .i32⟩
  | 22 => ⟨S200000, .f32⟩
  | 23 => ⟨S_, .f32⟩
  | 24 => ⟨S200000, .f32⟩
  | 25 => ⟨S200000, .i1⟩
  | 26 => ⟨S200000, .f32⟩
  | 27 => ⟨S_, .f32⟩
  | 28 => ⟨S_, .f32⟩
  | 29 => ⟨S200000, .f32⟩
  | 30 => ⟨S200000, .f32⟩
  | 31 => ⟨S_, .i32⟩
  | 32 => ⟨S3400000, .i32⟩
  | 33 => ⟨S3400000, .i1⟩
  | 34 => ⟨S_, .i32⟩
  | 35 => ⟨S3400000, .i32⟩
  | 36 => ⟨S3400000, .i32⟩
  | 37 => ⟨S3400000, .i32⟩
  | 38 => ⟨S3400000x1, .i32⟩
  | 39 => ⟨S3400000, .f32⟩
  | 40 => ⟨S_, .i32⟩
  | 41 => ⟨S3400000, .i32⟩
  | 42 => ⟨S3400000, .i1⟩
  | 43 => ⟨S_, .i32⟩
  | 44 => ⟨S3400000, .i32⟩
  | 45 => ⟨S3400000, .i32⟩
  | 46 => ⟨S3400000, .i32⟩
  | 47 => ⟨S3400000x1, .i32⟩
  | 48 => ⟨S3400000, .f32⟩
  | 49 => ⟨S3400000, .f32⟩
  | 50 => ⟨S_, .i32⟩
  | 51 => ⟨S3400000, .i32⟩
  | 52 => ⟨S3400000, .i1⟩
  | 53 => ⟨S_, .i32⟩
  | 54 => ⟨S3400000, .i32⟩
  | 55 => ⟨S3400000, .i32⟩
  | 56 => ⟨S3400000, .i32⟩
  | 57 => ⟨S3400000x1, .i32⟩
  | 58 => ⟨S3400000x64, .f32⟩
  | 59 => ⟨S3400000x1, .f32⟩
  | 60 => ⟨S3400000x64, .f32⟩
  | 61 => ⟨S3400000x64, .f32⟩
  | 62 => ⟨S_, .f32⟩
  | 63 => ⟨S200000x64, .f32⟩
  | 64 => ⟨S3400000x1, .i32⟩
  | 65 => ⟨S200000x64, .f32⟩
  | 66 => ⟨S1x64, .f32⟩
  | 67 => ⟨S200000x64, .f32⟩
  | 68 => ⟨S200000x64, .f32⟩
  | 69 => ⟨S_, .f32⟩
  | 70 => ⟨S200000x64, .f32⟩
  | 71 => ⟨S200000x64, .f32⟩
  | 72 => ⟨S200000x64, .f32⟩
  | 73 => ⟨S200000, .i32⟩
  | 74 => ⟨S1x3200000, .i32⟩
  | 75 => ⟨S3200000, .i32⟩
  | 76 => ⟨S3400000, .i32⟩
  | 77 => ⟨S1x3200000, .i32⟩
  | 78 => ⟨S3200000, .i32⟩
  | 79 => ⟨S3400000, .i32⟩
  | 80 => ⟨S_, .f32⟩
  | 81 => ⟨S3400000, .f32⟩
  | 82 => ⟨S_, .f32⟩
  | 83 => ⟨S200000, .f32⟩
  | 84 => ⟨S3400000x1, .i32⟩
  | 85 => ⟨S200000, .f32⟩
  | 86 => ⟨S_, .f32⟩
  | 87 => ⟨S200000, .f32⟩
  | 88 => ⟨S200000, .i1⟩
  | 89 => ⟨S200000, .f32⟩
  | 90 => ⟨S_, .f32⟩
  | 91 => ⟨S_, .f32⟩
  | 92 => ⟨S200000, .f32⟩
  | 93 => ⟨S200000, .f32⟩
  | 94 => ⟨S_, .i32⟩
  | 95 => ⟨S3400000, .i32⟩
  | 96 => ⟨S3400000, .i1⟩
  | 97 => ⟨S_, .i32⟩
  | 98 => ⟨S3400000, .i32⟩
  | 99 => ⟨S3400000, .i32⟩
  | 100 => ⟨S3400000, .i32⟩
  | 101 => ⟨S3400000x1, .i32⟩
  | 102 => ⟨S3400000, .f32⟩
  | 103 => ⟨S_, .i32⟩
  | 104 => ⟨S3400000, .i32⟩
  | 105 => ⟨S3400000, .i1⟩
  | 106 => ⟨S_, .i32⟩
  | 107 => ⟨S3400000, .i32⟩
  | 108 => ⟨S3400000, .i32⟩
  | 109 => ⟨S3400000, .i32⟩
  | 110 => ⟨S3400000x1, .i32⟩
  | 111 => ⟨S3400000, .f32⟩
  | 112 => ⟨S3400000, .f32⟩
  | 113 => ⟨S_, .i32⟩
  | 114 => ⟨S3400000, .i32⟩
  | 115 => ⟨S3400000, .i1⟩
  | 116 => ⟨S_, .i32⟩
  | 117 => ⟨S3400000, .i32⟩
  | 118 => ⟨S3400000, .i32⟩
  | 119 => ⟨S3400000, .i32⟩
  | 120 => ⟨S3400000x1, .i32⟩
  | 121 => ⟨S3400000x64, .f32⟩
  | 122 => ⟨S3400000x1, .f32⟩
  | 123 => ⟨S3400000x64, .f32⟩
  | 124 => ⟨S3400000x64, .f32⟩
  | 125 => ⟨S_, .f32⟩
  | 126 => ⟨S200000x64, .f32⟩
  | 127 => ⟨S3400000x1, .i32⟩
  | _ => ⟨S200000x1, .f32⟩

abbrev hbmTy0_1 (i : Nat) : BufTy := match i % 128 with
  | 0 => ⟨S200000x64, .f32⟩
  | 1 => ⟨S1x64, .f32⟩
  | 2 => ⟨S200000x64, .f32⟩
  | 3 => ⟨S200000x64, .f32⟩
  | 4 => ⟨S_, .f32⟩
  | 5 => ⟨S200000x64, .f32⟩
  | 6 => ⟨S200000x64, .f32⟩
  | 7 => ⟨S_, .f32⟩
  | 8 => ⟨S1024x64, .f32⟩
  | 9 => ⟨S200000x1, .i32⟩
  | 10 => ⟨S1024x64, .f32⟩
  | 11 => ⟨S_, .f32⟩
  | 12 => ⟨S200000x1, .f32⟩
  | 13 => ⟨S_, .f32⟩
  | 14 => ⟨S1024x1, .f32⟩
  | 15 => ⟨S200000x1, .i32⟩
  | 16 => ⟨S1024x1, .f32⟩
  | 17 => ⟨S_, .f32⟩
  | 18 => ⟨S1024x1, .f32⟩
  | 19 => ⟨S1024x1, .f32⟩
  | 20 => ⟨S1024x64, .f32⟩
  | 21 => ⟨S1024x64, .f32⟩
  | 22 => ⟨S1024x1, .f32⟩
  | 23 => ⟨S1x1, .f32⟩
  | 24 => ⟨S1024x1, .f32⟩
  | 25 => ⟨S1024x1, .f32⟩
  | 26 => ⟨S1024, .f32⟩
  | _ => ⟨S200000x1, .f32⟩

abbrev hbmTy (i : Nat) : BufTy := match i / 128 with
  | 0 => hbmTy0_0 i
  | 1 => hbmTy0_1 i
  | _ => ⟨S200000x1, .f32⟩

abbrev bufTy : (tb : Table) → Fin (tcTables nBuf tb) → BufTy
  | .hbm, ⟨i, _⟩ => hbmTy i
  | _, _ => ⟨S200000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_cst_10 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v63 : Ref sig .tc := ⟨.hbm, 93, rfl⟩
abbrev main_c_13 : Ref sig .tc := ⟨.hbm, 94, rfl⟩
abbrev main_v64 : Ref sig .tc := ⟨.hbm, 95, rfl⟩
abbrev main_v65 : Ref sig .tc := ⟨.hbm, 96, rfl⟩
abbrev main_c_14 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_15 : Ref sig .tc := ⟨.hbm, 103, rfl⟩
abbrev main_v71 : Ref sig .tc := ⟨.hbm, 104, rfl⟩
abbrev main_v72 : Ref sig .tc := ⟨.hbm, 105, rfl⟩
abbrev main_c_16 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_17 : Ref sig .tc := ⟨.hbm, 113, rfl⟩
abbrev main_v79 : Ref sig .tc := ⟨.hbm, 114, rfl⟩
abbrev main_v80 : Ref sig .tc := ⟨.hbm, 115, rfl⟩
abbrev main_c_18 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_19 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_call3_cst : Ref sig .tc := ⟨.hbm, 132, rfl⟩
abbrev main_call3_v0 : Ref sig .tc := ⟨.hbm, 133, rfl⟩
abbrev main_v95 : Ref sig .tc := ⟨.hbm, 134, rfl⟩
abbrev main_cst_20 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_21 : Ref sig .tc := ⟨.hbm, 139, rfl⟩
abbrev main_v99 : Ref sig .tc := ⟨.hbm, 140, rfl⟩
abbrev main_cst_22 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_23 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S200000_S3400000_d0 : Shape.Concatenates [S3200000, S200000] S3400000 0
  slices_S2x3200000_S1x3200000_1_0 : S2x3200000.Slices ![1, 0] S1x3200000
  bcast_S_S3400000 : S_.BroadcastsInDim S3400000 (![] : Fin 0 → Fin S3400000.rank)
  bcast_S_S200000 : S_.BroadcastsInDim S200000 (![] : Fin 0 → Fin S200000.rank)
  bcast_S3400000_S3400000x1_0 : S3400000.BroadcastsInDim S3400000x1 (![0] : Fin 1 → Fin S3400000x1.rank)
  bcast_S3400000x1_S3400000x64_0_1 : S3400000x1.BroadcastsInDim S3400000x64 (![0, 1] : Fin 2 → Fin S3400000x64.rank)
  bcast_S_S200000x64 : S_.BroadcastsInDim S200000x64 (![] : Fin 0 → Fin S200000x64.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S1024x64 : S_.BroadcastsInDim S1024x64 (![] : Fin 0 → Fin S1024x64.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S_S1024x1 : S_.BroadcastsInDim S1024x1 (![] : Fin 0 → Fin S1024x1.rank)
  bcast_S1024x1_S1024x64_0_1 : S1024x1.BroadcastsInDim S1024x64 (![0, 1] : Fin 2 → Fin S1024x64.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  shapeCasts_S1024x1_S1024 : S1024x1.ShapeCasts S1024
  dot_S200000x1_S1x64_S200000x64_1_0_0_1_n_n_wf : DotDims.WF S200000x1 S1x64 S200000x64 [1] [0] [0] [1] [] []
  scatter_S200000_S3400000x1_S3400000_n_0_0_1_wf : ScatterDims.WF S200000 S3400000x1 S3400000 [] [0] [0] 1
  gather_S200000_S3400000x1_S3400000_n_0_n_n_0_1_1_wf : GatherDims.WF S200000 S3400000x1 S3400000 [] [0] [] [0] [] 1 ![1]
  gather_S200000x64_S3400000x1_S3400000x64_1_0_n_n_0_1_164_wf : GatherDims.WF S200000x64 S3400000x1 S3400000x64 [1] [0] [] [0] [] 1 ![1, 64]
  scatter_S200000x64_S3400000x1_S3400000x64_1_0_0_1_wf : ScatterDims.WF S200000x64 S3400000x1 S3400000x64 [1] [0] [0] 1
  dot_S200000x64_S64x64_S200000x64_1_0_0_1_n_n_wf : DotDims.WF S200000x64 S64x64 S200000x64 [1] [0] [0] [1] [] []
  scatter_S1024x64_S200000x1_S200000x64_1_0_0_1_wf : ScatterDims.WF S1024x64 S200000x1 S200000x64 [1] [0] [0] 1
  scatter_S1024x1_S200000x1_S200000x1_1_0_0_1_wf : ScatterDims.WF S1024x1 S200000x1 S200000x1 [1] [0] [0] 1
  dot_S1024x64_S64x1_S1024x1_1_0_0_1_n_n_wf : DotDims.WF S1024x64 S64x1 S1024x1 [1] [0] [0] [1] [] []

variable [Facts₀]

def dot_S200000x1_S1x64_S200000x64_1_0_0_1_n_n : DotDims S200000x1 S1x64 S200000x64 where
  lhsContracting := [1]
  rhsContracting := [0]
  lhsNonContracting := [0]
  rhsNonContracting := [1]
  lhsBatch := []
  rhsBatch := []
  wf := dot_S200000x1_S1x64_S200000x64_1_0_0_1_n_n_wf
def scatter_S200000_S3400000x1_S3400000_n_0_0_1 : ScatterDims S200000 S3400000x1 S3400000 where
  updateWindowDims := []
  insertedWindowDims := [0]
  scatterDimsToOperandDims := [0]
  indexVectorDim := 1
  wf := scatter_S200000_S3400000x1_S3400000_n_0_0_1_wf
def gather_S200000_S3400000x1_S3400000_n_0_n_n_0_1_1 : GatherDims S200000 S3400000x1 S3400000 where
  offsetDims := []
  collapsedSliceDims := [0]
  operandBatchingDims := []
  startIndicesBatchingDims := []
  startIndexMap := [0]
  indexVectorDim := 1
  sliceSizes := ![1]
  wf := gather_S200000_S3400000x1_S3400000_n_0_n_n_0_1_1_wf
def gather_S200000x64_S3400000x1_S3400000x64_1_0_n_n_0_1_164 : GatherDims S200000x64 S3400000x1 S3400000x64 where
  offsetDims := [1]
  collapsedSliceDims := [0]
  operandBatchingDims := []
  startIndicesBatchingDims := []
  startIndexMap := [0]
  indexVectorDim := 1
  sliceSizes := ![1, 64]
  wf := gather_S200000x64_S3400000x1_S3400000x64_1_0_n_n_0_1_164_wf
def scatter_S200000x64_S3400000x1_S3400000x64_1_0_0_1 : ScatterDims S200000x64 S3400000x1 S3400000x64 where
  updateWindowDims := [1]
  insertedWindowDims := [0]
  scatterDimsToOperandDims := [0]
  indexVectorDim := 1
  wf := scatter_S200000x64_S3400000x1_S3400000x64_1_0_0_1_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def scatter_S1024x64_S200000x1_S200000x64_1_0_0_1 : ScatterDims S1024x64 S200000x1 S200000x64 where
  updateWindowDims := [1]
  insertedWindowDims := [0]
  scatterDimsToOperandDims := [0]
  indexVectorDim := 1
  wf := scatter_S1024x64_S200000x1_S200000x64_1_0_0_1_wf
def scatter_S1024x1_S200000x1_S200000x1_1_0_0_1 : ScatterDims S1024x1 S200000x1 S200000x1 where
  updateWindowDims := [1]
  insertedWindowDims := [0]
  scatterDimsToOperandDims := [0]
  indexVectorDim := 1
  wf := scatter_S1024x1_S200000x1_S200000x1_1_0_0_1_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

class Facts : Prop extends Facts₀ where

variable [Facts]
-- ==== Proof.KI.Reg0.lean ====
/-
  The first pallas_call of the program, at an arbitrary valuation `V` of the TensorCore's buffers when it is entered.
  Its grid has 40 points; point `t` works on rows 5000·t … 5000·t + 4999. Windows 0 and 1 are the 5000×1 blocks of the
  two column vectors (the scattered neighbour sums and the degree normalisation), windows 2 and 3 the whole 1×64 weight
  row and bias row (one block, the same at every point), window 4 the 5000×64 block of the result. The body reads the
  four input blocks whole and overwrites the output block whole, so what it leaves in the output's buffer is ONE
  function of the four input blocks: the body's payload (row scale · weight row + bias row, clamped below at zero).
  Stated at any float family: nothing here depends on what the arithmetic means.
-/
import proofs.«416223_j40458591928693_3_alg».proof.Proof.Gen.KernelIdeal.Launch
import proofs.«416223_j40458591928693_3_alg».proof.Proof.Gen.KernelIdeal.Skeleton
import proofs.«416223_j40458591928693_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows is decided coordinate by coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the pipeline fetched it there or the block
    index did not move since it last did (the weight and bias rows: one block for the whole grid). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What the body reads and writes: every access is a whole buffer -/

abbrev rcol0 : Rect S5000x1 := Rect.unit (s := S5000x1) ![0, 0] S5000x1.size inb_S5000x1_S5000x1_0_0
abbrev rrow0 : Rect S1x64 := Rect.unit (s := S1x64) ![0, 0] S1x64.size inb_S1x64_S1x64_0_0
abbrev rout0 : Rect S5000x64 := Rect.unit (s := S5000x64) ![0, 0] S5000x64.size inb_S5000x64_S5000x64_0_0

/-- The output window's buffer after the body, from the four input blocks: its one store, of the payload. -/
def out0_4 (x0 x1 : Vec F S5000x1 .f32) (x2 x3 : Vec F S1x64 .f32) : Vec F S5000x64 .f32 :=
  View.canon [⟨rout0, k0_pay1 (View.ld x0 rcol0) (View.ld x1 rcol0) (View.ld x2 rrow0) (View.ld x3 rrow0)⟩]

/-- The one store covers the whole buffer. -/
theorem cover0_4 (p0 : Vec F S5000x64 .f32) (y : S5000x64.Idx) :
    ∃ pc ∈ ([⟨rout0, p0⟩] : List (View.Piece (Elt F) S5000x64 .f32)), y ∈ pc.1.set :=
  View.cover_of_tiled [⟨rout0, p0⟩] S5000x64.size (by rfl) y

/-! ## The body's triple -/

set_option maxHeartbeats 1000000 in
/-- The body on whole buffers, the inputs' holding `x0 … x3` and the output's anything, runs to the inputs' as they
    were and the output's at `out0_4` of them. -/
theorem sound_kernel0 (c : Dev nD) (E : Set ℕ) (i : grid0.Coords)
    (arg1 : Memref sig .tc .vmem S5000x1 .f32) (harg1 : arg1.IsWhole) (arg2 : Memref sig .tc .vmem S5000x1 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S5000x64 .f32) (harg5 : arg5.IsWhole)
    (x0 x1 : Vec F S5000x1 .f32) (x2 x3 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0__h1_kernel i arg1 harg1 arg2 harg2 arg3 harg3 arg4 harg4 arg5 harg5) K := by
  simp only [cc0__h1_kernel_eq_skeleton]; unfold cc0__h1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of this pipeline on core `c`: the arrays as the region finds them; after the body at point `t`
    each input's buffer still at its block and the output's at `out0_4` of the input blocks; the invariant is the
    untouched rest (the scoped buffers no window stages and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline library, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Reg1.lean ====
/-
  The second pallas_call (the second layer's linear map with the source-side normalisation folded in), at an arbitrary
  valuation `V` of the TensorCore's buffers when it is entered. 40 grid points, point `t` on rows 5000·t … 5000·t + 4999.
  Window 0 is the 5000×64 block of the first layer's activations, window 1 the whole 64×64 weight matrix (one block, the
  same at every point), window 2 the 5000×1 block of the degree normalisation, window 3 the 5000×64 block of the result.
  The body reads the three input blocks whole and overwrites the output block whole with its payload (the block times
  the weight matrix, each row scaled by its normalisation), so the output's buffer after the body is one function of the
  three input blocks. Stated at any float family.
-/
import proofs.«416223_j40458591928693_3_alg».proof.Proof.Gen.KernelIdeal.Launch
import proofs.«416223_j40458591928693_3_alg».proof.Proof.Gen.KernelIdeal.Skeleton
import proofs.«416223_j40458591928693_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows is decided coordinate by coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether the pipeline fetched it there or the block
    index did not move since it last did (the weight matrix: one block for the whole grid). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body reads and writes: every access is a whole buffer -/

abbrev rblk1 : Rect S5000x64 := Rect.unit (s := S5000x64) ![0, 0] S5000x64.size inb_S5000x64_S5000x64_0_0
abbrev rmat1 : Rect S64x64 := Rect.unit (s := S64x64) ![0, 0] S64x64.size inb_S64x64_S64x64_0_0
abbrev rcol1 : Rect S5000x1 := Rect.unit (s := S5000x1) ![0, 0] S5000x1.size inb_S5000x1_S5000x1_0_0

/-- The output window's buffer after the body, from the three input blocks: its one store, of the payload. -/
def out1_3 (x0 : Vec F S5000x64 .f32) (x1 : Vec F S64x64 .f32) (x2 : Vec F S5000x1 .f32) : Vec F S5000x64 .f32 :=
  View.canon [⟨rblk1, k1_pay1 (View.ld x0 rblk1) (View.ld x1 rmat1) (View.ld x2 rcol1)⟩]

/-- The one store covers the whole buffer. -/
theorem cover1_3 (p0 : Vec F S5000x64 .f32) (y : S5000x64.Idx) :
    ∃ pc ∈ ([⟨rblk1, p0⟩] : List (View.Piece (Elt F) S5000x64 .f32)), y ∈ pc.1.set :=
  View.cover_of_tiled [⟨rblk1, p0⟩] S5000x64.size (by rfl) y

/-! ## The body's triple -/

set_option maxHeartbeats 1000000 in
/-- The body on whole buffers, the inputs' holding `x0 x1 x2` and the output's anything, runs to the inputs' as they
    were and the output's at `out1_3` of them. -/
theorem sound_kernel1 (c : Dev nD) (E : Set ℕ) (i : grid1.Coords)
    (arg1 : Memref sig .tc .vmem S5000x64 .f32) (harg1 : arg1.IsWhole) (arg2 : Memref sig .tc .vmem S64x64 .f32) (harg2 : arg2.IsWhole)
    (arg3 : Memref sig .tc .vmem S5000x1 .f32) (harg3 : arg3.IsWhole) (arg4 : Memref sig .tc .vmem S5000x64 .f32) (harg4 : arg4.IsWhole)
    (x0 : Vec F S5000x64 .f32) (x1 : Vec F S64x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__lin2_scale_kernel i arg1 harg1 arg2 harg2 arg3 harg3 arg4 harg4) K := by
  simp only [cc1__lin2_scale_kernel_eq_skeleton]; unfold cc1__lin2_scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this pipeline on core `c`: the arrays as the region finds them; after the body at point `t`
    each input's buffer still at its block and the output's at `out1_3` of the input blocks; the invariant is the
    untouched rest; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Reg2.lean ====
/-
  The third pallas_call (the second layer's destination-side normalisation, bias and ReLU), at an arbitrary valuation
  `V` of the TensorCore's buffers when it is entered. 40 grid points, point `t` on rows 5000·t … 5000·t + 4999.
  Window 0 is the 5000×64 block of the scattered neighbour sums, window 1 the 5000×1 block of the degree normalisation,
  window 2 the whole 1×64 bias row (one block, the same at every point), window 3 the 5000×64 block of the result. The
  body reads the three input blocks whole and overwrites the output block whole with its payload (row scale · block +
  bias row, clamped below at zero), so the output's buffer after the body is one function of the three input blocks.
  Stated at any float family.
-/
import proofs.«416223_j40458591928693_3_alg».proof.Proof.Gen.KernelIdeal.Launch
import proofs.«416223_j40458591928693_3_alg».proof.Proof.Gen.KernelIdeal.Skeleton
import proofs.«416223_j40458591928693_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows is decided coordinate by coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, whether the pipeline fetched it there or the block
    index did not move since it last did (the bias row: one block for the whole grid). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What the body reads and writes: every access is a whole buffer -/

abbrev rblk2 : Rect S5000x64 := Rect.unit (s := S5000x64) ![0, 0] S5000x64.size inb_S5000x64_S5000x64_0_0
abbrev rcol2 : Rect S5000x1 := Rect.unit (s := S5000x1) ![0, 0] S5000x1.size inb_S5000x1_S5000x1_0_0
abbrev rrow2 : Rect S1x64 := Rect.unit (s := S1x64) ![0, 0] S1x64.size inb_S1x64_S1x64_0_0

/-- The output window's buffer after the body, from the three input blocks: its one store, of the payload (whose first
    argument is the normalisation column, the body's first load). -/
def out2_3 (x0 : Vec F S5000x64 .f32) (x1 : Vec F S5000x1 .f32) (x2 : Vec F S1x64 .f32) : Vec F S5000x64 .f32 :=
  View.canon [⟨rblk2, k2_pay1 (View.ld x1 rcol2) (View.ld x0 rblk2) (View.ld x2 rrow2)⟩]

/-- The one store covers the whole buffer. -/
theorem cover2_3 (p0 : Vec F S5000x64 .f32) (y : S5000x64.Idx) :
    ∃ pc ∈ ([⟨rblk2, p0⟩] : List (View.Piece (Elt F) S5000x64 .f32)), y ∈ pc.1.set :=
  View.cover_of_tiled [⟨rblk2, p0⟩] S5000x64.size (by rfl) y

/-! ## The body's triple -/

set_option maxHeartbeats 1000000 in
/-- The body on whole buffers, the inputs' holding `x0 x1 x2` and the output's anything, runs to the inputs' as they
    were and the output's at `out2_3` of them. -/
theorem sound_kernel2 (c : Dev nD) (E : Set ℕ) (i : grid2.Coords)
    (arg1 : Memref sig .tc .vmem S5000x64 .f32) (harg1 : arg1.IsWhole) (arg2 : Memref sig .tc .vmem S5000x1 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S5000x1 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__bias_relu_dis_kernel i arg1 harg1 arg2 harg2 arg3 harg3 arg4 harg4) K := by
  simp only [cc2__bias_relu_dis_kernel_eq_skeleton]; unfold cc2__bias_relu_dis_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of this pipeline on core `c`: the arrays as the region finds them; after the body at point `t`
    each input's buffer still at its block and the output's at `out2_3` of the input blocks; the invariant is the
    untouched rest; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Reg3Runs.lean ====
/-
  The fourth pallas_call of the program (the pooling kernel), at an arbitrary valuation `V` of the TensorCore's
  buffers when it is entered: what its three whole-body runs share. The grid has 157 points; point `t` works on
  rows 1280·t … 1280·t + 1279 of the node features (window 0) and on columns 1280·t … of the batch-index row
  (window 1). Windows 2, 3, 4 are whole small inputs (one block for the whole grid), window 5 the 1024×1 result.
  The body keeps a 1024×64 accumulator in a scratch buffer of its own: at the first point it zeroes it, at every
  point it adds the point's one-hot-times-features product into it, and only at the last point does it store the
  result window (from the accumulator and windows 2, 3, 4). So the result window is idle everywhere but at the
  last point, and the accumulator is carried from point to point. Stated at any float family.
-/
import proofs.«416223_j40458591928693_3_alg».proof.Proof.Gen.KernelIdeal.Launch
import proofs.«416223_j40458591928693_3_alg».proof.Proof.Gen.KernelIdeal.Skeleton
import proofs.«416223_j40458591928693_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 1280 rows is decided coordinate by coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds its block at every point, whether the pipeline fetched it there (the
    feature rows and the batch-index columns: a new block at each point) or the block index did not move since it
    last did (the three whole inputs: one block for the whole grid). No input window is ever idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The two conditions of the body, over the grid -/

/-- The first `scf.if`'s condition (is this the first point?), as the body computes it from the grid coordinate. -/
abbrev atFirst3 (i : grid3.Coords) : Prop :=
  (Scalar.cmpi .ne (Scalar.extui (Scalar.cmpi .eq (BitVec.ofNat 32 (i 0).val) 0#32)) 0#32) = 1#1
/-- It holds at point 0 only. -/
theorem atFirst3_iff : ∀ t : Fin cfg3.N, atFirst3 (grid3.coords t) ↔ t.val = 0 :=
  (by decide +kernel : ∀ t : Fin grid3.N, atFirst3 (grid3.coords t) ↔ t.val = 0)

/-- The second `scf.if`'s condition (is this the last point?). -/
abbrev atLast3 (i : grid3.Coords) : Prop := k3_cond2 i = 1#1
/-- It holds at point 156 only. -/
theorem atLast3_iff : ∀ t : Fin cfg3.N, atLast3 (grid3.coords t) ↔ t.val = 156 :=
  (by decide +kernel : ∀ t : Fin grid3.N, atLast3 (grid3.coords t) ↔ t.val = 156)

/-! ## Where the windows are idle -/

/-- The five input windows are never idle. -/
theorem live3_0 : ∀ t : Fin cfg3.N, cfg3.idle 0 (grid3.coords t) = false := fun _ => rfl
theorem live3_1 : ∀ t : Fin cfg3.N, cfg3.idle 1 (grid3.coords t) = false := fun _ => rfl
theorem live3_2 : ∀ t : Fin cfg3.N, cfg3.idle 2 (grid3.coords t) = false := fun _ => rfl
theorem live3_3 : ∀ t : Fin cfg3.N, cfg3.idle 3 (grid3.coords t) = false := fun _ => rfl
theorem live3_4 : ∀ t : Fin cfg3.N, cfg3.idle 4 (grid3.coords t) = false := fun _ => rfl
/-- Away from the last point the result window is idle (nothing is stored into it) -/
theorem idle3_5 : ∀ t : Fin cfg3.N, ¬atLast3 (grid3.coords t) → cfg3.idle 5 (grid3.coords t) = true := by decide +kernel
/-- and the pipeline does not write its block back. -/
theorem noFlush3_5 : ∀ t : Fin cfg3.N, ¬atLast3 (grid3.coords t) → (cfg3.win 5).flush t = false := by decide +kernel
/-- At the last point it is live: the body stores it. -/
theorem live3_5 : ∀ t : Fin cfg3.N, atLast3 (grid3.coords t) → cfg3.idle 5 (grid3.coords t) = false := by decide +kernel

/-! ## The memrefs the body is called with -/

/-- The wholeness of each window's current staging memref at point `t`, as the pipeline passes it. -/
abbrev hst3_0 (t : Fin cfg3.N) : (st3_0 t).IsWhole := hstage3_0 ((cfg3.slots t 0).cast nbuf3_0)
abbrev hst3_1 (t : Fin cfg3.N) : (st3_1 t).IsWhole := hstage3_1 ((cfg3.slots t 1).cast nbuf3_1)
abbrev hst3_2 (t : Fin cfg3.N) : (st3_2 t).IsWhole := hstage3_2 ((cfg3.slots t 2).cast nbuf3_2)
abbrev hst3_3 (t : Fin cfg3.N) : (st3_3 t).IsWhole := hstage3_3 ((cfg3.slots t 3).cast nbuf3_3)
abbrev hst3_4 (t : Fin cfg3.N) : (st3_4 t).IsWhole := hstage3_4 ((cfg3.slots t 4).cast nbuf3_4)
abbrev hst3_5 (t : Fin cfg3.N) : (st3_5 t).IsWhole := hstage3_5 ((cfg3.slots t 5).cast nbuf3_5)

/-- The result window's one staging buffer, as a view: what the last point leaves in it is stated through it. -/
abbrev resV3 : View sig .tc .vmem S1024x1 .f32 := (Memref.whole cc3_stg5_0 : Memref sig .tc .vmem S1024x1 .f32).view
/-- The accumulator: a whole scoped buffer of the kernel's own, passed beside the windows, -/
abbrev acc3 : Memref sig .tc .vmem S1024x64 .f32 := Memref.whole cc3_scratch0
/-- and as a view, through which what it holds after each point is stated. -/
abbrev accV3 : View sig .tc .vmem S1024x64 .f32 := acc3.view

/-- What the region is entered with, beside the windows: the accumulator at some contents, the core's other scoped
    buffers that are no staging buffer of this call (unopened), and the generator register. -/
theorem PhiA3_eq (c : Dev nD) :
    (Pipeline.ΦA spec3 c : sProp 𝕄)
      = iprop(iprop((∃ d, owns (c : Thread nD τ) acc3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA
  rw [Pipeline.scopedRest_split_of_list spec3 c [cc3_scratch0] (by decide) (by decide)]
  simp only [BI.bigSepL_singleton, acc3, owns_whole]; try rfl

end Cert.KernelIdeal.Fr

end
-- ==== Proof.KI.Reg3RunA.lean ====
/-
  The pooling kernel's whole-body run at the FIRST grid point: the first conditional is taken (the accumulator is
  zeroed), the second is not (the result window is left alone). What the run finds is the list of pieces the
  accumulator ends with: the zero store, then the store of the point's sum over what was just stored.
-/
import proofs.«416223_j40458591928693_3_alg».proof.Proof.KI.Reg3Runs

-- membership in a rectangle of 1280 rows is decided coordinate by coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first point, on whole memrefs — the five inputs' at their contents `x0 … x4`, the result window's at
    contents `r` that are handed back untouched, the accumulator's at anything — the body runs to the inputs' and the
    result window's as they were and the accumulator with the found pieces `acc` written (last store first). -/
noncomputable def poolRunFirst (c : Dev nD) (i : grid3.Coords) (arg1 : Memref sig .tc .vmem S1280x64 .f32) (harg1 : arg1.IsWhole) (arg2 : Memref sig .tc .vmem S1x1280 .i32) (harg2 : arg2.IsWhole)
    (arg3 : Memref sig .tc .vmem S1024x1 .f32) (harg3 : arg3.IsWhole) (arg4 : Memref sig .tc .vmem S64x1 .f32) (harg4 : arg4.IsWhole)
    (arg5 : Memref sig .tc .vmem S1x1 .f32) (harg5 : arg5.IsWhole) (arg6 : Memref sig .tc .vmem S1024x1 .f32) (harg6 : arg6.IsWhole)
    (arg7 : Memref sig .tc .vmem S1024x64 .f32) (harg7 : arg7.IsWhole)
    (hfirst : atFirst3 i) (hlast : ¬atLast3 i) (x0 : Vec F S1280x64 .f32) (x1 : Vec F S1x1280 .i32) (x2 : Vec F S1024x1 .f32) (x3 : Vec F S64x1 .f32) (x4 : Vec F S1x1 .f32) :
    Σ' (res : List (View.Piece (Elt F) S1024x1 .f32)), { acc : List (View.Piece (Elt F) S1024x64 .f32) //
      ∀ (r : Vec F S1024x1 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare r ∗ (∃ d, owns (c : Thread nD τ) arg7 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ owns (c : Thread nD τ) arg6 fullShare r
                ∗ (∃ f, arg7.view.loc (c : Thread nD τ) ↦[arg7.view.set]{fullShare} arg7.view.writes (Elt F) f acc)) -∗ K ⟨⟩))
          ⊢ wp frame (wpE (defs₀ (F := F)) Variants.none c none) E (cc3__pool_kernel i arg1 harg1 arg2 harg2 arg3 harg3 arg4 harg4 arg5 harg5 arg6 harg6 arg7 harg7) K } := by
  refine ⟨[], ?_, fun r E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hfirst | exact hlast)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS

end Cert.KernelIdeal.Fr

end
-- ==== Proof.KI.Reg3RunB.lean ====
/-
  The pooling kernel's whole-body run at a MIDDLE grid point: neither conditional is taken. The accumulator comes in
  at what the point before left in it and ends with one piece: the store of the point's sum over those contents.
-/
import proofs.«416223_j40458591928693_3_alg».proof.Proof.KI.Reg3RunA

-- membership in a rectangle of 1280 rows is decided coordinate by coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a middle point, on whole memrefs — the five inputs' at `x0 … x4`, the result window's at contents `r` handed
    back untouched, the accumulator's at `a` (what the point before left) — the body runs to the inputs' and the result
    window's as they were and the accumulator with the found pieces `acc` written. -/
noncomputable def poolRunMid (c : Dev nD) (i : grid3.Coords) (arg1 : Memref sig .tc .vmem S1280x64 .f32) (harg1 : arg1.IsWhole) (arg2 : Memref sig .tc .vmem S1x1280 .i32) (harg2 : arg2.IsWhole)
    (arg3 : Memref sig .tc .vmem S1024x1 .f32) (harg3 : arg3.IsWhole) (arg4 : Memref sig .tc .vmem S64x1 .f32) (harg4 : arg4.IsWhole)
    (arg5 : Memref sig .tc .vmem S1x1 .f32) (harg5 : arg5.IsWhole) (arg6 : Memref sig .tc .vmem S1024x1 .f32) (harg6 : arg6.IsWhole)
    (arg7 : Memref sig .tc .vmem S1024x64 .f32) (harg7 : arg7.IsWhole)
    (hfirst : ¬atFirst3 i) (hlast : ¬atLast3 i) (x0 : Vec F S1280x64 .f32) (x1 : Vec F S1x1280 .i32) (x2 : Vec F S1024x1 .f32) (x3 : Vec F S64x1 .f32) (x4 : Vec F S1x1 .f32) (a : Vec F S1024x64 .f32) :
    Σ' (res : List (View.Piece (Elt F) S1024x1 .f32)), { acc : List (View.Piece (Elt F) S1024x64 .f32) //
      ∀ (r : Vec F S1024x1 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare r ∗ owns (c : Thread nD τ) arg7 fullShare a
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ owns (c : Thread nD τ) arg6 fullShare r
                ∗ (∃ f, arg7.view.loc (c : Thread nD τ) ↦[arg7.view.set]{fullShare} arg7.view.writes (Elt F) f acc)) -∗ K ⟨⟩))
          ⊢ wp frame (wpE (defs₀ (F := F)) Variants.none c none) E (cc3__pool_kernel i arg1 harg1 arg2 harg2 arg3 harg3 arg4 harg4 arg5 harg5 arg6 harg6 arg7 harg7) K } := by
  refine ⟨[], ?_, fun r E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hfs
    sl_exec (disch := first | exact hfirst | exact hlast)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS

end Cert.KernelIdeal.Fr

end
-- ==== Proof.KI.Reg3RunC.lean ====
/-
  The pooling kernel's whole-body run at the LAST grid point: the first conditional is not taken, the second is. The
  accumulator comes in at what the point before left, gets the point's sum stored over it, and is then read back
  with windows 2, 3, 4 to store the result window whole.
-/
import proofs.«416223_j40458591928693_3_alg».proof.Proof.KI.Reg3RunB

-- membership in a rectangle of 1280 rows is decided coordinate by coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the last point, on whole memrefs — the five inputs' at `x0 … x4`, the result window's at anything, the
    accumulator's at `a` (what the point before left) — the body runs to the inputs' as they were, the result window
    with the found pieces `res` written and the accumulator with the found pieces `acc` written. -/
noncomputable def poolRunLast (c : Dev nD) (i : grid3.Coords) (arg1 : Memref sig .tc .vmem S1280x64 .f32) (harg1 : arg1.IsWhole) (arg2 : Memref sig .tc .vmem S1x1280 .i32) (harg2 : arg2.IsWhole)
    (arg3 : Memref sig .tc .vmem S1024x1 .f32) (harg3 : arg3.IsWhole) (arg4 : Memref sig .tc .vmem S64x1 .f32) (harg4 : arg4.IsWhole)
    (arg5 : Memref sig .tc .vmem S1x1 .f32) (harg5 : arg5.IsWhole) (arg6 : Memref sig .tc .vmem S1024x1 .f32) (harg6 : arg6.IsWhole)
    (arg7 : Memref sig .tc .vmem S1024x64 .f32) (harg7 : arg7.IsWhole)
    (hfirst : ¬atFirst3 i) (hlast : atLast3 i) (x0 : Vec F S1280x64 .f32) (x1 : Vec F S1x1280 .i32) (x2 : Vec F S1024x1 .f32) (x3 : Vec F S64x1 .f32) (x4 : Vec F S1x1 .f32) (a : Vec F S1024x64 .f32) :
    Σ' (res : List (View.Piece (Elt F) S1024x1 .f32)), { acc : List (View.Piece (Elt F) S1024x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ owns (c : Thread nD τ) arg7 fullShare a
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f res)
                ∗ (∃ f, arg7.view.loc (c : Thread nD τ) ↦[arg7.view.set]{fullShare} arg7.view.writes (Elt F) f acc)) -∗ K ⟨⟩))
          ⊢ wp frame (wpE (defs₀ (F := F)) Variants.none c none) E (cc3__pool_kernel i arg1 harg1 arg2 harg2 arg3 harg3 arg4 harg4 arg5 harg5 arg6 harg6 arg7 harg7) K } := by
  refine ⟨?_, ?_, fun E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hfs
    sl_exec (disch := first | exact hfirst | exact hlast)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS

end Cert.KernelIdeal.Fr

end
-- ==== Proof.KI.Reg3.lean ====
/-
  The fourth pallas_call of the program (the pooling kernel) at an arbitrary valuation `V` of the TensorCore's buffers
  when it is entered: what the accumulator and the result window hold point by point, the pipeline's proof data, and
  the body obligation. The accumulator is zeroed at point 0 and grows by one product per point; the result window is
  stored at point 156 only and is idle before. The invariant carries the accumulator at its named contents from each
  point to the next.
-/
import proofs.«416223_j40458591928693_3_alg».proof.Proof.KI.Reg3RunC

-- membership in a rectangle of 1280 rows is decided coordinate by coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves in the accumulator and in the result window -/

/-- The first point's pieces for the accumulator (the zero store under the first conditional, then the sum's store)
    tile it, so they cover it. -/
theorem accCoverFirst (c : Dev nD) (i : grid3.Coords) (arg1 : Memref sig .tc .vmem S1280x64 .f32) (harg1 : arg1.IsWhole) (arg2 : Memref sig .tc .vmem S1x1280 .i32) (harg2 : arg2.IsWhole)
    (arg3 : Memref sig .tc .vmem S1024x1 .f32) (harg3 : arg3.IsWhole) (arg4 : Memref sig .tc .vmem S64x1 .f32) (harg4 : arg4.IsWhole)
    (arg5 : Memref sig .tc .vmem S1x1 .f32) (harg5 : arg5.IsWhole) (arg6 : Memref sig .tc .vmem S1024x1 .f32) (harg6 : arg6.IsWhole)
    (arg7 : Memref sig .tc .vmem S1024x64 .f32) (harg7 : arg7.IsWhole)
    (hfirst : atFirst3 i) (hlast : ¬atLast3 i) (x0 : Vec F S1280x64 .f32) (x1 : Vec F S1x1280 .i32) (x2 : Vec F S1024x1 .f32) (x3 : Vec F S64x1 .f32) (x4 : Vec F S1x1 .f32) (y : S1024x64.Idx) :
    ∃ pc ∈ (poolRunFirst c i arg1 harg1 arg2 harg2 arg3 harg3 arg4 harg4 arg5 harg5 arg6 harg6 arg7 harg7 hfirst hlast x0 x1 x2 x3 x4).2.1, y ∈ pc.1.set :=
  View.cover_of_tiledL (poolRunFirst c i arg1 harg1 arg2 harg2 arg3 harg3 arg4 harg4 arg5 harg5 arg6 harg6 arg7 harg7 hfirst hlast x0 x1 x2 x3 x4).2.1 S1024x64.size (by sl_kernel_rfl) y

/-- What the first point leaves in the accumulator: its pieces read back. -/
def accFirst (c : Dev nD) (i : grid3.Coords) (arg1 : Memref sig .tc .vmem S1280x64 .f32) (harg1 : arg1.IsWhole) (arg2 : Memref sig .tc .vmem S1x1280 .i32) (harg2 : arg2.IsWhole)
    (arg3 : Memref sig .tc .vmem S1024x1 .f32) (harg3 : arg3.IsWhole) (arg4 : Memref sig .tc .vmem S64x1 .f32) (harg4 : arg4.IsWhole)
    (arg5 : Memref sig .tc .vmem S1x1 .f32) (harg5 : arg5.IsWhole) (arg6 : Memref sig .tc .vmem S1024x1 .f32) (harg6 : arg6.IsWhole)
    (arg7 : Memref sig .tc .vmem S1024x64 .f32) (harg7 : arg7.IsWhole)
    (hfirst : atFirst3 i) (hlast : ¬atLast3 i) (x0 : Vec F S1280x64 .f32) (x1 : Vec F S1x1280 .i32) (x2 : Vec F S1024x1 .f32) (x3 : Vec F S64x1 .f32) (x4 : Vec F S1x1 .f32) : Vec F S1024x64 .f32 :=
  accV3.read (Elt F) (accV3.writes (Elt F) accV3.junk (poolRunFirst c i arg1 harg1 arg2 harg2 arg3 harg3 arg4 harg4 arg5 harg5 arg6 harg6 arg7 harg7 hfirst hlast x0 x1 x2 x3 x4).2.1)

/-- A middle point's one piece for the accumulator (the sum's store) covers it. -/
theorem accCoverMid (c : Dev nD) (i : grid3.Coords) (arg1 : Memref sig .tc .vmem S1280x64 .f32) (harg1 : arg1.IsWhole) (arg2 : Memref sig .tc .vmem S1x1280 .i32) (harg2 : arg2.IsWhole)
    (arg3 : Memref sig .tc .vmem S1024x1 .f32) (harg3 : arg3.IsWhole) (arg4 : Memref sig .tc .vmem S64x1 .f32) (harg4 : arg4.IsWhole)
    (arg5 : Memref sig .tc .vmem S1x1 .f32) (harg5 : arg5.IsWhole) (arg6 : Memref sig .tc .vmem S1024x1 .f32) (harg6 : arg6.IsWhole)
    (arg7 : Memref sig .tc .vmem S1024x64 .f32) (harg7 : arg7.IsWhole)
    (hfirst : ¬atFirst3 i) (hlast : ¬atLast3 i) (x0 : Vec F S1280x64 .f32) (x1 : Vec F S1x1280 .i32) (x2 : Vec F S1024x1 .f32) (x3 : Vec F S64x1 .f32) (x4 : Vec F S1x1 .f32) (a : Vec F S1024x64 .f32) (y : S1024x64.Idx) :
    ∃ pc ∈ (poolRunMid c i arg1 harg1 arg2 harg2 arg3 harg3 arg4 harg4 arg5 harg5 arg6 harg6 arg7 harg7 hfirst hlast x0 x1 x2 x3 x4 a).2.1, y ∈ pc.1.set :=
  View.cover_of_tiledL (poolRunMid c i arg1 harg1 arg2 harg2 arg3 harg3 arg4 harg4 arg5 harg5 arg6 harg6 arg7 harg7 hfirst hlast x0 x1 x2 x3 x4 a).2.1 S1024x64.size (by sl_kernel_rfl) y

/-- What a middle point leaves in the accumulator, from what the point before left (`a`). -/
def accMid (c : Dev nD) (i : grid3.Coords) (arg1 : Memref sig .tc .vmem S1280x64 .f32) (harg1 : arg1.IsWhole) (arg2 : Memref sig .tc .vmem S1x1280 .i32) (harg2 : arg2.IsWhole)
    (arg3 : Memref sig .tc .vmem S1024x1 .f32) (harg3 : arg3.IsWhole) (arg4 : Memref sig .tc .vmem S64x1 .f32) (harg4 : arg4.IsWhole)
    (arg5 : Memref sig .tc .vmem S1x1 .f32) (harg5 : arg5.IsWhole) (arg6 : Memref sig .tc .vmem S1024x1 .f32) (harg6 : arg6.IsWhole)
    (arg7 : Memref sig .tc .vmem S1024x64 .f32) (harg7 : arg7.IsWhole)
    (hfirst : ¬atFirst3 i) (hlast : ¬atLast3 i) (x0 : Vec F S1280x64 .f32) (x1 : Vec F S1x1280 .i32) (x2 : Vec F S1024x1 .f32) (x3 : Vec F S64x1 .f32) (x4 : Vec F S1x1 .f32) (a : Vec F S1024x64 .f32) : Vec F S1024x64 .f32 :=
  accV3.read (Elt F) (accV3.writes (Elt F) accV3.junk (poolRunMid c i arg1 harg1 arg2 harg2 arg3 harg3 arg4 harg4 arg5 harg5 arg6 harg6 arg7 harg7 hfirst hlast x0 x1 x2 x3 x4 a).2.1)

/-- The last point's one piece for the accumulator covers it. -/
theorem accCoverLast (c : Dev nD) (i : grid3.Coords) (arg1 : Memref sig .tc .vmem S1280x64 .f32) (harg1 : arg1.IsWhole) (arg2 : Memref sig .tc .vmem S1x1280 .i32) (harg2 : arg2.IsWhole)
    (arg3 : Memref sig .tc .vmem S1024x1 .f32) (harg3 : arg3.IsWhole) (arg4 : Memref sig .tc .vmem S64x1 .f32) (harg4 : arg4.IsWhole)
    (arg5 : Memref sig .tc .vmem S1x1 .f32) (harg5 : arg5.IsWhole) (arg6 : Memref sig .tc .vmem S1024x1 .f32) (harg6 : arg6.IsWhole)
    (arg7 : Memref sig .tc .vmem S1024x64 .f32) (harg7 : arg7.IsWhole)
    (hfirst : ¬atFirst3 i) (hlast : atLast3 i) (x0 : Vec F S1280x64 .f32) (x1 : Vec F S1x1280 .i32) (x2 : Vec F S1024x1 .f32) (x3 : Vec F S64x1 .f32) (x4 : Vec F S1x1 .f32) (a : Vec F S1024x64 .f32) (y : S1024x64.Idx) :
    ∃ pc ∈ (poolRunLast c i arg1 harg1 arg2 harg2 arg3 harg3 arg4 harg4 arg5 harg5 arg6 harg6 arg7 harg7 hfirst hlast x0 x1 x2 x3 x4 a).2.1, y ∈ pc.1.set :=
  View.cover_of_tiledL (poolRunLast c i arg1 harg1 arg2 harg2 arg3 harg3 arg4 harg4 arg5 harg5 arg6 harg6 arg7 harg7 hfirst hlast x0 x1 x2 x3 x4 a).2.1 S1024x64.size (by sl_kernel_rfl) y

/-- What the last point leaves in the accumulator. -/
def accLast (c : Dev nD) (i : grid3.Coords) (arg1 : Memref sig .tc .vmem S1280x64 .f32) (harg1 : arg1.IsWhole) (arg2 : Memref sig .tc .vmem S1x1280 .i32) (harg2 : arg2.IsWhole)
    (arg3 : Memref sig .tc .vmem S1024x1 .f32) (harg3 : arg3.IsWhole) (arg4 : Memref sig .tc .vmem S64x1 .f32) (harg4 : arg4.IsWhole)
    (arg5 : Memref sig .tc .vmem S1x1 .f32) (harg5 : arg5.IsWhole) (arg6 : Memref sig .tc .vmem S1024x1 .f32) (harg6 : arg6.IsWhole)
    (arg7 : Memref sig .tc .vmem S1024x64 .f32) (harg7 : arg7.IsWhole)
    (hfirst : ¬atFirst3 i) (hlast : atLast3 i) (x0 : Vec F S1280x64 .f32) (x1 : Vec F S1x1280 .i32) (x2 : Vec F S1024x1 .f32) (x3 : Vec F S64x1 .f32) (x4 : Vec F S1x1 .f32) (a : Vec F S1024x64 .f32) : Vec F S1024x64 .f32 :=
  accV3.read (Elt F) (accV3.writes (Elt F) accV3.junk (poolRunLast c i arg1 harg1 arg2 harg2 arg3 harg3 arg4 harg4 arg5 harg5 arg6 harg6 arg7 harg7 hfirst hlast x0 x1 x2 x3 x4 a).2.1)

/-- The last point's one piece for the result window (the store under the second conditional) covers it. -/
theorem resCoverLast (c : Dev nD) (i : grid3.Coords) (arg1 : Memref sig .tc .vmem S1280x64 .f32) (harg1 : arg1.IsWhole) (arg2 : Memref sig .tc .vmem S1x1280 .i32) (harg2 : arg2.IsWhole)
    (arg3 : Memref sig .tc .vmem S1024x1 .f32) (harg3 : arg3.IsWhole) (arg4 : Memref sig .tc .vmem S64x1 .f32) (harg4 : arg4.IsWhole)
    (arg5 : Memref sig .tc .vmem S1x1 .f32) (harg5 : arg5.IsWhole) (arg6 : Memref sig .tc .vmem S1024x1 .f32) (harg6 : arg6.IsWhole)
    (arg7 : Memref sig .tc .vmem S1024x64 .f32) (harg7 : arg7.IsWhole)
    (hfirst : ¬atFirst3 i) (hlast : atLast3 i) (x0 : Vec F S1280x64 .f32) (x1 : Vec F S1x1280 .i32) (x2 : Vec F S1024x1 .f32) (x3 : Vec F S64x1 .f32) (x4 : Vec F S1x1 .f32) (a : Vec F S1024x64 .f32) (y : S1024x1.Idx) :
    ∃ pc ∈ (poolRunLast c i arg1 harg1 arg2 harg2 arg3 harg3 arg4 harg4 arg5 harg5 arg6 harg6 arg7 harg7 hfirst hlast x0 x1 x2 x3 x4 a).1, y ∈ pc.1.set :=
  View.cover_of_tiledL (poolRunLast c i arg1 harg1 arg2 harg2 arg3 harg3 arg4 harg4 arg5 harg5 arg6 harg6 arg7 harg7 hfirst hlast x0 x1 x2 x3 x4 a).1 S1024x1.size (by sl_kernel_rfl) y

/-- What the last point leaves in the result window's buffer. -/
def resLast (c : Dev nD) (i : grid3.Coords) (arg1 : Memref sig .tc .vmem S1280x64 .f32) (harg1 : arg1.IsWhole) (arg2 : Memref sig .tc .vmem S1x1280 .i32) (harg2 : arg2.IsWhole)
    (arg3 : Memref sig .tc .vmem S1024x1 .f32) (harg3 : arg3.IsWhole) (arg4 : Memref sig .tc .vmem S64x1 .f32) (harg4 : arg4.IsWhole)
    (arg5 : Memref sig .tc .vmem S1x1 .f32) (harg5 : arg5.IsWhole) (arg6 : Memref sig .tc .vmem S1024x1 .f32) (harg6 : arg6.IsWhole)
    (arg7 : Memref sig .tc .vmem S1024x64 .f32) (harg7 : arg7.IsWhole)
    (hfirst : ¬atFirst3 i) (hlast : atLast3 i) (x0 : Vec F S1280x64 .f32) (x1 : Vec F S1x1280 .i32) (x2 : Vec F S1024x1 .f32) (x3 : Vec F S64x1 .f32) (x4 : Vec F S1x1 .f32) (a : Vec F S1024x64 .f32) : Vec F S1024x1 .f32 :=
  resV3.read (Elt F) (resV3.writes (Elt F) resV3.junk (poolRunLast c i arg1 harg1 arg2 harg2 arg3 harg3 arg4 harg4 arg5 harg5 arg6 harg6 arg7 harg7 hfirst hlast x0 x1 x2 x3 x4 a).1)

/-- Before the last point nothing is stored into the result window: a placeholder that nothing consults (at those
    points the window is neither written back nor read at the next point). -/
def resIdle3 : Vec F S1024x1 .f32 := resV3.read (Elt F) resV3.junk

/-! ## What the result window and the accumulator hold after each point -/

/-- The accumulation. After the body at position `n`: (the result window's buffer, the accumulator). Point 0 zeroes the
    accumulator and adds its product; every later point adds its product to what the point before left; point 156 also
    stores the result window from the accumulator it has just completed. -/
def outsAt3 (c : Dev nD) : (n : ℕ) → n < cfg3.N → Vec F S1024x1 .f32 × Vec F S1024x64 .f32
  | 0, hn => (resIdle3, accFirst c (grid3.coords ⟨0, hn⟩) (st3_0 ⟨0, hn⟩) (hst3_0 ⟨0, hn⟩) (st3_1 ⟨0, hn⟩) (hst3_1 ⟨0, hn⟩) (st3_2 ⟨0, hn⟩) (hst3_2 ⟨0, hn⟩) (st3_3 ⟨0, hn⟩) (hst3_3 ⟨0, hn⟩) (st3_4 ⟨0, hn⟩) (hst3_4 ⟨0, hn⟩) (st3_5 ⟨0, hn⟩) (hst3_5 ⟨0, hn⟩) acc3 (Memref.isWhole_whole _) ((atFirst3_iff ⟨0, hn⟩).mpr rfl) (fun h => (fun h => by (try dsimp only at h); omega) ((atLast3_iff ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩))
  | n + 1, hn =>
    if h1 : n + 1 = 156 then
      (resLast c (grid3.coords ⟨n + 1, hn⟩) (st3_0 ⟨n + 1, hn⟩) (hst3_0 ⟨n + 1, hn⟩) (st3_1 ⟨n + 1, hn⟩) (hst3_1 ⟨n + 1, hn⟩) (st3_2 ⟨n + 1, hn⟩) (hst3_2 ⟨n + 1, hn⟩) (st3_3 ⟨n + 1, hn⟩) (hst3_3 ⟨n + 1, hn⟩) (st3_4 ⟨n + 1, hn⟩) (hst3_4 ⟨n + 1, hn⟩) (st3_5 ⟨n + 1, hn⟩) (hst3_5 ⟨n + 1, hn⟩) acc3 (Memref.isWhole_whole _) (fun h => Nat.succ_ne_zero n ((atFirst3_iff ⟨n + 1, hn⟩).mp h)) ((atLast3_iff ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2,
       accLast c (grid3.coords ⟨n + 1, hn⟩) (st3_0 ⟨n + 1, hn⟩) (hst3_0 ⟨n + 1, hn⟩) (st3_1 ⟨n + 1, hn⟩) (hst3_1 ⟨n + 1, hn⟩) (st3_2 ⟨n + 1, hn⟩) (hst3_2 ⟨n + 1, hn⟩) (st3_3 ⟨n + 1, hn⟩) (hst3_3 ⟨n + 1, hn⟩) (st3_4 ⟨n + 1, hn⟩) (hst3_4 ⟨n + 1, hn⟩) (st3_5 ⟨n + 1, hn⟩) (hst3_5 ⟨n + 1, hn⟩) acc3 (Memref.isWhole_whole _) (fun h => Nat.succ_ne_zero n ((atFirst3_iff ⟨n + 1, hn⟩).mp h)) ((atLast3_iff ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2)
    else
      (resIdle3, accMid c (grid3.coords ⟨n + 1, hn⟩) (st3_0 ⟨n + 1, hn⟩) (hst3_0 ⟨n + 1, hn⟩) (st3_1 ⟨n + 1, hn⟩) (hst3_1 ⟨n + 1, hn⟩) (st3_2 ⟨n + 1, hn⟩) (hst3_2 ⟨n + 1, hn⟩) (st3_3 ⟨n + 1, hn⟩) (hst3_3 ⟨n + 1, hn⟩) (st3_4 ⟨n + 1, hn⟩) (hst3_4 ⟨n + 1, hn⟩) (st3_5 ⟨n + 1, hn⟩) (hst3_5 ⟨n + 1, hn⟩) acc3 (Memref.isWhole_whole _) (fun h => Nat.succ_ne_zero n ((atFirst3_iff ⟨n + 1, hn⟩).mp h)) (fun h => h1 ((atLast3_iff ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2)

/-- `outsAt3` at the first point. -/
theorem outsAt3_A (c : Dev nD) (t : Fin cfg3.N) (h0 : t.val = 0) (h1 : ¬t.val = 156) :
    outsAt3 V c t.val t.isLt = (resIdle3, accFirst c (grid3.coords t) (st3_0 t) (hst3_0 t) (st3_1 t) (hst3_1 t) (st3_2 t) (hst3_2 t) (st3_3 t) (hst3_3 t) (st3_4 t) (hst3_4 t) (st3_5 t) (hst3_5 t) acc3 (Memref.isWhole_whole _) ((atFirst3_iff t).mpr h0) (fun h => h1 ((atLast3_iff t).mp h)) (iblk3 V c 0 t) (iblk3 V c 1 t) (iblk3 V c 2 t) (iblk3 V c 3 t) (iblk3 V c 4 t)) := by
  obtain ⟨n, hn⟩ := t
  cases n with
  | zero => exact rfl
  | succ n => exact absurd h0 (Nat.succ_ne_zero n)

/-- `outsAt3` at a middle point: over what the point before left in the accumulator. -/
theorem outsAt3_B (c : Dev nD) (t : Fin cfg3.N) (h0 : ¬t.val = 0) (h1 : ¬t.val = 156) :
    outsAt3 V c t.val t.isLt = (resIdle3, accMid c (grid3.coords t) (st3_0 t) (hst3_0 t) (st3_1 t) (hst3_1 t) (st3_2 t) (hst3_2 t) (st3_3 t) (hst3_3 t) (st3_4 t) (hst3_4 t) (st3_5 t) (hst3_5 t) acc3 (Memref.isWhole_whole _) (fun h => h0 ((atFirst3_iff t).mp h)) (fun h => h1 ((atLast3_iff t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2) := by
  obtain ⟨n, hn⟩ := t
  cases n with
  | zero => exact absurd rfl h0
  | succ n => exact (dif_neg h1).trans rfl

/-- `outsAt3` at the last point: over what the point before left in the accumulator. -/
theorem outsAt3_C (c : Dev nD) (t : Fin cfg3.N) (h0 : ¬t.val = 0) (h1 : t.val = 156) :
    outsAt3 V c t.val t.isLt = (resLast c (grid3.coords t) (st3_0 t) (hst3_0 t) (st3_1 t) (hst3_1 t) (st3_2 t) (hst3_2 t) (st3_3 t) (hst3_3 t) (st3_4 t) (hst3_4 t) (st3_5 t) (hst3_5 t) acc3 (Memref.isWhole_whole _) (fun h => h0 ((atFirst3_iff t).mp h)) ((atLast3_iff t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2,
      accLast c (grid3.coords t) (st3_0 t) (hst3_0 t) (st3_1 t) (hst3_1 t) (st3_2 t) (hst3_2 t) (st3_3 t) (hst3_3 t) (st3_4 t) (hst3_4 t) (st3_5 t) (hst3_5 t) acc3 (Memref.isWhole_whole _) (fun h => h0 ((atFirst3_iff t).mp h)) ((atLast3_iff t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant: the accumulator carried from point to point -/

/-- Before position `n`: at the region's entry what the region is handed (the accumulator at anything); afterwards
    the accumulator at what the point before left in it, beside the core's other scoped buffers and the generator
    register. -/
def PhiS3 (c : Dev nD) : (n : ℕ) → n ≤ cfg3.N → sProp 𝕄
  | 0, _ => Pipeline.ΦA spec3 c
  | n + 1, hn => iprop(iprop(owns (c : Thread nD τ) acc3 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) acc3 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) acc3 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

/-- The proof data of this pipeline on core `c`: the arrays as the region finds them; after the body at point `t` each
    input's buffer still at its block, the result window's at `outsAt3`'s first component; the invariant `PhiS3`;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4800000 in
/-- The body at any point. The inputs' buffers hold their blocks; the point's position says which of the three runs
    applies. The invariant hands the body the accumulator (at anything at the first point, later at what the point
    before left) and takes it back at this point's contents, by the case's cover; the other scoped buffers, the
    generator register and what the core owes pass through unread. Before the last point the result window's buffer
    is handed back as it came. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  have hN : t.val < 157 := lt_of_lt_of_eq t.isLt (show cfg3.N = 157 from N_3)
  by_cases h0 : t.val = 0
  · have h1 : ¬t.val = 156 := by omega
    · rw [show (dat3 V c).leavesExact 0 t = owns (c : Thread nD τ) (st3_0 t) fullShare ((dat3 V c).after 0 t) from by
        unfold Dat.leavesExact; rw [live3_0 t], after3_0]
      rw [show (dat3 V c).leavesExact 1 t = owns (c : Thread nD τ) (st3_1 t) fullShare ((dat3 V c).after 1 t) from by
        unfold Dat.leavesExact; rw [live3_1 t], after3_1]
      rw [show (dat3 V c).leavesExact 2 t = owns (c : Thread nD τ) (st3_2 t) fullShare ((dat3 V c).after 2 t) from by
        unfold Dat.leavesExact; rw [live3_2 t], after3_2]
      rw [show (dat3 V c).leavesExact 3 t = owns (c : Thread nD τ) (st3_3 t) fullShare ((dat3 V c).after 3 t) from by
        unfold Dat.leavesExact; rw [live3_3 t], after3_3]
      rw [show (dat3 V c).leavesExact 4 t = owns (c : Thread nD τ) (st3_4 t) fullShare ((dat3 V c).after 4 t) from by
        unfold Dat.leavesExact; rw [live3_4 t], after3_4]
      rw [Dat.leavesExact_idle (dat3 V c) 5 t (idle3_5 t (fun h => h1 ((atLast3_iff t).mp h))) (noFlush3_5 t (fun h => h1 ((atLast3_iff t).mp h)))]
      rw [outsAt3_A V c t h0 h1]
      unfold accFirst; (try dsimp only)
      rw [PhiS3_castSucc V c t, PhiS3_zero V c _ _ h0, PhiA3_eq]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((poolRunFirst c (grid3.coords t) _ _ _ _ _ _ _ _ _ _ _ _ _ _ ((atFirst3_iff t).mpr h0) (fun h => h1 ((atLast3_iff t).mp h)) (iblk3 V c 0 t) (iblk3 V c 1 t) (iblk3 V c 2 t) (iblk3 V c 3 t) (iblk3 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS HR Hg]
      · isplitl [HS HR]
        · isplitl [HS]
          · unfold owns; iexists _; isplitr
            swap; · iexact HS
            ipureintro; exact View.read_writes_of_cover _ _ _ _ _ (accCoverFirst c _ _ _ _ _ _ _ _ _ _ _ _ _ _ _ _ _ _ _ _ _ _ )
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · by_cases h1 : t.val = 156
    · rw [show (dat3 V c).leavesExact 0 t = owns (c : Thread nD τ) (st3_0 t) fullShare ((dat3 V c).after 0 t) from by
        unfold Dat.leavesExact; rw [live3_0 t], after3_0]
      rw [show (dat3 V c).leavesExact 1 t = owns (c : Thread nD τ) (st3_1 t) fullShare ((dat3 V c).after 1 t) from by
        unfold Dat.leavesExact; rw [live3_1 t], after3_1]
      rw [show (dat3 V c).leavesExact 2 t = owns (c : Thread nD τ) (st3_2 t) fullShare ((dat3 V c).after 2 t) from by
        unfold Dat.leavesExact; rw [live3_2 t], after3_2]
      rw [show (dat3 V c).leavesExact 3 t = owns (c : Thread nD τ) (st3_3 t) fullShare ((dat3 V c).after 3 t) from by
        unfold Dat.leavesExact; rw [live3_3 t], after3_3]
      rw [show (dat3 V c).leavesExact 4 t = owns (c : Thread nD τ) (st3_4 t) fullShare ((dat3 V c).after 4 t) from by
        unfold Dat.leavesExact; rw [live3_4 t], after3_4]
      rw [show (dat3 V c).leavesExact 5 t = owns (c : Thread nD τ) (st3_5 t) fullShare ((dat3 V c).after 5 t) from by
        unfold Dat.leavesExact; rw [live3_5 t ((atLast3_iff t).mpr h1)], after3_5]
      rw [outsAt3_C V c t h0 h1]
      unfold resLast accLast; (try dsimp only)
      rw [PhiS3_castSucc V c t, PhiS3_pos V c _ _ h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((poolRunLast c (grid3.coords t) _ _ _ _ _ _ _ _ _ _ _ _ _ _ (fun h => h0 ((atFirst3_iff t).mp h)) ((atLast3_iff t).mpr h1) (iblk3 V c 0 t) (iblk3 V c 1 t) (iblk3 V c 2 t) (iblk3 V c 3 t) (iblk3 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS HR Hg]
      · isplitl [HS HR]
        · isplitl [HS]
          · unfold owns; iexists _; isplitr
            swap; · iexact HS
            ipureintro; exact View.read_writes_of_cover _ _ _ _ _ (accCoverLast c _ _ _ _ _ _ _ _ _ _ _ _ _ _ _ _ _ _ _ _ _ _ _ )
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (resCoverLast c _ _ _ _ _ _ _ _ _ _ _ _ _ _ _ _ _ _ _ _ _ _ _ )
    · rw [show (dat3 V c).leavesExact 0 t = owns (c : Thread nD τ) (st3_0 t) fullShare ((dat3 V c).after 0 t) from by
        unfold Dat.leavesExact; rw [live3_0 t], after3_0]
      rw [show (dat3 V c).leavesExact 1 t = owns (c : Thread nD τ) (st3_1 t) fullShare ((dat3 V c).after 1 t) from by
        unfold Dat.leavesExact; rw [live3_1 t], after3_1]
      rw [show (dat3 V c).leavesExact 2 t = owns (c : Thread nD τ) (st3_2 t) fullShare ((dat3 V c).after 2 t) from by
        unfold Dat.leavesExact; rw [live3_2 t], after3_2]
      rw [show (dat3 V c).leavesExact 3 t = owns (c : Thread nD τ) (st3_3 t) fullShare ((dat3 V c).after 3 t) from by
        unfold Dat.leavesExact; rw [live3_3 t], after3_3]
      rw [show (dat3 V c).leavesExact 4 t = owns (c : Thread nD τ) (st3_4 t) fullShare ((dat3 V c).after 4 t) from by
        unfold Dat.leavesExact; rw [live3_4 t], after3_4]
      rw [Dat.leavesExact_idle (dat3 V c) 5 t (idle3_5 t (fun h => h1 ((atLast3_iff t).mp h))) (noFlush3_5 t (fun h => h1 ((atLast3_iff t).mp h)))]
      rw [outsAt3_B V c t h0 h1]
      unfold accMid; (try dsimp only)
      rw [PhiS3_castSucc V c t, PhiS3_pos V c _ _ h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((poolRunMid c (grid3.coords t) _ _ _ _ _ _ _ _ _ _ _ _ _ _ (fun h => h0 ((atFirst3_iff t).mp h)) (fun h => h1 ((atLast3_iff t).mp h)) (iblk3 V c 0 t) (iblk3 V c 1 t) (iblk3 V c 2 t) (iblk3 V c 3 t) (iblk3 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS HR Hg]
      · isplitl [HS HR]
        · isplitl [HS]
          · unfold owns; iexists _; isplitr
            swap; · iexact HS
            ipureintro; exact View.read_writes_of_cover _ _ _ _ _ (accCoverMid c _ _ _ _ _ _ _ _ _ _ _ _ _ _ _ _ _ _ _ _ _ _ _ )
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation of the pipeline library, at every point. -/
theorem body_obligation3 (c : Dev nD) : BodyObligation (dat3 (F := F) V c) (defs₀ (F := F)) Variants.none () Set.univ := fun t => by
  rw [bigSep_W3, bigSep_W3]
  exact sound_body3 V c t

/-- What the region is entered with is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point the invariant gives back what the region was entered with: the accumulator's named contents are
    forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, HR⟩, Hg⟩
  isplitl [HS HR]
  · isplitl [HS]
    · iexists _; iexact HS
    iexact HR
  iexact Hg

/-- The same after the last point. -/
theorem hout3 (c : Dev nD) : (dat3 V c).Φ (Fin.last cfg3.N) ⊢ Pipeline.ΦA spec3 c :=
  Phi_out3 V c _ (by rw [Fin.val_last]; have : cfg3.N = 157 := N_3; omega)

end Cert.KernelIdeal.Fr

end
-- ==== Proof.KI.Run.lean ====
/-
  The whole program as a list of segments: the host stretches between the four pallas_calls and the four regions, each
  region entered with the TensorCore's buffers at the contents the segment before it left. The contents are a fold from
  the launch memory: a host stretch applies its operations; a region replaces its result buffer by what the pipeline
  leaves there (the fold of the output window's write-backs over the grid) and keeps every other buffer. Every weakly
  fair execution terminates, nothing faulting, and the final memory holds every unscoped buffer at the last contents
  of that fold; in particular the arguments, which nothing writes, end as launched, and the result buffer ends at the
  last host operation's value of the fourth region's result. Stated at any float family.
-/
import proofs.«416223_j40458591928693_3_alg».proof.Proof.KI.Reg0
import proofs.«416223_j40458591928693_3_alg».proof.Proof.KI.Reg1
import proofs.«416223_j40458591928693_3_alg».proof.Proof.KI.Reg2
import proofs.«416223_j40458591928693_3_alg».proof.Proof.KI.Reg3
import proofs.«416223_j40458591928693_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents between segments -/

/-- A core's buffer contents read at the TensorCore's references (what a region's proof data take). -/
abbrev atTc (W : Dev nD → Valuation τ sig (Elt F)) : (c : Dev nD) → (b : Ref sig .tc) → Buf (Elt F) ((c : Thread nD τ).loc b) :=
  fun c b => W c b

/-- Before region 0: the launch memory through the three host stretches in front of it. -/
abbrev Y3 (c : Dev nD) : Valuation τ sig (Elt F) := Gen.V3 m c
/-- After region 0: its result buffer at what the pipeline leaves. -/
def Y4 (c : Dev nD) : Valuation τ sig (Elt F) :=
  Function.update (Y3 m c) main_v30 ((dat0 (atTc (Y3 m)) c).arrAt 4 cfg0.N)
/-- After region 1. -/
def Y5 (c : Dev nD) : Valuation τ sig (Elt F) :=
  Function.update (Y4 m c) main_v31 ((dat1 (atTc (Y4 m)) c).arrAt 3 cfg1.N)
/-- After the host stretch between regions 1 and 2. -/
abbrev Y6 (c : Dev nD) : Valuation τ sig (Elt F) := StableHlo.after hostOps2 (Y5 m c)
/-- After region 2. -/
def Y7 (c : Dev nD) : Valuation τ sig (Elt F) :=
  Function.update (Y6 m c) main_v43 ((dat2 (atTc (Y6 m)) c).arrAt 3 cfg2.N)
/-- After the five host stretches between regions 2 and 3. -/
abbrev Y12 (c : Dev nD) : Valuation τ sig (Elt F) :=
  StableHlo.after hostOps3_4 (StableHlo.after hostOps3_3 (StableHlo.after hostOps3_2 (StableHlo.after hostOps3_1 (StableHlo.after hostOps3 (Y7 m c)))))
/-- After region 3. -/
def Y13 (c : Dev nD) : Valuation τ sig (Elt F) :=
  Function.update (Y12 m c) main_v52 ((dat3 (atTc (Y12 m)) c).arrAt 5 cfg3.N)
/-- At the end: the last host stretch. -/
abbrev Y14 (c : Dev nD) : Valuation τ sig (Elt F) := StableHlo.after hostOps4 (Y13 m c)

/-- What the regions leave, as the conditional frame's valuations read it: region by region, the contents above. -/
def outs : Gen.Outs (F := F) := fun j r c =>
  match j with
  | 4 => Y4 m c r
  | 5 => Y5 m c r
  | 7 => Y7 m c r
  | _ => Y13 m c r

theorem V4_eq (c : Dev nD) : Gen.V4 m (outs m) c = Y4 m c := by
  show Function.update (Gen.V3 m c) main_v30 (Y4 m c main_v30) = Y4 m c
  unfold Y4; rw [Function.update_self]
theorem V5_eq (c : Dev nD) : Gen.V5 m (outs m) c = Y5 m c := by
  show Function.update (Gen.V4 m (outs m) c) main_v31 (Y5 m c main_v31) = Y5 m c
  rw [V4_eq]; unfold Y5; rw [Function.update_self]
theorem V6_eq (c : Dev nD) : Gen.V6 m (outs m) c = Y6 m c := by
  show StableHlo.after hostOps2 (Gen.V5 m (outs m) c) = _; rw [V5_eq]
theorem V7_eq (c : Dev nD) : Gen.V7 m (outs m) c = Y7 m c := by
  show Function.update (Gen.V6 m (outs m) c) main_v43 (Y7 m c main_v43) = Y7 m c
  rw [V6_eq]; unfold Y7; rw [Function.update_self]
theorem V12_eq (c : Dev nD) : Gen.V12 m (outs m) c = Y12 m c := by
  show StableHlo.after hostOps3_4 (StableHlo.after hostOps3_3 (StableHlo.after hostOps3_2 (StableHlo.after hostOps3_1 (StableHlo.after hostOps3 (Gen.V7 m (outs m) c))))) = _
  rw [V7_eq]
theorem V13_eq (c : Dev nD) : Gen.V13 m (outs m) c = Y13 m c := by
  show Function.update (Gen.V12 m (outs m) c) main_v52 (Y13 m c main_v52) = Y13 m c
  rw [V12_eq]; unfold Y13; rw [Function.update_self]
theorem V14_eq (c : Dev nD) : Gen.V14 m (outs m) c = Y14 m c := by
  show StableHlo.after hostOps4 (Gen.V13 m (outs m) c) = _; rw [V13_eq]

/-! ## The proof data family and what rides beside the buffers -/

/-- Every pipeline's proof data, each at its region's entry contents. -/
def pdats : (p : Fin 4) → (c : Dev nD) → Dat τ (Elt F) Unit ℕ (UR sig nD τ) ℕ (cfgs p) c
  | ⟨0, _⟩ => fun c => dat0 (atTc (Y3 m)) c
  | ⟨1, _⟩ => fun c => dat1 (atTc (Y4 m)) c
  | ⟨2, _⟩ => fun c => dat2 (atTc (Y6 m)) c
  | ⟨3, _⟩ => fun c => dat3 (atTc (Y12 m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-- Every window of region 0 but the last is an input. -/
theorem isIn0 : ∀ w : Fin cfg0.W, w ≠ 4 → (cfg0.win w).isOut = false := by decide
/-- At region 0's exit each of its windows' arrays holds what the pipeline leaves there: the output's the fold of its
    write-backs, an input's what it held on entry (no write-back touches it). -/
theorem hF0 (c : Dev nD) (w : Fin cfg0.W) : (pdats m 0 c).arrAt w cfg0.N = atTc (Y4 m) c (Pipeline.arrRef spec0 w) := by
  by_cases hw : w = 4
  · subst hw
    unfold Y4
    exact (Function.update_self (Proc.devRef .tc main_v30 : DevRef τ sig) _ (Y3 m c)).symm
  · have hne : (Proc.devRef .tc (Pipeline.arrRef spec0 w) : DevRef τ sig) ≠ Proc.devRef .tc main_v30 :=
      StableHlo.devRef_ne_of_ne fun e => hw (launch0.win.arr_inj (e.trans (rfl : main_v30 = Pipeline.arrRef spec0 4)))
    exact (((pdats m 0 c).arrAt_in w (isIn0 w hw) _).trans (A_eq0 (atTc (Y3 m)) c w)).trans
      (by unfold Y4; exact (Function.update_of_ne hne _ (Y3 m c)).symm)
/-- and every buffer that is none of its arrays holds what it held on entry. -/
theorem hrest0 (c : Dev nD) : ∀ b, b ∉ Finset.univ.image (Pipeline.arrRef spec0) → atTc (Y4 m) c b = atTc (Y3 m) c b := by
  intro b hb
  have hne : b ≠ main_v30 := fun e => hb (Finset.mem_image.mpr ⟨4, Finset.mem_univ _, e.symm⟩)
  unfold Y4
  exact Function.update_of_ne (fun e => hne (Proc.devRef_injective _ e)) _ _

/-- Every window of region 1 but the last is an input. -/
theorem isIn1 : ∀ w : Fin cfg1.W, w ≠ 3 → (cfg1.win w).isOut = false := by decide
/-- At region 1's exit each of its windows' arrays holds what the pipeline leaves there: the output's the fold of its
    write-backs, an input's what it held on entry (no write-back touches it). -/
theorem hF1 (c : Dev nD) (w : Fin cfg1.W) : (pdats m 1 c).arrAt w cfg1.N = atTc (Y5 m) c (Pipeline.arrRef spec1 w) := by
  by_cases hw : w = 3
  · subst hw
    unfold Y5
    exact (Function.update_self (Proc.devRef .tc main_v31 : DevRef τ sig) _ (Y4 m c)).symm
  · have hne : (Proc.devRef .tc (Pipeline.arrRef spec1 w) : DevRef τ sig) ≠ Proc.devRef .tc main_v31 :=
      StableHlo.devRef_ne_of_ne fun e => hw (launch1.win.arr_inj (e.trans (rfl : main_v31 = Pipeline.arrRef spec1 3)))
    exact (((pdats m 1 c).arrAt_in w (isIn1 w hw) _).trans (A_eq1 (atTc (Y4 m)) c w)).trans
      (by unfold Y5; exact (Function.update_of_ne hne _ (Y4 m c)).symm)
/-- and every buffer that is none of its arrays holds what it held on entry. -/
theorem hrest1 (c : Dev nD) : ∀ b, b ∉ Finset.univ.image (Pipeline.arrRef spec1) → atTc (Y5 m) c b = atTc (Y4 m) c b := by
  intro b hb
  have hne : b ≠ main_v31 := fun e => hb (Finset.mem_image.mpr ⟨3, Finset.mem_univ _, e.symm⟩)
  unfold Y5
  exact Function.update_of_ne (fun e => hne (Proc.devRef_injective _ e)) _ _

/-- Every window of region 2 but the last is an input. -/
theorem isIn2 : ∀ w : Fin cfg2.W, w ≠ 3 → (cfg2.win w).isOut = false := by decide
/-- At region 2's exit each of its windows' arrays holds what the pipeline leaves there: the output's the fold of its
    write-backs, an input's what it held on entry (no write-back touches it). -/
theorem hF2 (c : Dev nD) (w : Fin cfg2.W) : (pdats m 2 c).arrAt w cfg2.N = atTc (Y7 m) c (Pipeline.arrRef spec2 w) := by
  by_cases hw : w = 3
  · subst hw
    unfold Y7
    exact (Function.update_self (Proc.devRef .tc main_v43 : DevRef τ sig) _ (Y6 m c)).symm
  · have hne : (Proc.devRef .tc (Pipeline.arrRef spec2 w) : DevRef τ sig) ≠ Proc.devRef .tc main_v43 :=
      StableHlo.devRef_ne_of_ne fun e => hw (launch2.win.arr_inj (e.trans (rfl : main_v43 = Pipeline.arrRef spec2 3)))
    exact (((pdats m 2 c).arrAt_in w (isIn2 w hw) _).trans (A_eq2 (atTc (Y6 m)) c w)).trans
      (by unfold Y7; exact (Function.update_of_ne hne _ (Y6 m c)).symm)
/-- and every buffer that is none of its arrays holds what it held on entry. -/
theorem hrest2 (c : Dev nD) : ∀ b, b ∉ Finset.univ.image (Pipeline.arrRef spec2) → atTc (Y7 m) c b = atTc (Y6 m) c b := by
  intro b hb
  have hne : b ≠ main_v43 := fun e => hb (Finset.mem_image.mpr ⟨3, Finset.mem_univ _, e.symm⟩)
  unfold Y7
  exact Function.update_of_ne (fun e => hne (Proc.devRef_injective _ e)) _ _

/-- Every window of region 3 but the last is an input. -/
theorem isIn3 : ∀ w : Fin cfg3.W, w ≠ 5 → (cfg3.win w).isOut = false := by decide
/-- At region 3's exit each of its windows' arrays holds what the pipeline leaves there: the output's the fold of its
    write-backs, an input's what it held on entry (no write-back touches it). -/
theorem hF3 (c : Dev nD) (w : Fin cfg3.W) : (pdats m 3 c).arrAt w cfg3.N = atTc (Y13 m) c (Pipeline.arrRef spec3 w) := by
  by_cases hw : w = 5
  · subst hw
    unfold Y13
    exact (Function.update_self (Proc.devRef .tc main_v52 : DevRef τ sig) _ (Y12 m c)).symm
  · have hne : (Proc.devRef .tc (Pipeline.arrRef spec3 w) : DevRef τ sig) ≠ Proc.devRef .tc main_v52 :=
      StableHlo.devRef_ne_of_ne fun e => hw (launch3.win.arr_inj (e.trans (rfl : main_v52 = Pipeline.arrRef spec3 5)))
    exact (((pdats m 3 c).arrAt_in w (isIn3 w hw) _).trans (A_eq3 (atTc (Y12 m)) c w)).trans
      (by unfold Y13; exact (Function.update_of_ne hne _ (Y12 m c)).symm)
/-- and every buffer that is none of its arrays holds what it held on entry. -/
theorem hrest3 (c : Dev nD) : ∀ b, b ∉ Finset.univ.image (Pipeline.arrRef spec3) → atTc (Y13 m) c b = atTc (Y12 m) c b := by
  intro b hb
  have hne : b ≠ main_v52 := fun e => hb (Finset.mem_image.mpr ⟨5, Finset.mem_univ _, e.symm⟩)
  unfold Y13
  exact Function.update_of_ne (fun e => hne (Proc.devRef_injective _ e)) _ _

/-! ## The regions as segments -/

-- the library's entry and exit lemmas are stated over the pinned configuration; unification must unfold plain definitions
set_option backward.isDefEq.respectTransparency.types false in
/-- Region 0 as a segment of the program: entered with every unscoped buffer at `Y3`, left with them at `Y4`.
    Its windows' arrays are split out of the unscoped buffers on entry and put back at their final contents on exit; the
    generator register goes into the region's invariant and comes back; nothing is owed; the kernel has no semaphore. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (Y3 m)) c).loose
  hwaits := Pipeline.hwaits_of_owed_zero _ _ _ _ L lv 0 fun _ _ => rfl
  pre c := iprop(StableHlo.held (c : Thread nD τ) (Pipeline.ucRefs τ sig) (Y3 m c) ∗ R c)
  post c := iprop(StableHlo.held (c : Thread nD τ) (Pipeline.ucRefs τ sig) (Y4 m c) ∗ R c)
  X c := iprop(∃ r, prngReg c r)
  Y c := iprop(∃ r, prngReg c r)
  Z c := Pipeline.unscopedRest (Ix := Unit) (Name := ℕ) (U := UR sig nD τ) (Lvl := ℕ) spec0 c (atTc (Y3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (Y3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (Y3 m) c) (atTc (Y4 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration; unification must unfold plain definitions
set_option backward.isDefEq.respectTransparency.types false in
/-- Region 1 as a segment of the program: entered with every unscoped buffer at `Y4`, left with them at `Y5`.
    Its windows' arrays are split out of the unscoped buffers on entry and put back at their final contents on exit; the
    generator register goes into the region's invariant and comes back; nothing is owed; the kernel has no semaphore. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (Y4 m)) c).loose
  hwaits := Pipeline.hwaits_of_owed_zero _ _ _ _ L lv 1 fun _ _ => rfl
  pre c := iprop(StableHlo.held (c : Thread nD τ) (Pipeline.ucRefs τ sig) (Y4 m c) ∗ R c)
  post c := iprop(StableHlo.held (c : Thread nD τ) (Pipeline.ucRefs τ sig) (Y5 m c) ∗ R c)
  X c := iprop(∃ r, prngReg c r)
  Y c := iprop(∃ r, prngReg c r)
  Z c := Pipeline.unscopedRest (Ix := Unit) (Name := ℕ) (U := UR sig nD τ) (Lvl := ℕ) spec1 c (atTc (Y4 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (Y4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (Y4 m) c) (atTc (Y5 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration; unification must unfold plain definitions
set_option backward.isDefEq.respectTransparency.types false in
/-- Region 2 as a segment of the program: entered with every unscoped buffer at `Y6`, left with them at `Y7`.
    Its windows' arrays are split out of the unscoped buffers on entry and put back at their final contents on exit; the
    generator register goes into the region's invariant and comes back; nothing is owed; the kernel has no semaphore. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (Y6 m)) c).loose
  hwaits := Pipeline.hwaits_of_owed_zero _ _ _ _ L lv 2 fun _ _ => rfl
  pre c := iprop(StableHlo.held (c : Thread nD τ) (Pipeline.ucRefs τ sig) (Y6 m c) ∗ R c)
  post c := iprop(StableHlo.held (c : Thread nD τ) (Pipeline.ucRefs τ sig) (Y7 m c) ∗ R c)
  X c := iprop(∃ r, prngReg c r)
  Y c := iprop(∃ r, prngReg c r)
  Z c := Pipeline.unscopedRest (Ix := Unit) (Name := ℕ) (U := UR sig nD τ) (Lvl := ℕ) spec2 c (atTc (Y6 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (Y6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (Y6 m) c) (atTc (Y7 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration; unification must unfold plain definitions
set_option backward.isDefEq.respectTransparency.types false in
/-- Region 3 as a segment of the program: entered with every unscoped buffer at `Y12`, left with them at `Y13`.
    Its windows' arrays are split out of the unscoped buffers on entry and put back at their final contents on exit; the
    generator register goes into the region's invariant and comes back; nothing is owed; the kernel has no semaphore. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atTc (Y12 m)) c).loose
  hwaits := Pipeline.hwaits_of_owed_zero _ _ _ _ L lv 3 fun _ _ => rfl
  pre c := iprop(StableHlo.held (c : Thread nD τ) (Pipeline.ucRefs τ sig) (Y12 m c) ∗ R c)
  post c := iprop(StableHlo.held (c : Thread nD τ) (Pipeline.ucRefs τ sig) (Y13 m c) ∗ R c)
  X c := iprop(∃ r, prngReg c r)
  Y c := iprop(∃ r, prngReg c r)
  Z c := Pipeline.unscopedRest (Ix := Unit) (Name := ℕ) (U := UR sig nD τ) (Lvl := ℕ) spec3 c (atTc (Y12 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (Y12 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show (iprop((∃ r, prngReg c r) ∗ Pipeline.prefHeld (pcfgs (F := F) 3).pre c (fun _ => fullShare) (Gen.adm (F := F) 3).1
        ∗ Pipeline.scopedRest (Pipeline.pin (pcfgs (F := F)) Gen.adm 3).spec c) : sProp 𝕄) ⊢ Pipeline.ΦA spec3 c from by
      unfold Pipeline.ΦA
      iintro ⟨Hp, -, Hr⟩
      isplitl [Hr]; · iexact Hr
      iexact Hp).trans (hin3 (atTc (Y12 m)) c)
  hout c := (hout3 (atTc (Y12 m)) c).trans (show (Pipeline.ΦA spec3 c : sProp 𝕄)
        ⊢ iprop((∃ r, prngReg c r) ∗ Pipeline.ownSems0 (fun k : PEmpty => k.elim) c ∗ Pipeline.scopedRest (Pipeline.pin (pcfgs (F := F)) Gen.adm 3).spec c) from by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (Y12 m) c) (atTc (Y13 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The thread states chain: the conditional frame's valuations are the contents above -/

theorem ch_r1_h (c : Dev nD) : (iprop(StableHlo.held (c : Thread nD τ) (Pipeline.ucRefs τ sig) (Y5 m c) ∗ R c) : sProp 𝕄)
    ⊢ iprop(StableHlo.held (c : Thread nD τ) (Pipeline.ucRefs τ sig) (Gen.V5 m (outs m) c) ∗ R c) := by rw [V5_eq m c]
theorem ch_h_r2 (c : Dev nD) : (iprop(StableHlo.held (c : Thread nD τ) (Pipeline.ucRefs τ sig) (Gen.V6 m (outs m) c) ∗ R c) : sProp 𝕄)
    ⊢ iprop(StableHlo.held (c : Thread nD τ) (Pipeline.ucRefs τ sig) (Y6 m c) ∗ R c) := by rw [V6_eq m c]
theorem ch_r2_h (c : Dev nD) : (iprop(StableHlo.held (c : Thread nD τ) (Pipeline.ucRefs τ sig) (Y7 m c) ∗ R c) : sProp 𝕄)
    ⊢ iprop(StableHlo.held (c : Thread nD τ) (Pipeline.ucRefs τ sig) (Gen.V7 m (outs m) c) ∗ R c) := by rw [V7_eq m c]
theorem ch_h_r3 (c : Dev nD) : (iprop(StableHlo.held (c : Thread nD τ) (Pipeline.ucRefs τ sig) (Gen.V12 m (outs m) c) ∗ R c) : sProp 𝕄)
    ⊢ iprop(StableHlo.held (c : Thread nD τ) (Pipeline.ucRefs τ sig) (Y12 m c) ∗ R c) := by rw [V12_eq m c]
theorem ch_r3_h (c : Dev nD) : (iprop(StableHlo.held (c : Thread nD τ) (Pipeline.ucRefs τ sig) (Y13 m c) ∗ R c) : sProp 𝕄)
    ⊢ iprop(StableHlo.held (c : Thread nD τ) (Pipeline.ucRefs τ sig) (Gen.V13 m (outs m) c) ∗ R c) := by rw [V13_eq m c]
theorem ch_end (c : Dev nD) : (iprop(StableHlo.held (c : Thread nD τ) (Pipeline.ucRefs τ sig) (Gen.V14 m (outs m) c) ∗ R c) : sProp 𝕄)
    ⊢ iprop((StableHlo.held (c : Thread nD τ) (Pipeline.ucRefs τ sig) (Gen.V14 m (outs m) c) ∗ ∃ r, prngReg c r)
        ∗ ∃ W, owes (c : Thread nD τ) (0 : CellTallies nD τ sig Unit) W) := by
  iintro ⟨Hh, ⟨Hp, HO⟩⟩
  isplitl [Hh Hp]
  · isplitl [Hh] <;> iassumption
  iexact HO

/-! ## The launch -/

variable (ρ : Dev nD → PrngReg)

-- the launch theorem's implicit arguments are found by unifying its conclusion with this one, which takes unfolding plain definitions
set_option backward.isDefEq.respectTransparency.types false in
/-- Every weakly fair execution of the program from memory `m` with zero counters terminates, nothing faulting, and
    every final memory holds every unscoped buffer at the last contents of the fold. -/
theorem run_all : θ_run defs (onTc (τ := τ) (main (F := F))) ⟨m, fun _ => 0, ρ⟩ (fun r => ∀ c : Dev nD,
      ∀ b ∈ Pipeline.ucRefs τ sig, r.2.mem ((c : Thread nD τ).1, b) = Y14 m c b) := by
  refine Pipeline.θ_run_regions_kit_dev (pcfgs (F := F)) Gen.adm (pdats m) () cellOf_inj emb₁ defs₀ 𝒱₀ L lv m ρ main
    (Gen.segs m (outs m) 𝒱₀ L lv (fun _ c => R c) () (pdats m) (reg0 m) (reg1 m) (reg2 m) (reg3 m))
    (fun c Q => by
      rewrite [main_chain c, Seg.run_eq_chain,
        show (Gen.segs m (outs m) 𝒱₀ L lv (fun _ c => R c) () (pdats m) (reg0 m) (reg1 m) (reg2 m) (reg3 m) c).map Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          StableHlo.seq hostOps3_3,
          StableHlo.seq hostOps3_4,
          Prog.lift (.customCall (Pipeline.entry 3) ()),
          StableHlo.seq hostOps4 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V14 m (outs m) c) ∗ ∃ r, prngReg c r))
    (hch := fun c => ⟨.rfl, .rfl, .rfl, .rfl, .rfl, ch_r1_h m c, ch_h_r2 m c, ch_r2_h m c, .rfl, .rfl, .rfl, .rfl, ch_h_r3 m c, ch_r3_h m c, ch_end m c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = Y14 m c b)
    (hfin := fun c s' => by
      rw [V14_eq m c]
      iintro ⟨⟨Hh, -⟩, HSI⟩
      unfold StableHlo.held
      imodintro
      iapply (pointsTo_read_all (Pipeline.ucRefs τ sig) (fun b => (((c : Thread nD τ)).1, b)) (Y14 m c) s')
      isplitl [Hh] <;> iassumption)
    (hQ := fun s h c => h c)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Fr

end
-- ==== Proof.Val.Math.lean ====
/-
  What the two programs compute, as mathematics over plain finite index types, and the statement that they agree.

  The graph has N = 200000 nodes and E = 3400000 edge slots (the 3200000 given edges followed by one self-loop per
  node). Three maps describe how an edge slot `e` takes part: `tgt e` is the node its contribution is ADDED to (none
  when the slot's destination lies outside the node range: the contribution is dropped), `src e` the node whose row
  it READS, and `dr e` the node whose normalisation it reads on the destination side; whenever the contribution lands
  (`tgt e = some n`) the destination row is that node (`dr e = n`). `dis` is the degree normalisation, a finite
  number per node; how it is computed plays no part.

  The reference forms, per layer, the normalised neighbour sum edge by edge: each edge's source row, already
  multiplied by the weights, times `dis (src e) · dis (dr e)`, summed over the edges landing on a node, plus the bias,
  clamped below at zero. The kernel moves both normalisation factors out of the sum: the source factor is applied per
  node before the rows are gathered, the destination factor per node after the sum; and in the first layer, whose
  input has a single feature, it sums scalars and multiplies by the weight row once per node. The two agree by
  distributivity of multiplication over finite sums of FINITE numbers, which is where finiteness of the inputs is used.

  Pooling: the reference adds each node's row to the group `bt n` it belongs to (none: dropped). The kernel multiplies
  the rows, padded to P = 200960 by zero rows, by a 0/1 membership matrix; the two sums agree because the matrix is
  the indicator of `bt` on the real rows and the padded rows are zero. Both then divide by the same counts and apply
  the same final linear map.
-/
import Idealize.ShloMosaic.PureOps.Ideal
import Idealize.ShloMosaic.PureOps.Ideal.Laws

noncomputable section

namespace Cert.Math

open Idealize.ShloMosaic

/-- The numbers zero and one as both programs spell them (the f32 words 0x00000000 and 0x3F800000). -/
abbrev z0 : EReal := Ideal.ofBits .f32 0x00000000#32
abbrev o1 : EReal := Ideal.ofBits .f32 0x3F800000#32

abbrev E := Fin 3400000
abbrev N := Fin 200000
abbrev H := Fin 64
abbrev Gn := Fin 1024
abbrev P := Fin 200960

/-- A real row `n` as a row of the padded array. -/
def padRow (n : N) : P := ⟨n.val, by have := n.isLt; omega⟩

/-- The sum, started from zero, of an edge quantity over the edges landing on node `n`. -/
def segSum (tgt : E → Option N) (f : E → EReal) (n : N) : EReal :=
  z0 + ∑ e ∈ Finset.univ.filter (fun e => tgt e = some n), f e

/-- Clamping below at zero. -/
def relu (v : EReal) : EReal := max v z0

/-! ## The reference -/

/-- One graph-convolution layer of the reference, from the rows already multiplied by the layer's weights. -/
def refLayer (tgt : E → Option N) (src dr : E → N) (dis : N → EReal) (hlin : N → H → EReal) (b : H → EReal) : N → H → EReal :=
  fun n j => relu (segSum tgt (fun e => hlin (src e) j * (dis (src e) * dis (dr e))) n + b j)

/-- The first layer's linear map: one input feature. -/
def lin1 (x : N → EReal) (w : H → EReal) : N → H → EReal := fun n j => x n * w j
/-- The second layer's linear map. -/
def lin2 (h : N → H → EReal) (w : H → H → EReal) : N → H → EReal := fun n j => ∑ k : H, h n k * w k j

def refH1 (tgt : E → Option N) (src dr : E → N) (dis x : N → EReal) (w1 b1 : H → EReal) : N → H → EReal :=
  refLayer tgt src dr dis (lin1 x w1) b1
def refH2 (tgt : E → Option N) (src dr : E → N) (dis x : N → EReal) (w1 b1 : H → EReal) (w2 : H → H → EReal) (b2 : H → EReal) : N → H → EReal :=
  refLayer tgt src dr dis (lin2 (refH1 tgt src dr dis x w1 b1) w2) b2

/-- The group sums of the reference, started from zero. -/
def refSums (bt : N → Option Gn) (h : N → H → EReal) (g : Gn) (j : H) : EReal :=
  z0 + ∑ n ∈ Finset.univ.filter (fun n => bt n = some g), h n j

/-- The last step of both programs: divide the group sums by the clamped counts, apply the final linear map, add its bias. -/
def finish (sums : Gn → H → EReal) (cnt : Gn → EReal) (wfc : H → EReal) (bfc : EReal) (g : Gn) : EReal :=
  (∑ j : H, Ideal.div (sums g j) (max (cnt g) o1) * wfc j) + bfc

def refOut (tgt : E → Option N) (src dr : E → N) (bt : N → Option Gn) (dis x : N → EReal) (w1 b1 : H → EReal) (w2 : H → H → EReal) (b2 : H → EReal)
    (cnt : Gn → EReal) (wfc : H → EReal) (bfc : EReal) : Gn → EReal :=
  finish (refSums bt (refH2 tgt src dr dis x w1 b1 w2 b2)) cnt wfc bfc

/-! ## The kernel -/

/-- The first layer's scalar neighbour sums: the single feature times the source-side normalisation. -/
def kS (tgt : E → Option N) (src : E → N) (dis x : N → EReal) : N → EReal :=
  segSum tgt (fun e => x (src e) * dis (src e))
/-- The first pallas_call: (sum · destination-side normalisation) · weight row + bias, clamped. -/
def kH1 (s dis : N → EReal) (w1 b1 : H → EReal) : N → H → EReal :=
  fun n j => relu (s n * dis n * w1 j + b1 j)
/-- The second pallas_call: the second layer's linear map with the source-side normalisation applied per node. -/
def kH2p (h1 : N → H → EReal) (w2 : H → H → EReal) (dis : N → EReal) : N → H → EReal :=
  fun n j => (∑ k : H, h1 n k * w2 k j) * dis n
/-- The gathered-and-scattered rows between the second and third pallas_call. -/
def kRaw (tgt : E → Option N) (src : E → N) (h2p : N → H → EReal) : N → H → EReal :=
  fun n j => segSum tgt (fun e => h2p (src e) j) n
/-- The third pallas_call: destination-side normalisation, bias, clamp. -/
def kH2 (raw : N → H → EReal) (dis : N → EReal) (b2 : H → EReal) : N → H → EReal :=
  fun n j => relu (dis n * raw n j + b2 j)
/-- The fourth pallas_call's accumulated sums: the membership matrix times the padded rows. -/
def kAcc (oh : Gn → P → EReal) (hp : P → H → EReal) (g : Gn) (j : H) : EReal := ∑ p : P, oh g p * hp p j

def kernelH2 (tgt : E → Option N) (src : E → N) (dis x : N → EReal) (w1 b1 : H → EReal) (w2 : H → H → EReal) (b2 : H → EReal) : N → H → EReal :=
  kH2 (kRaw tgt src (kH2p (kH1 (kS tgt src dis x) dis w1 b1) w2 dis)) dis b2

def kernelOut (oh : Gn → P → EReal) (hp : P → H → EReal) (cnt : Gn → EReal) (wfc : H → EReal) (bfc : EReal) : Gn → EReal :=
  finish (kAcc oh hp) cnt wfc bfc

/-! ## They agree -/

/-- Finite: a real number. -/
def Fin1 {α : Type} (f : α → EReal) : Prop := ∀ a, ∃ r : ℝ, f a = (r : EReal)
def Fin2 {α β : Type} (f : α → β → EReal) : Prop := ∀ a b, ∃ r : ℝ, f a b = (r : EReal)

/-! ## Real numbers inside the extended reals -/

/-- A finite sum of real numbers, read in the extended reals, is the sum of the readings. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The zero both programs spell is the number zero. -/
theorem z0_eq : z0 = 0 := Ideal.ofBits_zero_f32

/-- Clamping a real number at zero gives the real number `max a 0`. -/
theorem relu_coe (a : ℝ) : relu (a : EReal) = ((max a 0 : ℝ) : EReal) := by
  unfold relu
  rw [z0_eq, ← EReal.coe_zero]
  exact (EReal.coe_strictMono.monotone.map_max).symm

theorem real_z0 : ∃ r : ℝ, z0 = (r : EReal) := ⟨0, by rw [EReal.coe_zero]; exact z0_eq⟩

theorem real_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

theorem real_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

theorem real_sum {ι : Type} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl (fun i _ => hg i)⟩

theorem real_relu {a : EReal} (ha : ∃ r : ℝ, a = (r : EReal)) : ∃ r : ℝ, relu a = (r : EReal) := by
  obtain ⟨r, rfl⟩ := ha; exact ⟨max r 0, relu_coe r⟩

/-! ## The first layer -/

/-- First layer: the scalar neighbour sum times the destination factor times the weight is the reference's sum of
    weighted rows times both factors: on an edge landing on `n` the destination factor is `dis n`, a constant of the sum,
    and so is the weight. -/
theorem kH1_eq_refH1 (tgt : E → Option N) (src dr : E → N) (hdr : ∀ e n, tgt e = some n → dr e = n)
    (dis x : N → EReal) (w1 b1 : H → EReal) (hdis : Fin1 dis) (hx : Fin1 x) (hw1 : Fin1 w1) :
    kH1 (kS tgt src dis x) dis w1 b1 = refH1 tgt src dr dis x w1 b1 := by
  choose disR hdisR using hdis
  choose xR hxR using hx
  choose wR hwR using hw1
  obtain rfl : dis = fun a => (disR a : EReal) := funext hdisR
  obtain rfl : x = fun a => (xR a : EReal) := funext hxR
  obtain rfl : w1 = fun a => (wR a : EReal) := funext hwR
  funext n j
  simp only [kH1, kS, refH1, refLayer, lin1, segSum]
  refine congrArg (fun v : EReal => relu (v + b1 j)) ?_
  rw [z0_eq, zero_add, zero_add]
  have hR : ∑ e ∈ Finset.univ.filter (fun e => tgt e = some n),
        (xR (src e) : EReal) * (wR j : EReal) * ((disR (src e) : EReal) * (disR (dr e) : EReal))
      = ∑ e ∈ Finset.univ.filter (fun e => tgt e = some n),
        ((xR (src e) * wR j * (disR (src e) * disR n) : ℝ) : EReal) := by
    apply Finset.sum_congr rfl
    intro e he
    rw [hdr e n (Finset.mem_filter.mp he).2]
    simp only [EReal.coe_mul]
  rw [hR]
  simp only [← EReal.coe_mul, ← coe_sum]
  refine EReal.coe_eq_coe_iff.mpr ?_
  rw [Finset.sum_mul, Finset.sum_mul]
  apply Finset.sum_congr rfl
  intro e _
  ring

/-- The reference's first-layer activations are real numbers. -/
theorem refH1_real (tgt : E → Option N) (src dr : E → N) (dis x : N → EReal) (w1 b1 : H → EReal)
    (hdis : Fin1 dis) (hx : Fin1 x) (hw1 : Fin1 w1) (hb1 : Fin1 b1) :
    Fin2 (refH1 tgt src dr dis x w1 b1) := by
  intro n j
  unfold refH1 refLayer lin1 segSum
  exact real_relu (real_add (real_add real_z0 (real_sum _ _ fun e =>
    real_mul (real_mul (hx _) (hw1 _)) (real_mul (hdis _) (hdis _)))) (hb1 _))

/-! ## The second layer -/

/-- Second layer over any real first-layer rows: the destination factor `dis n` multiplies the sum of the rows already
    carrying the source factor; in the reference both factors sit on each edge. -/
theorem kH2_eq_refLayer (tgt : E → Option N) (src dr : E → N) (hdr : ∀ e n, tgt e = some n → dr e = n)
    (dis : N → EReal) (h1 : N → H → EReal) (w2 : H → H → EReal) (b2 : H → EReal)
    (hdis : Fin1 dis) (hh1 : Fin2 h1) (hw2 : Fin2 w2) :
    kH2 (kRaw tgt src (kH2p h1 w2 dis)) dis b2 = refLayer tgt src dr dis (lin2 h1 w2) b2 := by
  choose disR hdisR using hdis
  choose hR hhR using hh1
  choose wR hwR using hw2
  obtain rfl : dis = fun a => (disR a : EReal) := funext hdisR
  obtain rfl : h1 = fun a b => (hR a b : EReal) := funext fun a => funext (hhR a)
  obtain rfl : w2 = fun a b => (wR a b : EReal) := funext fun a => funext (hwR a)
  funext n j
  simp only [kH2, kRaw, kH2p, refLayer, lin2, segSum]
  refine congrArg (fun v : EReal => relu (v + b2 j)) ?_
  rw [z0_eq, zero_add, zero_add]
  have hRR : ∑ e ∈ Finset.univ.filter (fun e => tgt e = some n),
        (∑ k : H, (hR (src e) k : EReal) * (wR k j : EReal)) * ((disR (src e) : EReal) * (disR (dr e) : EReal))
      = ∑ e ∈ Finset.univ.filter (fun e => tgt e = some n),
        (((∑ k : H, hR (src e) k * wR k j) * (disR (src e) * disR n) : ℝ) : EReal) := by
    apply Finset.sum_congr rfl
    intro e he
    rw [hdr e n (Finset.mem_filter.mp he).2]
    simp only [EReal.coe_mul, coe_sum]
  rw [hRR]
  simp only [← EReal.coe_mul, ← coe_sum]
  refine EReal.coe_eq_coe_iff.mpr ?_
  rw [Finset.mul_sum]
  apply Finset.sum_congr rfl
  intro e _
  ring

/-! ## Both layers, and pooling -/

/-- The two layers: the kernel's second-layer activations are the reference's, node by node and feature by feature. -/
theorem kernelH2_eq_refH2 (tgt : E → Option N) (src dr : E → N) (hdr : ∀ e n, tgt e = some n → dr e = n)
    (dis x : N → EReal) (w1 b1 : H → EReal) (w2 : H → H → EReal) (b2 : H → EReal)
    (hdis : Fin1 dis) (hx : Fin1 x) (hw1 : Fin1 w1) (hb1 : Fin1 b1) (hw2 : Fin2 w2) (hb2 : Fin1 b2) :
    kernelH2 tgt src dis x w1 b1 w2 b2 = refH2 tgt src dr dis x w1 b1 w2 b2 := by
  have _ := hb2
  unfold kernelH2 refH2
  rw [kH1_eq_refH1 tgt src dr hdr dis x w1 b1 hdis hx hw1]
  exact kH2_eq_refLayer tgt src dr hdr dis _ w2 b2 hdis (refH1_real tgt src dr dis x w1 b1 hdis hx hw1 hb1) hw2

/-- Pooling: the membership matrix times the padded rows is the group sum. -/
theorem kAcc_eq_refSums (bt : N → Option Gn) (oh : Gn → P → EReal) (hp : P → H → EReal) (h : N → H → EReal)
    (hoh : ∀ g (n : N), oh g (padRow n) = if bt n = some g then 1 else 0)
    (hrow : ∀ (n : N) j, hp (padRow n) j = h n j)
    (hpad : ∀ (p : P) j, 200000 ≤ p.val → hp p j = 0) :
    kAcc oh hp = refSums bt h := by
  funext g j
  unfold kAcc refSums
  rw [z0_eq, zero_add, Finset.sum_filter]
  have himg : ∑ p : P, oh g p * hp p j = ∑ p ∈ Finset.univ.image padRow, oh g p * hp p j := by
    symm
    apply Finset.sum_subset (Finset.subset_univ _)
    intro p _ hnot
    have hge : 200000 ≤ p.val := by
      by_contra hlt
      have hlt' : p.val < 200000 := Nat.lt_of_not_le hlt
      exact hnot (Finset.mem_image.mpr ⟨⟨p.val, hlt'⟩, Finset.mem_univ _, Fin.ext rfl⟩)
    rw [hpad p j hge, mul_zero]
  have hinj : ∀ a ∈ (Finset.univ : Finset N), ∀ b ∈ (Finset.univ : Finset N), padRow a = padRow b → a = b := by
    intro a _ b _ hab
    have hv : (padRow a).val = (padRow b).val := congrArg Fin.val hab
    exact Fin.ext hv
  rw [himg, Finset.sum_image hinj]
  apply Finset.sum_congr rfl
  intro n _
  rw [hoh, hrow]
  split_ifs
  · exact one_mul _
  · exact zero_mul _

/-- The whole result. -/
theorem kernelOut_eq_refOut (tgt : E → Option N) (src dr : E → N) (hdr : ∀ e n, tgt e = some n → dr e = n) (bt : N → Option Gn)
    (dis x : N → EReal) (w1 b1 : H → EReal) (w2 : H → H → EReal) (b2 : H → EReal) (cnt : Gn → EReal) (wfc : H → EReal) (bfc : EReal)
    (hdis : Fin1 dis) (hx : Fin1 x) (hw1 : Fin1 w1) (hb1 : Fin1 b1) (hw2 : Fin2 w2) (hb2 : Fin1 b2)
    (oh : Gn → P → EReal) (hp : P → H → EReal)
    (hoh : ∀ g (n : N), oh g (padRow n) = if bt n = some g then 1 else 0)
    (hrow : ∀ (n : N) j, hp (padRow n) j = kernelH2 tgt src dis x w1 b1 w2 b2 n j)
    (hpad : ∀ (p : P) j, 200000 ≤ p.val → hp p j = 0) :
    kernelOut oh hp cnt wfc bfc = refOut tgt src dr bt dis x w1 b1 w2 b2 cnt wfc bfc := by
  unfold kernelOut refOut
  rw [kAcc_eq_refSums bt oh hp _ hoh hrow hpad, kernelH2_eq_refH2 tgt src dr hdr dis x w1 b1 w2 b2 hdis hx hw1 hb1 hw2 hb2]

end Cert.Math

end
-- ==== Proof.LibScatterGather.lean ====
/-
  The host's gather and accumulating scatter, read at one index, for the shapes this program uses: a table of `n` rows
  (scalars, or rows of `h` numbers) addressed through an [m × 1] column of 32-bit start indices.

  A SCATTER reads the start index signed and does not clamp it: update `e` is added to row `landing n (idx e)`, which is
  nowhere when the index is negative or at least `n` (the update is dropped). So the result at row `k` is the operand
  there plus the sum of the updates whose index lands on `k`; for rows of `h` numbers, feature by feature.
  A GATHER reads the start index signed and clamps it into the table: result row `e` is the table's row
  `rowOf n (idx e)`.
  Two facts tie them together: an index that lands on `k` is the word of `k` (so comparing an index with the word of a
  row number decides landing), and an index that lands on `k` is not negative, so the wrap-around of negative indices
  (`index + n` when negative) leaves it alone and the clamped read of it is row `k`.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.Decode

open Idealize.ShloMosaic Idealize.ShloMosaic.ValueIdx

/-- Where a start index (a 32-bit word read signed) lands among `n` rows: nowhere when negative or at least `n`. -/
def landing (n : Nat) (w : BitVec 32) : Option (Fin n) :=
  if h : 0 ≤ w.toInt ∧ w.toInt < n then some ⟨w.toInt.toNat, by omega⟩ else none

/-- The row a gather reads for a start index: the index read signed and clamped into the table. -/
def rowOf (n : Nat) (hn : 0 < n) (w : BitVec 32) : Fin n := ⟨min w.toInt.toNat (n - 1), by omega⟩

/-! ## The accumulating scatter of scalars: where update `j` lands -/

section ScatterScalar

variable {n m : Nat} (d : ScatterDims ⟨1, ![n]⟩ ⟨2, ![m, 1]⟩ ⟨1, ![m]⟩)

/-- Update `j` reads its start index at row `j 0` of the index column: the one update axis is the scatter axis, and the
    index vector has the single component 0. -/
theorem siIdx_scalar (hsd : d.scatterDimsToOperandDims = [0]) (hiv : d.indexVectorDim = 1)
    (j : (⟨1, ![m]⟩ : Shape).Idx) (c : Fin d.scatterDimsToOperandDims.length) : d.siIdx j c = ix2 (j 0) 0 := by
  have hl : d.scatterDimsToOperandDims.length = 1 := by rw [hsd]; rfl
  funext b
  match b with
  | ⟨0, _⟩ =>
    unfold ScatterDims.siIdx
    rw [dif_neg (by rw [hiv]; simp)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hiv])]
    apply Fin.ext
    show c.val = 0
    have := c.isLt
    omega

/-- The window of update `j` starts at its index, read signed. -/
theorem start_scalar (hsd : d.scatterDimsToOperandDims = [0]) (hiv : d.indexVectorDim = 1)
    (idx : IVec ⟨2, ![m, 1]⟩ 32) (j : (⟨1, ![m]⟩ : Shape).Idx) (a : Fin 1) :
    d.start j idx a = (idx (ix2 (j 0) 0)).toInt := by
  have ha : a ∈ d.scatterDimsToOperandDims := by
    rw [hsd, Subsingleton.elim a 0]; exact List.mem_singleton.mpr rfl
  unfold ScatterDims.start
  rw [dif_pos ha, siIdx_scalar d hsd hiv]
  rfl

/-- The operand's one axis is inserted: an update has no window coordinate on it. -/
theorem window_scalar (hiw : d.insertedWindowDims = [0]) (j : (⟨1, ![m]⟩ : Shape).Idx) (a : Fin 1) : d.window j a = 0 := by
  have ha : a ∉ d.sKept := by
    rw [Subsingleton.elim a 0]
    simp [ScatterDims.sKept, Shape.kept, hiw]
  unfold ScatterDims.window
  rw [dif_neg ha]

/-- Update `j` lands on the row its index lands on. -/
theorem resultIdx_scalar (hiw : d.insertedWindowDims = [0]) (hsd : d.scatterDimsToOperandDims = [0]) (hiv : d.indexVectorDim = 1)
    (idx : IVec ⟨2, ![m, 1]⟩ 32) (j : (⟨1, ![m]⟩ : Shape).Idx) :
    d.resultIdx? j idx = (landing n (idx (ix2 (j 0) 0))).map ix1 := by
  have hsw : ∀ a : Fin 1, d.start j idx a + (d.window j a : Int) = (idx (ix2 (j 0) 0)).toInt := fun a => by
    rw [start_scalar d hsd hiv, window_scalar d hiw]; simp
  unfold ScatterDims.resultIdx? landing
  by_cases hw : 0 ≤ (idx (ix2 (j 0) 0)).toInt ∧ (idx (ix2 (j 0) 0)).toInt < n
  · rw [dif_pos (fun a => by rw [hsw a, Subsingleton.elim a 0]; exact hw), dif_pos hw]
    simp only [Option.map_some]
    congr 1
    funext a
    have ha : a = 0 := Subsingleton.elim _ _
    subst ha
    apply Fin.ext
    show (d.start j idx 0 + (d.window j 0 : Int)).toNat = (idx (ix2 (j 0) 0)).toInt.toNat
    rw [hsw 0]
  · rw [dif_neg (fun hall => hw (by have h0 := hall 0; rw [hsw 0] at h0; exact h0)), dif_neg hw]
    rfl

end ScatterScalar

/-! ## The accumulating scatter of rows: where update `j` lands -/

section ScatterRows

variable {n m h : Nat} (d : ScatterDims ⟨2, ![n, h]⟩ ⟨2, ![m, 1]⟩ ⟨2, ![m, h]⟩)

/-- Of the update's two axes, axis 1 is the window axis, so axis 0 is the only scatter axis. -/
theorem uScatter_rows (huw : d.updateWindowDims = [1]) (X : Fin 2) (hX : X ∈ d.uScatter) : X = 0 := by
  have hne : X ≠ 1 := by simpa [ScatterDims.uScatter, Shape.kept, huw] using hX
  have hlt : X.val < 2 := X.isLt
  have hv : X.val ≠ 1 := fun hv => hne (Fin.ext hv)
  apply Fin.ext
  show X.val = 0
  omega

/-- Update `j` reads its start index at row `j 0` of the index column. -/
theorem siIdx_rows (huw : d.updateWindowDims = [1]) (hsd : d.scatterDimsToOperandDims = [0]) (hiv : d.indexVectorDim = 1)
    (j : (⟨2, ![m, h]⟩ : Shape).Idx) (c : Fin d.scatterDimsToOperandDims.length) : d.siIdx j c = ix2 (j 0) 0 := by
  have hl : d.scatterDimsToOperandDims.length = 1 := by rw [hsd]; rfl
  funext b
  match b with
  | ⟨0, _⟩ =>
    unfold ScatterDims.siIdx
    rw [dif_neg (by rw [hiv]; simp)]
    unfold ScatterDims.siCoord
    apply Fin.ext
    simp only [Fin.val_cast]
    have e : ∀ X : Fin 2, X ∈ d.uScatter → (j X).val = (j 0).val := fun X hX => by rw [uScatter_rows d huw X hX]
    exact e _ (List.getElem_mem _)
  | ⟨1, _⟩ =>
    unfold ScatterDims.siIdx
    rw [dif_pos (by rw [hiv])]
    apply Fin.ext
    show c.val = 0
    have := c.isLt
    omega

/-- On the table's row axis the window of update `j` starts at its index, read signed. -/
theorem start_rows0 (huw : d.updateWindowDims = [1]) (hsd : d.scatterDimsToOperandDims = [0]) (hiv : d.indexVectorDim = 1)
    (idx : IVec ⟨2, ![m, 1]⟩ 32) (j : (⟨2, ![m, h]⟩ : Shape).Idx) :
    d.start j idx 0 = (idx (ix2 (j 0) 0)).toInt := by
  have ha : (0 : Fin 2) ∈ d.scatterDimsToOperandDims := by rw [hsd]; exact List.mem_singleton.mpr rfl
  unfold ScatterDims.start
  rw [dif_pos ha, siIdx_rows d huw hsd hiv]
  rfl

/-- The feature axis is not start-indexed: the window starts at 0 there. -/
theorem start_rows1 (hsd : d.scatterDimsToOperandDims = [0]) (idx : IVec ⟨2, ![m, 1]⟩ 32) (j : (⟨2, ![m, h]⟩ : Shape).Idx) :
    d.start j idx 1 = 0 := by
  have ha : (1 : Fin 2) ∉ d.scatterDimsToOperandDims := by rw [hsd]; simp
  unfold ScatterDims.start
  rw [dif_neg ha]

/-- The row axis is inserted: no window coordinate on it. -/
theorem window_rows0 (hiw : d.insertedWindowDims = [0]) (j : (⟨2, ![m, h]⟩ : Shape).Idx) : d.window j 0 = 0 := by
  have ha : (0 : Fin 2) ∉ d.sKept := by simp [ScatterDims.sKept, Shape.kept, hiw]
  unfold ScatterDims.window
  rw [dif_neg ha]

/-- The feature axis takes the update's window coordinate, its coordinate on axis 1. -/
theorem window_rows1 (huw : d.updateWindowDims = [1]) (hiw : d.insertedWindowDims = [0]) (j : (⟨2, ![m, h]⟩ : Shape).Idx) :
    d.window j 1 = (j 1).val := by
  have ha : (1 : Fin 2) ∈ d.sKept := by simp [ScatterDims.sKept, Shape.kept, hiw]
  unfold ScatterDims.window
  rw [dif_pos ha]
  have e : ∀ X : Fin 2, X ∈ d.updateWindowDims → (j X).val = (j 1).val := fun X hX => by
    rw [huw] at hX; rw [List.mem_singleton.1 hX]
  exact e _ (List.getElem_mem _)

/-- Update `j` lands on the row its index lands on, at its own feature. -/
theorem resultIdx_rows (huw : d.updateWindowDims = [1]) (hiw : d.insertedWindowDims = [0]) (hsd : d.scatterDimsToOperandDims = [0])
    (hiv : d.indexVectorDim = 1) (idx : IVec ⟨2, ![m, 1]⟩ 32) (j : (⟨2, ![m, h]⟩ : Shape).Idx) :
    d.resultIdx? j idx
      = (landing n (idx (ix2 (j 0) 0))).map (fun r => (ix2 r (j 1) : (⟨2, ![n, h]⟩ : Shape).Idx)) := by
  have h0 : d.start j idx 0 + (d.window j 0 : Int) = (idx (ix2 (j 0) 0)).toInt := by
    rw [start_rows0 d huw hsd hiv, window_rows0 d hiw]; simp
  have h1 : d.start j idx 1 + (d.window j 1 : Int) = ((j 1).val : Int) := by
    rw [start_rows1 d hsd, window_rows1 d huw hiw]; simp
  have hj1 : ((j 1).val : Int) < (h : Int) := by exact_mod_cast (j 1).isLt
  unfold ScatterDims.resultIdx? landing
  by_cases hw : 0 ≤ (idx (ix2 (j 0) 0)).toInt ∧ (idx (ix2 (j 0) 0)).toInt < n
  · have hall : ∀ a : Fin 2, 0 ≤ d.start j idx a + (d.window j a : Int) ∧
        d.start j idx a + (d.window j a : Int) < ((⟨2, ![n, h]⟩ : Shape).size a : Int) :=
      Fin.forall_fin_two.2 ⟨by rw [h0]; exact hw, by rw [h1]; exact ⟨by omega, hj1⟩⟩
    rw [dif_pos hall, dif_pos hw]
    simp only [Option.map_some]
    congr 1
    funext a
    revert a
    refine Fin.forall_fin_two.2 ⟨?_, ?_⟩
    · apply Fin.ext
      show (d.start j idx 0 + (d.window j 0 : Int)).toNat = (idx (ix2 (j 0) 0)).toInt.toNat
      rw [h0]
    · apply Fin.ext
      show (d.start j idx 1 + (d.window j 1 : Int)).toNat = (j 1).val
      rw [h1]; simp
  · rw [dif_neg (fun hall => hw (by have a0 := hall 0; rw [h0] at a0; exact a0)), dif_neg hw]
    rfl

end ScatterRows

/-- Two rank-2 indices that are equal have equal coordinates. -/
theorem ix2_inj {n0 n1 : Nat} {a a' : Fin n0} {b b' : Fin n1} (h : ix2 a b = ix2 a' b') : a = a' ∧ b = b' :=
  ⟨congrFun h 0, congrFun h 1⟩

/-- Two rank-1 indices with the same coordinate are the same index. -/
theorem ix1_inj {n : Nat} {a b : Fin n} (h : ix1 a = ix1 b) : a = b := congrFun h 0

/-- The accumulating scatter of scalars at row `k`. -/
theorem scatterAdd_scalar {n m : Nat} (d : ScatterDims ⟨1, ![n]⟩ ⟨2, ![m, 1]⟩ ⟨1, ![m]⟩)
    (huw : d.updateWindowDims = []) (hiw : d.insertedWindowDims = [0]) (hsd : d.scatterDimsToOperandDims = [0]) (hiv : d.indexVectorDim = 1)
    (x : (⟨1, ![n]⟩ : Shape).Idx → EReal) (idx : IVec ⟨2, ![m, 1]⟩ 32) (upd : (⟨1, ![m]⟩ : Shape).Idx → EReal) (k : Fin n) :
    Host.scatterAdd (F := Ideal) (φ := .f32) d x idx upd (ix1 k)
      = x (ix1 k) + ∑ e ∈ Finset.univ.filter (fun e : Fin m => landing n (idx (ix2 e 0)) = some k), upd (ix1 e) := by
  have hmem : ∀ j : (⟨1, ![m]⟩ : Shape).Idx,
      d.resultIdx? j idx = some (ix1 k) ↔ landing n (idx (ix2 (j 0) 0)) = some k := fun j => by
    rw [resultIdx_scalar d hiw hsd hiv, Option.map_eq_some_iff]
    constructor
    · rintro ⟨a, ha, hak⟩; rw [ha, ix1_inj hak]
    · intro hl; exact ⟨k, hl, rfl⟩
  show x (ix1 k) + ∑ j ∈ Finset.univ.filter (fun j => d.resultIdx? j idx = some (ix1 k)), upd j = _
  congr 1
  -- an update index is its one coordinate: the updates that land on row k are those whose index lands there
  refine Finset.sum_bij' (fun j _ => j 0) (fun e _ => ix1 e)
    (fun j hj => Finset.mem_filter.2 ⟨Finset.mem_univ _, (hmem j).1 (Finset.mem_filter.1 hj).2⟩)
    (fun e he => Finset.mem_filter.2 ⟨Finset.mem_univ _, (hmem (ix1 e)).2 (Finset.mem_filter.1 he).2⟩)
    (fun j _ => (eq_ix1 j).symm) (fun _ _ => rfl) (fun j _ => congrArg upd (eq_ix1 j))

/-- The accumulating scatter of rows at row `k`, feature `j`. -/
theorem scatterAdd_rows {n m h : Nat} (d : ScatterDims ⟨2, ![n, h]⟩ ⟨2, ![m, 1]⟩ ⟨2, ![m, h]⟩)
    (huw : d.updateWindowDims = [1]) (hiw : d.insertedWindowDims = [0]) (hsd : d.scatterDimsToOperandDims = [0]) (hiv : d.indexVectorDim = 1)
    (x : (⟨2, ![n, h]⟩ : Shape).Idx → EReal) (idx : IVec ⟨2, ![m, 1]⟩ 32) (upd : (⟨2, ![m, h]⟩ : Shape).Idx → EReal) (k : Fin n) (j : Fin h) :
    Host.scatterAdd (F := Ideal) (φ := .f32) d x idx upd (ix2 k j)
      = x (ix2 k j) + ∑ e ∈ Finset.univ.filter (fun e : Fin m => landing n (idx (ix2 e 0)) = some k), upd (ix2 e j) := by
  have hmem : ∀ q : (⟨2, ![m, h]⟩ : Shape).Idx,
      d.resultIdx? q idx = some (ix2 k j) ↔ landing n (idx (ix2 (q 0) 0)) = some k ∧ q 1 = j := fun q => by
    rw [resultIdx_rows d huw hiw hsd hiv]
    cases hl : landing n (idx (ix2 (q 0) 0)) with
    | none => simp
    | some r =>
      simp only [Option.map_some, Option.some.injEq]
      constructor
      · intro hak; exact ix2_inj hak
      · rintro ⟨hr, hq⟩; rw [hr, hq]
  show x (ix2 k j) + ∑ q ∈ Finset.univ.filter (fun q => d.resultIdx? q idx = some (ix2 k j)), upd q = _
  congr 1
  -- an update index is (its row, its feature): the updates that land on (k, j) are feature j of the rows whose index lands on k
  refine Finset.sum_bij' (fun q _ => q 0) (fun e _ => ix2 e j)
    (fun q hq => Finset.mem_filter.2 ⟨Finset.mem_univ _, ((hmem q).1 (Finset.mem_filter.1 hq).2).1⟩)
    (fun e he => Finset.mem_filter.2 ⟨Finset.mem_univ _, (hmem (ix2 e j)).2 ⟨(Finset.mem_filter.1 he).2, rfl⟩⟩)
    (fun q hq => ?_) (fun _ _ => rfl) (fun q hq => ?_)
  · have hq1 := ((hmem q).1 (Finset.mem_filter.1 hq).2).2
    show ix2 (q 0) j = q
    rw [← hq1]; exact (eq_ix2 q).symm
  · have hq1 := ((hmem q).1 (Finset.mem_filter.1 hq).2).2
    show upd q = upd (ix2 (q 0) j)
    rw [← hq1]; exact congrArg upd (eq_ix2 q)

/-! ## The gather of rows: which table entry result index `q` reads -/

section GatherRows

variable {N n h : Nat} (d : GatherDims ⟨2, ![N, h]⟩ ⟨2, ![n, 1]⟩ ⟨2, ![n, h]⟩)

/-- Of the result's two axes, axis 1 is the offset axis, so axis 0 is the only batch axis. -/
theorem batchDims_rows (hoff : d.offsetDims = [1]) (X : Fin 2) (hX : X ∈ d.batchDims) : X = 0 := by
  have hne : X ≠ 1 := by simpa [GatherDims.batchDims, Shape.kept, hoff] using hX
  have hlt : X.val < 2 := X.isLt
  have hv : X.val ≠ 1 := fun hv => hne (Fin.ext hv)
  apply Fin.ext
  show X.val = 0
  omega

/-- Result index `q` reads its start index at row `q 0` of the index column. -/
theorem gatherSiIdx_rows (hoff : d.offsetDims = [1]) (hsim : d.startIndexMap = [0]) (hivd : d.indexVectorDim = 1)
    (q : (⟨2, ![n, h]⟩ : Shape).Idx) (c : Fin d.startIndexMap.length) : d.siIdx q c = ix2 (q 0) 0 := by
  have hl : d.startIndexMap.length = 1 := by rw [hsim]; rfl
  funext b
  match b with
  | ⟨0, _⟩ =>
    unfold GatherDims.siIdx
    rw [dif_neg (by rw [hivd]; simp)]
    unfold GatherDims.siCoord
    apply Fin.ext
    simp only [Fin.val_cast]
    have e : ∀ X : Fin 2, X ∈ d.batchDims → (q X).val = (q 0).val := fun X hX => by rw [batchDims_rows d hoff X hX]
    exact e _ (List.getElem_mem _)
  | ⟨1, _⟩ =>
    unfold GatherDims.siIdx
    rw [dif_pos (by rw [hivd])]
    apply Fin.ext
    show c.val = 0
    have := c.isLt
    omega

/-- Result index `q` reads the table at (its start index clamped into the table, its own feature): the row axis is
    collapsed and start-indexed with a slice of one row, the feature axis is the offset axis and starts at 0. -/
theorem operandIdx_rows (hoff : d.offsetDims = [1]) (hcoll : d.collapsedSliceDims = [0]) (hob : d.operandBatchingDims = [])
    (hsim : d.startIndexMap = [0]) (hivd : d.indexVectorDim = 1) (hss : d.sliceSizes = ![1, h])
    (idx : IVec ⟨2, ![n, 1]⟩ 32) (q : (⟨2, ![n, h]⟩ : Shape).Idx) (hN : 0 < N) :
    d.operandIdx q idx = (ix2 (rowOf N hN (idx (ix2 (q 0) 0))) (q 1) : (⟨2, ![N, h]⟩ : Shape).Idx) := by
  have hb : ∀ a : Fin 2, a ∉ d.operandBatchingDims := fun a => by rw [hob]; exact List.not_mem_nil
  have hk0 : (0 : Fin 2) ∉ d.sKept := by rw [GatherDims.mem_sKept, hcoll]; simp
  have hk1 : (1 : Fin 2) ∈ d.sKept := by rw [GatherDims.mem_sKept, hcoll, hob]; simp
  have hm0 : (0 : Fin 2) ∈ d.startIndexMap := by rw [hsim]; exact List.mem_singleton.mpr rfl
  have hm1 : (1 : Fin 2) ∉ d.startIndexMap := by rw [hsim]; simp
  have hsl : d.sliceSizes 0 = 1 := by rw [hss]; rfl
  funext a
  revert a
  refine Fin.forall_fin_two.2 ⟨?_, ?_⟩
  · apply Fin.ext
    show d.start q idx 0 + d.batchCoord q 0 + d.offCoord q 0 = min (idx (ix2 (q 0) 0)).toInt.toNat (N - 1)
    rw [GatherDims.batchCoord_eq_zero _ _ _ (hb 0), GatherDims.offCoord_eq_zero _ _ _ hk0]
    simp only [Nat.add_zero]
    unfold GatherDims.start
    rw [dif_pos hm0, gatherSiIdx_rows d hoff hsim hivd, hsl]
    rfl
  · apply Fin.ext
    show d.start q idx 1 + d.batchCoord q 1 + d.offCoord q 1 = (q 1).val
    rw [GatherDims.batchCoord_eq_zero _ _ _ (hb 1)]
    unfold GatherDims.start GatherDims.offCoord
    rw [dif_neg hm1, dif_pos hk1]
    simp only [Nat.add_zero, Nat.zero_add]
    have e : ∀ X : Fin 2, X ∈ d.offsetDims → (q X).val = (q 1).val := fun X hX => by
      rw [hoff] at hX; rw [List.mem_singleton.1 hX]
    exact e _ (List.getElem_mem _)

end GatherRows

/-- The gather of scalars at result row `e`. -/
theorem gather_scalar {α : Type} {N n : Nat} (d : GatherDims ⟨1, ![N]⟩ ⟨2, ![n, 1]⟩ ⟨1, ![n]⟩)
    (hcoll : d.collapsedSliceDims = [0]) (hob : d.operandBatchingDims = []) (hsim : d.startIndexMap = [0]) (hivd : d.indexVectorDim = 1)
    (x : (⟨1, ![N]⟩ : Shape).Idx → α) (idx : IVec ⟨2, ![n, 1]⟩ 32) (e : Fin n) (hN : 0 < N) :
    Host.gather d x idx (ix1 e) = x (ix1 (rowOf N hN (idx (ix2 e 0)))) := by
  -- the take-shaped gather read at one position, its rank-1 index and its index-column row written by coordinates
  have h1 : ∀ {q : Nat} (p : Fin q), (Shape.Idx.ofFin p : (⟨1, ![q]⟩ : Shape).Idx) = ix1 p := fun p => by
    funext a; match a with | ⟨0, _⟩ => rfl
  have h2 : StableHlo.Predicate.ixP e = ix2 e 0 := by
    funext a; match a with | ⟨0, _⟩ => rfl | ⟨1, _⟩ => rfl
  rw [← h1 e, ← h2]
  exact (StableHlo.Predicate.gather_take d hcoll hob hsim hivd x idx e hN).trans (congrArg x (h1 _))

/-- The gather of rows at result row `e`, feature `j`. -/
theorem gather_rows {α : Type} {N n h : Nat} (d : GatherDims ⟨2, ![N, h]⟩ ⟨2, ![n, 1]⟩ ⟨2, ![n, h]⟩)
    (hoff : d.offsetDims = [1]) (hcoll : d.collapsedSliceDims = [0]) (hob : d.operandBatchingDims = [])
    (hsb : d.startIndicesBatchingDims = []) (hsim : d.startIndexMap = [0]) (hivd : d.indexVectorDim = 1) (hss : d.sliceSizes = ![1, h])
    (x : (⟨2, ![N, h]⟩ : Shape).Idx → α) (idx : IVec ⟨2, ![n, 1]⟩ 32) (e : Fin n) (j : Fin h) (hN : 0 < N) :
    Host.gather d x idx (ix2 e j) = x (ix2 (rowOf N hN (idx (ix2 e 0))) j) := by
  show x (d.operandIdx (ix2 e j) idx) = _
  rw [operandIdx_rows d hoff hcoll hob hsim hivd hss idx (ix2 e j) hN]
  rfl

/-- An index lands on row `k` exactly when it is the word of `k`. -/
theorem landing_eq_some_iff {n : Nat} (hn : n ≤ 2 ^ 31) (w : BitVec 32) (k : Fin n) :
    landing n w = some k ↔ w = BitVec.ofNat 32 k.val := by
  have hk := k.isLt
  have hwlt := w.isLt
  unfold landing
  constructor
  · intro h
    split at h
    · rename_i hw
      -- the landing row's number is the index read signed; a word below 2^31 reads the same signed and unsigned
      have hv : w.toInt.toNat = k.val := congrArg Fin.val (Option.some.inj h)
      have hc := BitVec.toInt_eq_toNat_cond w
      apply BitVec.eq_of_toNat_eq
      rw [BitVec.toNat_ofNat, Nat.mod_eq_of_lt (by omega)]
      split at hc <;> omega
    · exact absurd h (by simp)
  · intro h
    subst h
    have htn : (BitVec.ofNat 32 k.val).toNat = k.val := by
      rw [BitVec.toNat_ofNat]; exact Nat.mod_eq_of_lt (by omega)
    have hti : (BitVec.ofNat 32 k.val).toInt = (k.val : Int) := by
      rw [BitVec.toInt_eq_toNat_cond, htn, if_pos (by omega)]
    rw [dif_pos ⟨by omega, by omega⟩]
    congr 1
    apply Fin.ext
    show (BitVec.ofNat 32 k.val).toInt.toNat = k.val
    omega

/-- An index that lands on row `k` is not negative: wrapping negative indices around leaves it alone, and the clamped
    read of it is row `k`. -/
theorem rowOf_wrap_of_landing {n : Nat} (hn : 0 < n) (hn' : n < 2 ^ 31) (w : BitVec 32) (k : Fin n) (h : landing n w = some k) :
    rowOf n hn (Scalar.select (Scalar.cmpi .slt w 0#32) (w + BitVec.ofNat 32 n) w) = k := by
  unfold landing at h
  split at h
  · rename_i hw
    have hk : w.toInt.toNat = k.val := congrArg Fin.val (Option.some.inj h)
    -- a landing index is not below zero, so the signed comparison with zero fails and the select keeps the index
    have hs : w.slt 0#32 = false := by
      simp only [BitVec.slt, BitVec.toInt_zero, decide_eq_false_iff_not, not_lt]
      exact hw.1
    have hc : Scalar.cmpi .slt w 0#32 = 0#1 := by
      show BitVec.ofBool (w.slt 0#32) = 0#1
      rw [hs]; rfl
    rw [hc, select_zero]
    apply Fin.ext
    show min w.toInt.toNat (n - 1) = k.val
    omega
  · exact absurd h (by simp)

end Cert.Decode

end
-- ==== Proof.Val.Decode.lean ====
/-
  The host's gather and accumulating scatter read at one index live in Proof/LibScatterGather.lean (they depend on
  nothing of this program); this module only makes them available under the name the value modules import.
-/
import proofs.«416223_j40458591928693_3_alg».proof.Proof.LibScatterGather
-- ==== Proof.Val.Data.lean ====
/-
  The data the mathematics is stated over, extracted from the programs' arrays. Both programs build the same two
  arrays of 3400000 edge-slot indices (the given edges' sources, resp. destinations, followed by one self-loop per node);
  here they are arguments, taken as they are: nothing below looks inside them.

  From the destination array: where a slot's contribution lands (`tgt`: the index read signed, nowhere when outside the
  node range) and which node's normalisation it reads on the destination side (`dr`: negative indices wrapped around,
  then clamped into the table, as an indexed read does); from the source array the node whose row it reads (`src`).
  A slot that lands on node `n` has a non-negative index below the node count, so wrapping and clamping leave it
  alone: its destination-side read is node `n` itself (`hdr`).
  The degree of a node is the number of slots landing on it, counted as a sum of ones started from zero; the
  normalisation is its reciprocal square root where the degree is positive and zero elsewhere. A degree is a finite
  number, so the normalisation is finite (`dis_finite`). The groups: node `n` belongs to group `bt n` (its label read
  signed, nowhere when outside the group range), and a group's count is the number of its nodes.
-/
import proofs.«416223_j40458591928693_3_alg».proof.Proof.Val.Math
import proofs.«416223_j40458591928693_3_alg».proof.Proof.Val.Decode

noncomputable section

namespace Cert.Data

open Idealize.ShloMosaic Idealize.ShloMosaic.ValueIdx Cert.Math Cert.Decode

/-- Negative indices count from the end: `index + 200000` when the index is negative. -/
def wrap (w : BitVec 32) : BitVec 32 := Scalar.select (Scalar.cmpi .slt w 0#32) (w + 200000#32) w

section
variable (srcA dstA : (⟨1, ![3400000]⟩ : Shape).Idx → BitVec 32) (batch : (⟨1, ![200000]⟩ : Shape).Idx → BitVec 32)

def tgt : E → Option N := fun e => landing 200000 (dstA (ix1 e))
def src : E → N := fun e => rowOf 200000 (by decide) (wrap (srcA (ix1 e)))
def dr : E → N := fun e => rowOf 200000 (by decide) (wrap (dstA (ix1 e)))
def bt : N → Option Gn := fun n => landing 1024 (batch (ix1 n))

/-- A node's degree: the slots landing on it, each counted one, from zero. -/
def deg : N → EReal := fun n => z0 + ∑ e ∈ Finset.univ.filter (fun e => tgt dstA e = some n), o1
/-- The degree normalisation. -/
def dis : N → EReal := fun n =>
  Scalar.select (FloatOps.cmpf (F := Ideal) (φ := .f32) .ogt (deg dstA n) z0) (FloatOps.hostUnary (F := Ideal) (φ := .f32) .rsqrt (deg dstA n)) z0
/-- A group's count: its nodes, each counted one, from zero. -/
def cnt : Gn → EReal := fun g => z0 + ∑ n ∈ Finset.univ.filter (fun n => bt batch n = some g), o1

/-- A slot that lands on a node reads that node's normalisation on the destination side. -/
theorem hdr : ∀ e n, tgt dstA e = some n → dr dstA e = n := by
  intro e n h
  exact rowOf_wrap_of_landing (n := 200000) (by decide) (by decide) (dstA (ix1 e)) n h

/-- The one both programs spell is the number one. -/
theorem o1_eq_one : o1 = 1 := by
  show Ideal.ofBits .f32 0x3F800000#32 = 1
  simp [Ideal.ofBits, Ideal.ieee, -EReal.coe_mul]; norm_num

/-- A degree is a natural number: the number of slots landing on the node (a sum of that many ones from zero). -/
theorem deg_eq_card (n : N) :
    deg dstA n = (((Finset.univ.filter (fun e => tgt dstA e = some n)).card : ℝ) : EReal) := by
  have hz : z0 = 0 := Ideal.ofBits_zero_f32
  unfold deg
  rw [hz, zero_add, Finset.sum_const, EReal.nsmul_eq_mul, o1_eq_one, mul_one, EReal.coe_coe_eq_natCast]

/-- The normalisation is a finite number at every node. -/
theorem dis_finite : Fin1 (dis dstA) := by
  intro n
  have hz : z0 = ((0 : ℝ) : EReal) := by rw [EReal.coe_zero]; exact Ideal.ofBits_zero_f32
  unfold dis
  rw [deg_eq_card dstA n]
  generalize (Finset.univ.filter (fun e => tgt dstA e = some n)).card = k
  rcases Nat.eq_zero_or_pos k with h0 | hpos
  · -- no slot lands here: the compare `0 > 0` is false, the normalisation is the zero of the else branch
    subst h0
    have hc : FloatOps.cmpf (F := Ideal) (φ := .f32) .ogt (((0 : ℕ) : ℝ) : EReal) z0 = 0#1 := by
      rw [Ideal.cmpf_def, hz, Nat.cast_zero]
      simp [Ideal.cmp]
    rw [hc, select_zero]
    exact ⟨0, hz⟩
  · -- a positive degree: the reciprocal square root of a positive real is a real, and so is the else branch
    have hk0 : (0 : ℝ) < (k : ℝ) := Nat.cast_pos.mpr hpos
    unfold Scalar.select
    split_ifs
    · rw [Ideal.hostUnary_rsqrt_def, Ideal.rsqrt_coe, if_neg (not_lt.mpr hk0.le), if_neg hk0.ne']
      exact ⟨_, rfl⟩
    · exact ⟨0, hz⟩
end

/-- The arrays' entries under the names the mathematics uses. -/
def xOf (x : (⟨2, ![200000, 1]⟩ : Shape).Idx → EReal) : N → EReal := fun n => x (ix2 n 0)
def w1Of (w : (⟨2, ![1, 64]⟩ : Shape).Idx → EReal) : H → EReal := fun j => w (ix2 0 j)
def vecOf (b : (⟨1, ![64]⟩ : Shape).Idx → EReal) : H → EReal := fun j => b (ix1 j)
def w2Of (w : (⟨2, ![64, 64]⟩ : Shape).Idx → EReal) : H → H → EReal := fun k j => w (ix2 k j)
def wfcOf (w : (⟨2, ![64, 1]⟩ : Shape).Idx → EReal) : H → EReal := fun j => w (ix2 j 0)
def bfcOf (b : (⟨1, ![1]⟩ : Shape).Idx → EReal) : EReal := b (ix1 0)

end Cert.Data

end
-- ==== Proof.Val.GSpec.lean ====
/-
  What each of the four pallas_calls computes, as one function of its whole input arrays, in the vocabulary of the
  mathematics (Val/Math.lean): region 0 is the first layer's epilogue `kH1` on the scattered sums and the normalisation
  (both kept as 200000×1 columns), the weight row and the bias row (both 1×64); region 1 the second layer's linear map
  with the source-side normalisation `kH2p`; region 2 the second layer's epilogue `kH2`; region 3 the pooled result:
  the 0/1 membership matrix (group `g`, padded row `p`: is the row's label the word of `g`?) times the padded rows,
  divided by the clamped counts, through the final linear map (`kernelOut`).
-/
import proofs.«416223_j40458591928693_3_alg».proof.Proof.Val.Math
import proofs.«416223_j40458591928693_3_alg».proof.Proof.Val.Data

noncomputable section

namespace Cert.GSpec

open Idealize.ShloMosaic Idealize.ShloMosaic.ValueIdx Cert.Math Cert.Data

abbrev sN1 : Shape := ⟨2, ![200000, 1]⟩
abbrev sNH : Shape := ⟨2, ![200000, 64]⟩
abbrev s1H : Shape := ⟨2, ![1, 64]⟩
abbrev sHH : Shape := ⟨2, ![64, 64]⟩
abbrev sPH : Shape := ⟨2, ![200960, 64]⟩
abbrev s1P : Shape := ⟨2, ![1, 200960]⟩
abbrev sG1 : Shape := ⟨2, ![1024, 1]⟩
abbrev sH1 : Shape := ⟨2, ![64, 1]⟩
abbrev s11 : Shape := ⟨2, ![1, 1]⟩

/-- A 200000×1 column as a function of the node. -/
def colOf (v : sN1.Idx → EReal) : N → EReal := fun n => v (ix2 n 0)
/-- A 200000×64 array as a function of node and feature. -/
def matOf (v : sNH.Idx → EReal) : N → H → EReal := fun n j => v (ix2 n j)

/-- Region 0: from the scattered sums `s`, the normalisation `d`, the weight row `w` and the bias row `b`. -/
def G0 (s d : sN1.Idx → EReal) (w b : s1H.Idx → EReal) : sNH.Idx → EReal :=
  fun i => kH1 (colOf s) (colOf d) (w1Of w) (w1Of b) (i 0) (i 1)
/-- Region 1: from the first layer's activations `h`, the weight matrix `w` and the normalisation `d`. -/
def G1 (h : sNH.Idx → EReal) (w : sHH.Idx → EReal) (d : sN1.Idx → EReal) : sNH.Idx → EReal :=
  fun i => kH2p (matOf h) (w2Of w) (colOf d) (i 0) (i 1)
/-- Region 2: from the gathered-and-scattered rows `r`, the normalisation `d` and the bias row `b`. -/
def G2 (r : sNH.Idx → EReal) (d : sN1.Idx → EReal) (b : s1H.Idx → EReal) : sNH.Idx → EReal :=
  fun i => kH2 (matOf r) (colOf d) (w1Of b) (i 0) (i 1)

/-- The membership matrix of region 3: is padded row `p`'s label the word of group `g`? -/
def ohOf (brow : s1P.Idx → BitVec 32) : Gn → P → EReal :=
  fun g p => if BitVec.ofNat 32 g.val = brow (ix2 0 p) then 1 else 0
/-- Region 3: from the padded rows `hp`, the padded labels `brow`, the counts `cn`, the final weights `wf` and bias `bf`. -/
def G3 (hp : sPH.Idx → EReal) (brow : s1P.Idx → BitVec 32) (cn : sG1.Idx → EReal) (wf : sH1.Idx → EReal) (bf : s11.Idx → EReal) :
    sG1.Idx → EReal :=
  fun i => kernelOut (ohOf brow) (fun p j => hp (ix2 p j)) (fun g => cn (ix2 g 0)) (wfcOf wf) (bf (ix2 0 0)) (i 0)

end Cert.GSpec

end
-- ==== Proof.Val.KTerms.lean ====
/-
  The host-side values of the kernel program, each written as one term of the argument arrays (or of the region result
  it is computed from), and what each is when read at an index.

  Between its four pallas_calls the program computes on the host: the two arrays of 3400000 edge-slot indices (the given
  edges' sources, resp. destinations, followed by one self-loop per node); the degrees (ones scattered over the
  destinations, added to zero) and the normalisation (the reciprocal square root of a positive degree, zero elsewhere);
  the first layer's neighbour sums (the feature times the normalisation, gathered at the wrapped source index and
  scattered over the destinations); the second layer's gathered-and-scattered rows; the group counts; the labels and
  the rows padded at the end; and the reshapes that turn vectors into rows and columns.
-/
import proofs.«416223_j40458591928693_3_alg».proof.KernelIdeal
import proofs.«416223_j40458591928693_3_alg».proof.Proof.Gen.KernelIdeal
import proofs.«416223_j40458591928693_3_alg».proof.Proof.Val.GSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KT

open Cert.KernelIdeal Cert.KernelIdeal.Gen
open Idealize.ShloMosaic Idealize.ShloMosaic.ValueIdx Idealize.ShloMosaic.StableHlo
open Cert.Math Cert.Data Cert.GSpec Cert.Decode

/-! ## The terms -/

section Terms

variable (x0 : (⟨S200000x1, .f32⟩ : BufTy).Contents (Elt Ideal)) (x1 : (⟨S2x3200000, .i32⟩ : BufTy).Contents (Elt Ideal))
  (x2 : (⟨S200000, .i32⟩ : BufTy).Contents (Elt Ideal)) (x4 x6 : (⟨S64, .f32⟩ : BufTy).Contents (Elt Ideal))
  (x8 : (⟨S1, .f32⟩ : BufTy).Contents (Elt Ideal)) (v31 v43 : (⟨S200000x64, .f32⟩ : BufTy).Contents (Elt Ideal))

/-- The edge slots' source indices: row 0 of the edge list, then one self-loop per node. -/
def srcA : (⟨S3400000, .i32⟩ : BufTy).Contents (Elt Ideal) :=
  concatenate S3400000 0 [⟨S3200000, shapeCast S3200000 (extractStridedSlice S1x3200000 ![0, 0] x1 slices_S2x3200000_S1x3200000_0_0) shapeCasts_S1x3200000_S3200000⟩,
    ⟨S200000, iotaInDim S200000 32 0⟩] concatenates_S3200000_S200000_S3400000_d0

/-- The edge slots' destination indices: row 1 of the edge list, then one self-loop per node. -/
def dstA : (⟨S3400000, .i32⟩ : BufTy).Contents (Elt Ideal) :=
  concatenate S3400000 0 [⟨S3200000, shapeCast S3200000 (extractStridedSlice S1x3200000 ![1, 0] x1 slices_S2x3200000_S1x3200000_1_0) shapeCasts_S1x3200000_S3200000⟩,
    ⟨S200000, iotaInDim S200000 32 0⟩] concatenates_S3200000_S200000_S3400000_d0

/-- One per edge slot. -/
def t7 : (⟨S3400000, .f32⟩ : BufTy).Contents (Elt Ideal) :=
  broadcastInDim S3400000 ![] bcast_S_S3400000 (constant (F := Ideal) S_ .f32 0x3F800000#32)
/-- Zero per node. -/
def t8 : (⟨S200000, .f32⟩ : BufTy).Contents (Elt Ideal) :=
  broadcastInDim S200000 ![] bcast_S_S200000 (constant (F := Ideal) S_ .f32 0x00000000#32)
/-- The destination indices as an index column. -/
def t9 : (⟨S3400000x1, .i32⟩ : BufTy).Contents (Elt Ideal) :=
  broadcastInDim S3400000x1 ![0] bcast_S3400000_S3400000x1_0 (dstA x1)
/-- The degrees: ones scattered over the destinations, added to zero. -/
def t10 : (⟨S200000, .f32⟩ : BufTy).Contents (Elt Ideal) :=
  Host.scatterAdd (F := Ideal) (φ := .f32) scatter_S200000_S3400000x1_S3400000_n_0_0_1 t8 (t9 x1) t7
/-- Is the degree positive? -/
def t12 : (⟨S200000, .i1⟩ : BufTy).Contents (Elt Ideal) := cmpf (F := Ideal) (φ := .f32) .ogt (t10 x1) t8
/-- The degree's reciprocal square root. -/
def t13 : (⟨S200000, .f32⟩ : BufTy).Contents (Elt Ideal) := Host.rsqrt (F := Ideal) (φ := .f32) (t10 x1)
/-- The normalisation: the reciprocal square root where the degree is positive, zero elsewhere. -/
def t14 : (⟨S200000, .f32⟩ : BufTy).Contents (Elt Ideal) := select (t12 x1) (t13 x1) t8
/-- The normalisation as a column. -/
def t15 : (⟨S200000x1, .f32⟩ : BufTy).Contents (Elt Ideal) := shapeCast S200000x1 (t14 x1) shapeCasts_S200000_S200000x1
/-- The feature as a vector. -/
def t16 : (⟨S200000, .f32⟩ : BufTy).Contents (Elt Ideal) := shapeCast S200000 x0 shapeCasts_S200000x1_S200000
/-- The feature times the normalisation. -/
def t17 : (⟨S200000, .f32⟩ : BufTy).Contents (Elt Ideal) := mulf (F := Ideal) (φ := .f32) (t16 x0) (t14 x1)
/-- The word 0, resp. 200000, per edge slot. -/
def t18 : (⟨S3400000, .i32⟩ : BufTy).Contents (Elt Ideal) := broadcastInDim S3400000 ![] bcast_S_S3400000 (constantI S_ 32 0#32)
def t20 : (⟨S3400000, .i32⟩ : BufTy).Contents (Elt Ideal) := broadcastInDim S3400000 ![] bcast_S_S3400000 (constantI S_ 32 200000#32)
/-- The source indices with the negative ones wrapped around. -/
def t22 : (⟨S3400000, .i32⟩ : BufTy).Contents (Elt Ideal) :=
  select (cmpi .slt (srcA x1) t18) (addi (srcA x1) t20) (srcA x1)
/-- The wrapped source indices as an index column. -/
def t23 : (⟨S3400000x1, .i32⟩ : BufTy).Contents (Elt Ideal) :=
  broadcastInDim S3400000x1 ![0] bcast_S3400000_S3400000x1_0 (t22 x1)
/-- The feature times the normalisation at each edge slot's source node. -/
def t24 : (⟨S3400000, .f32⟩ : BufTy).Contents (Elt Ideal) :=
  Host.gather gather_S200000_S3400000x1_S3400000_n_0_n_n_0_1_1 (t17 x0 x1) (t23 x1)
/-- The first layer's neighbour sums. -/
def t27 : (⟨S200000, .f32⟩ : BufTy).Contents (Elt Ideal) :=
  Host.scatterAdd (F := Ideal) (φ := .f32) scatter_S200000_S3400000x1_S3400000_n_0_0_1 t8 (t9 x1) (t24 x0 x1)
/-- The neighbour sums as a column. -/
def t28 : (⟨S200000x1, .f32⟩ : BufTy).Contents (Elt Ideal) := shapeCast S200000x1 (t27 x0 x1) shapeCasts_S200000_S200000x1
/-- The first bias as a row. -/
def t29 : (⟨S1x64, .f32⟩ : BufTy).Contents (Elt Ideal) := shapeCast S1x64 x4 shapeCasts_S64_S1x64

/-- The second layer's copy of the wrapped source indices, and of their column. -/
def t36 : (⟨S3400000, .i32⟩ : BufTy).Contents (Elt Ideal) :=
  select (cmpi .slt (srcA x1) t18) (addi (srcA x1) t20) (srcA x1)
def t37 : (⟨S3400000x1, .i32⟩ : BufTy).Contents (Elt Ideal) :=
  broadcastInDim S3400000x1 ![0] bcast_S3400000_S3400000x1_0 (t36 x1)
/-- The second region's rows at each edge slot's source node. -/
def t38 : (⟨S3400000x64, .f32⟩ : BufTy).Contents (Elt Ideal) :=
  Host.gather gather_S200000x64_S3400000x1_S3400000x64_1_0_n_n_0_1_164 v31 (t37 x1)
/-- Zero per node and feature. -/
def t39 : (⟨S200000x64, .f32⟩ : BufTy).Contents (Elt Ideal) :=
  broadcastInDim S200000x64 ![] bcast_S_S200000x64 (constant (F := Ideal) S_ .f32 0x00000000#32)
/-- The gathered rows scattered over the destinations. -/
def t41 : (⟨S200000x64, .f32⟩ : BufTy).Contents (Elt Ideal) :=
  Host.scatterAdd (F := Ideal) (φ := .f32) scatter_S200000x64_S3400000x1_S3400000x64_1_0_0_1 t39 (t9 x1) (t38 x1 v31)
/-- The second bias as a row. -/
def t42 : (⟨S1x64, .f32⟩ : BufTy).Contents (Elt Ideal) := shapeCast S1x64 x6 shapeCasts_S64_S1x64

/-- One per node, zero per group, as columns. -/
def t44 : (⟨S200000x1, .f32⟩ : BufTy).Contents (Elt Ideal) :=
  broadcastInDim S200000x1 ![] bcast_S_S200000x1 (constant (F := Ideal) S_ .f32 0x3F800000#32)
def t45 : (⟨S1024x1, .f32⟩ : BufTy).Contents (Elt Ideal) :=
  broadcastInDim S1024x1 ![] bcast_S_S1024x1 (constant (F := Ideal) S_ .f32 0x00000000#32)
/-- The labels as an index column. -/
def t46 : (⟨S200000x1, .i32⟩ : BufTy).Contents (Elt Ideal) :=
  broadcastInDim S200000x1 ![0] bcast_S200000_S200000x1_0 x2
/-- The group counts: ones scattered over the labels, added to zero. -/
def t47 : (⟨S1024x1, .f32⟩ : BufTy).Contents (Elt Ideal) :=
  Host.scatterAdd (F := Ideal) (φ := .f32) scatter_S1024x1_S200000x1_S200000x1_1_0_0_1 t45 (t46 x2) t44
/-- The labels padded at the end with the word 1024, and as a row. -/
def t48 : (⟨S200960, .i32⟩ : BufTy).Contents (Elt Ideal) :=
  pad S200960 ![0] ![960] ![0] x2 (constantI S_ 32 1024#32) pads_S200000_S200960_09600 h_S_
def t49 : (⟨S1x200960, .i32⟩ : BufTy).Contents (Elt Ideal) := shapeCast S1x200960 (t48 x2) shapeCasts_S200960_S1x200960
/-- The third region's rows padded at the end with zero rows. -/
def t50 : (⟨S200960x64, .f32⟩ : BufTy).Contents (Elt Ideal) :=
  pad S200960x64 ![0, 0] ![960, 0] ![0, 0] v43 (sitofp (F := Ideal) .f32 (constantI S_ 32 0#32)) pads_S200000x64_S200960x64_09600_000 h_S_
/-- The final bias as a 1×1 array. -/
def t51 : (⟨S1x1, .f32⟩ : BufTy).Contents (Elt Ideal) := shapeCast S1x1 x8 shapeCasts_S1_S1x1

end Terms

/-! ## Layout steps read at an index -/

section Layout
variable {α : Type}

/-- A vector as an index column: at `(e, 0)` the column is the vector at `e`. -/
theorem col_of_vec {m : ℕ} (v : (⟨1, ![m]⟩ : Shape).Idx → α)
    (h : (⟨1, ![m]⟩ : Shape).BroadcastsInDim ⟨2, ![m, 1]⟩ (![0] : Fin 1 → Fin 2)) (e : Fin m) :
    broadcastInDim ⟨2, ![m, 1]⟩ (![0] : Fin 1 → Fin 2) h v (ix2 e (0 : Fin 1)) = v (ix1 e) := by
  refine broadcastInDim_apply _ h v _ (ix1 e) fun a => ?_
  match a with
  | ⟨0, _⟩ =>
    show e.val = if m = 1 then 0 else e.val
    split
    · have := e.isLt; omega
    · rfl

/-- A vector cast to a column: at `(p, 0)` the column is the vector at `p`. -/
theorem col_cast {a : ℕ} (x : (⟨1, ![a]⟩ : Shape).Idx → α) (h : (⟨1, ![a]⟩ : Shape).ShapeCasts ⟨2, ![a, 1]⟩) (p : Fin a) :
    shapeCast ⟨2, ![a, 1]⟩ x h (ix2 p (0 : Fin 1)) = x (ix1 p) :=
  shapeCast_apply x h _ _ (by
    rw [Shape.rowMajor_val_two, Shape.rowMajor_val_one]
    show p.val = p.val * 1 + 0
    omega)

/-- A column cast to a vector: at `p` the vector is the column at `(p, 0)`. -/
theorem vec_cast {a : ℕ} (x : (⟨2, ![a, 1]⟩ : Shape).Idx → α) (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

end Layout

/-! ## The readings -/

section Readings

variable (x0 : (⟨S200000x1, .f32⟩ : BufTy).Contents (Elt Ideal)) (x1 : (⟨S2x3200000, .i32⟩ : BufTy).Contents (Elt Ideal))
  (x2 : (⟨S200000, .i32⟩ : BufTy).Contents (Elt Ideal)) (x4 x6 : (⟨S64, .f32⟩ : BufTy).Contents (Elt Ideal))
  (x8 : (⟨S1, .f32⟩ : BufTy).Contents (Elt Ideal)) (v31 v43 : (⟨S200000x64, .f32⟩ : BufTy).Contents (Elt Ideal))

/-- One, resp. zero, at every index. -/
theorem ones_at (i : S3400000.Idx) : t7 i = o1 := rfl
theorem zeros_at (i : S200000.Idx) : t8 i = z0 := rfl

/-- The destination column at row `e` is the destination array at `e`. -/
theorem dstCol_at (e : Fin 3400000) : t9 x1 (ix2 e (0 : Fin 1)) = dstA x1 (ix1 e) :=
  col_of_vec (dstA x1) bcast_S3400000_S3400000x1_0 e

/-- The degree: ones, scattered over the destination array, added to zero. -/
theorem t10_read (n : Fin 200000) : t10 x1 (ix1 n) = Data.deg (dstA x1) n := by
  unfold t10 Data.deg Data.tgt
  rw [scatterAdd_scalar scatter_S200000_S3400000x1_S3400000_n_0_0_1 rfl rfl rfl rfl, zeros_at]
  refine congrArg (fun s : EReal => z0 + s) ?_
  simp only [dstCol_at, ones_at]

/-- The biases as rows, the final bias as a 1×1 array. -/
theorem t29_read (j : Fin 64) : t29 x4 (ix2 (0 : Fin 1) j) = Data.vecOf x4 j :=
  shapeCast_a_1a_apply x4 shapeCasts_S64_S1x64 0 j
theorem t42_read (j : Fin 64) : t42 x6 (ix2 (0 : Fin 1) j) = Data.vecOf x6 j :=
  shapeCast_a_1a_apply x6 shapeCasts_S64_S1x64 0 j
theorem t51_read : t51 x8 (ix2 (0 : Fin 1) (0 : Fin 1)) = Data.bfcOf x8 :=
  shapeCast_a_1a_apply x8 shapeCasts_S1_S1x1 0 0

end Readings

end Cert.KernelIdeal.KT

end
-- ==== Proof.Val.Val0.lean ====
/-
  What the first pallas_call leaves in its result array, read as one function of the arrays it was entered with: each of the
  40 grid points writes rows 5000·t … 5000·t + 4999 of the result, and what it writes there is the body's payload of the
  corresponding rows of the two column vectors and of the weight and bias rows; entry by entry that payload is
  max((s·d)·w + b, 0). The 40 blocks tile the array, so the array after the last point is that function everywhere.
-/
import proofs.«416223_j40458591928693_3_alg».proof.Proof.KI.Reg0
import proofs.«416223_j40458591928693_3_alg».proof.Proof.Val.GSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Cert.Math Cert.Data Cert.GSpec

/-! ## The payload, entry by entry -/

/-- The whole rectangle of a rank-2 buffer starts at the origin. -/
theorem origin_r0 : (![0, 0] : Fin 2 → Nat) = fun _ => 0 := funext fun a => by fin_cases a <;> rfl

/-- Two functions of a row and a column agree when they agree at every `(p, q)`. -/
theorem ext_rows_r0 {α : Type} {a b : ℕ} (f g : (⟨2, ![a, b]⟩ : Shape).Idx → α) (h : ∀ p q, f (ix2 p q) = g (ix2 p q)) : f = g :=
  funext fun j => by rw [eq_ix2 j]; exact h _ _

/-- A column spread along a row: at `(p, q)` the spread column is the column at `p`, whatever `q`. -/
theorem col_spread_r0 {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's payload at row `p`, feature `q` of the block: the two columns' entries of row `p` multiplied, times the
    weight row's entry of feature `q`, plus the bias row's, clamped below at zero. -/
theorem pay0_at (x0 x1 : Vec Ideal S5000x1 .f32) (x2 x3 : Vec Ideal S1x64 .f32) (p : Fin 5000) (q : Fin 64) :
    k0_pay1 x0 x1 x2 x3 (ix2 p q)
      = max (x0 (ix2 p 0) * x1 (ix2 p 0) * x2 (ix2 0 q) + x3 (ix2 0 q)) z0 := by
  unfold k0_pay1
  simp only [shapeCast_self]
  rw [maximumf_apply, addf_apply, mulf_apply, broadcast_apply, col_spread_r0, broadcastTo_1b_ab_apply, broadcastTo_1b_ab_apply,
    mulf_apply]
  rfl

/-- The payload of blocks that hold, in row `p`, the entries of node `n` of the two columns, and the weight and bias rows:
    the region's function at node `n`. -/
theorem pay0_G0 (x0 x1 : Vec Ideal S5000x1 .f32) (x2 x3 : Vec Ideal S1x64 .f32)
    (s d : sN1.Idx → EReal) (w b : s1H.Idx → EReal) (p : Fin 5000) (q : Fin 64) (n : Fin 200000)
    (h0 : x0 (ix2 p 0) = s (ix2 n 0)) (h1 : x1 (ix2 p 0) = d (ix2 n 0))
    (h2 : x2 (ix2 0 q) = w (ix2 0 q)) (h3 : x3 (ix2 0 q) = b (ix2 0 q)) :
    k0_pay1 x0 x1 x2 x3 (ix2 p q) = G0 s d w b (ix2 n q) := by
  rw [pay0_at, h0, h1, h2, h3]
  rfl

-- the TensorCore's buffer contents when the region is entered, at the ideal values
variable (V : (c : Dev nD) → (b : Ref sig .tc) → Buf (Elt Ideal) ((c : Thread nD τ).loc b))

/-! ## Where the blocks sit -/

/-- The block index maps over the grid: the two columns and the result move one block of rows per point; the weight and
    bias rows stay. -/
theorem where0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of the first column's block at point `t` is node `5000·t + p` of the column. -/
theorem col0_at (c : Dev nD) (t : Fin cfg0.N) (p : Fin 5000) (n : Fin 200000) (hn : n.val = t.val * 5000 + p.val) :
    (iblk0 V c 0 t : Vec Ideal S5000x1 .f32) (ix2 p 0) = (V c main_v28 : sN1.Idx → EReal) (ix2 n 0) := by
  obtain ⟨e0, e1, -⟩ := where0 t
  unfold iblk0
  rw [View.read_apply]
  show V c main_v28 _ = V c main_v28 _
  congr 1
  funext a; apply Fin.ext
  match a with
  | ⟨0, _⟩ => show win0_0.index t (0 : Fin 2) * 5000 + 1 * p.val = n.val; rw [e0, hn]; omega
  | ⟨1, _⟩ => show win0_0.index t (1 : Fin 2) * 1 + 1 * 0 = 0; rw [e1]

/-- Row `p` of the second column's block at point `t` is node `5000·t + p` of the column. -/
theorem col1_at (c : Dev nD) (t : Fin cfg0.N) (p : Fin 5000) (n : Fin 200000) (hn : n.val = t.val * 5000 + p.val) :
    (iblk0 V c 1 t : Vec Ideal S5000x1 .f32) (ix2 p 0) = (V c main_v15 : sN1.Idx → EReal) (ix2 n 0) := by
  obtain ⟨-, -, e0, e1, -⟩ := where0 t
  unfold iblk0
  rw [View.read_apply]
  show V c main_v15 _ = V c main_v15 _
  congr 1
  funext a; apply Fin.ext
  match a with
  | ⟨0, _⟩ => show win0_1.index t (0 : Fin 2) * 5000 + 1 * p.val = n.val; rw [e0, hn]; omega
  | ⟨1, _⟩ => show win0_1.index t (1 : Fin 2) * 1 + 1 * 0 = 0; rw [e1]

/-- The weight row's block is the weight row, at every point. -/
theorem row2_at (c : Dev nD) (t : Fin cfg0.N) (q : Fin 64) :
    (iblk0 V c 2 t : Vec Ideal S1x64 .f32) (ix2 0 q) = (V c main_arg3 : s1H.Idx → EReal) (ix2 0 q) := by
  obtain ⟨-, -, -, -, e0, e1, -⟩ := where0 t
  unfold iblk0
  rw [View.read_apply]
  show V c main_arg3 _ = V c main_arg3 _
  congr 1
  funext a; apply Fin.ext
  match a with
  | ⟨0, _⟩ => show win0_2.index t (0 : Fin 2) * 1 + 1 * 0 = 0; rw [e0]
  | ⟨1, _⟩ => show win0_2.index t (1 : Fin 2) * 64 + 1 * q.val = q.val; rw [e1]; omega

/-- The bias row's block is the bias row, at every point. -/
theorem row3_at (c : Dev nD) (t : Fin cfg0.N) (q : Fin 64) :
    (iblk0 V c 3 t : Vec Ideal S1x64 .f32) (ix2 0 q) = (V c main_v29 : s1H.Idx → EReal) (ix2 0 q) := by
  obtain ⟨-, -, -, -, -, -, e0, e1, -⟩ := where0 t
  unfold iblk0
  rw [View.read_apply]
  show V c main_v29 _ = V c main_v29 _
  congr 1
  funext a; apply Fin.ext
  match a with
  | ⟨0, _⟩ => show win0_3.index t (0 : Fin 2) * 1 + 1 * 0 = 0; rw [e0]
  | ⟨1, _⟩ => show win0_3.index t (1 : Fin 2) * 64 + 1 * q.val = q.val; rw [e1]; omega

/-- The grid has 40 points. -/
theorem lt40_r0 (t : Fin cfg0.N) : t.val < 40 := by
  exact (show t.val < grid0.N from t.isLt).trans_eq N_0

/-- What point `t` writes back is block `t` of `G0` of the arrays as the region finds them. -/
theorem flushed0 (c : Dev nD) (t : Fin cfg0.N) :
    (dat0 (F := Ideal) V c).flushed 4 t
      = ((cfg0.win 4).blk t).view.read (Elt Ideal) (G0 (V c main_v28) (V c main_v15) (V c main_arg3) (V c main_v29)) := by
  show (cfg0.win 4).cut (grid0.coords t) ((dat0 (F := Ideal) V c).after 4 t) = _
  rw [after0_4]
  unfold out0_4
  rw [View.canon_unit_zero origin_r0]
  simp only [View.ld_unit_zero (S := S5000x1) origin_r0, View.ld_unit_zero (S := S1x64) origin_r0]
  refine ext_rows_r0 (a := 5000) (b := 64) _ _ fun p q => ?_
  have ht := lt40_r0 t
  have hp := p.isLt
  let n : Fin 200000 := ⟨t.val * 5000 + p.val, by omega⟩
  have hn : n.val = t.val * 5000 + p.val := rfl
  obtain ⟨-, -, -, -, -, -, -, -, e0, e1⟩ := where0 t
  have he : ((cfg0.win 4).blk t).view.emb (ix2 p q) = (ix2 n q : sNH.Idx) := by
    funext a; apply Fin.ext
    match a with
    | ⟨0, _⟩ => show win0_4.index t (0 : Fin 2) * 5000 + 1 * p.val = n.val; rw [e0, hn]; omega
    | ⟨1, _⟩ => show win0_4.index t (1 : Fin 2) * 64 + 1 * q.val = q.val; rw [e1]; omega
  refine (pay0_G0 _ _ _ _ (V c main_v28) (V c main_v15) (V c main_arg3) (V c main_v29) p q n
    (col0_at V c t p n hn) (col1_at V c t p n hn) (row2_at V c t q) (row3_at V c t q)).trans ?_
  exact (congrArg (G0 (V c main_v28) (V c main_v15) (V c main_arg3) (V c main_v29)) he).symm

/-! ## The blocks tile the array -/

/-- An entry of the result is in point `t`'s block iff each coordinate is in the block's range on its axis. -/
theorem mem_blk0 (t : Fin cfg0.N) (i : sNH.Idx) :
    i ∈ ((cfg0.win 4).blk t).view.set
      ↔ ∀ a : Fin 2, win0_4.index t a * S5000x64.size a ≤ (i a).val ∧ (i a).val < win0_4.index t a * S5000x64.size a + S5000x64.size a := by
  show i ∈ ((View.whole main_v30).slice (win0_4.rect t)).set ↔ _
  rw [View.set_slice_whole, Rect.mem_set_unit]
  exact Iff.rfl

/-- Row `r` of the result is written by point `r / 5000`. -/
theorem cover0 (i : sNH.Idx) : ∃ t : Fin cfg0.N, (cfg0.win 4).flush t = true ∧ i ∈ ((cfg0.win 4).blk t).view.set := by
  have hi0 : (i 0).val < 200000 := (i 0).isLt
  have hi1 : (i 1).val < 64 := (i 1).isLt
  let t : Fin cfg0.N := ⟨(i 0).val / 5000, by rw [show cfg0.N = 40 from N_0]; omega⟩
  have htv : t.val = (i 0).val / 5000 := rfl
  obtain ⟨-, -, -, -, -, -, -, -, e0, e1⟩ := where0 t
  refine ⟨t, flush0_4 t, ?_⟩
  rw [mem_blk0]
  intro a
  match a with
  | ⟨0, _⟩ =>
    show win0_4.index t (0 : Fin 2) * 5000 ≤ (i 0).val ∧ (i 0).val < win0_4.index t (0 : Fin 2) * 5000 + 5000
    rw [e0, htv]; omega
  | ⟨1, _⟩ =>
    show win0_4.index t (1 : Fin 2) * 64 ≤ (i 1).val ∧ (i 1).val < win0_4.index t (1 : Fin 2) * 64 + 64
    rw [e1]; omega

/-- After the last grid point the region's result array is `G0` of the arrays it was entered with. -/
theorem arr0 (c : Dev nD) :
    (dat0 (F := Ideal) V c).arrAt 4 cfg0.N = G0 (V c main_v28) (V c main_v15) (V c main_arg3) (V c main_v29) :=
  (dat0 (F := Ideal) V c).arrAt_eq_of_cover 4 (G0 (V c main_v28) (V c main_v15) (V c main_arg3) (V c main_v29))
    (fun t _ => flushed0 V c t) cover0

end Cert.KernelIdeal.Val

end
-- ==== Proof.Val.Val1.lean ====
/-
  What the second pallas_call leaves in its result array, read as one function of the arrays it was entered with: each of
  the 40 grid points writes rows 5000·t … 5000·t + 4999, and what it writes there is the body's payload: the block's rows
  times the 64×64 weight matrix (a matrix product into a zero accumulator: at the ideal values the plain sum over the
  64 products, the change of float format in front of it the identity), each row scaled by its normalisation. The 40
  blocks tile the array.
-/
import proofs.«416223_j40458591928693_3_alg».proof.Proof.KI.Reg1
import proofs.«416223_j40458591928693_3_alg».proof.Proof.Val.GSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Cert.Math Cert.Data Cert.GSpec

/-! ## The matrix product's operand indices -/

/-- The left operand's row is the output's row, -/
theorem lin2_lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- its column the summation index; -/
theorem lin2_lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand's row is the summation index, -/
theorem lin2_rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- its column the output's column. -/
theorem lin2_rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block's matrix product into the zero accumulator, at row `p` and column `q`: the sum over the 64 inner
    positions of the left operand's row `p` times the right operand's column `q`. -/
theorem lin2_matmul_apply (a : FVec Ideal S5000x64 .bf16) (b : FVec Ideal S64x64 .bf16) (p : Fin 5000) (q : Fin 64) :
    FloatOps.matmul dot_S5000x64_S64x64_S5000x64_1_0_0_1_n_n none a b (constant (F := Ideal) S5000x64 .f32 0x00000000#32) (ix2 p q)
      = ∑ k : Fin 64, a (ix2 p k) * b (ix2 k q) := by
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun ax => Fin.ext (by
    match ax with
    | ⟨0, _⟩ => exact lin2_lhs_row _ _
    | ⟨1, _⟩ => exact (lin2_lhs_col _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun ax => Fin.ext (by
    match ax with
    | ⟨0, _⟩ => exact (lin2_rhs_row _ _).trans hk
    | ⟨1, _⟩ => exact lin2_rhs_col _ _)
  rw [el, er]

/-- The normalisation column spread over the 64 features: at row `p`, whatever the column, the column's entry `p`. -/
theorem lin2_spread_apply (v : FVec Ideal S5000x1 .f32) (p : Fin 5000) (q : Fin 64) :
    broadcastTo S5000x64 v broadcasts_S5000x1_S5000x64 (ix2 p q) = v (ix2 p (0 : Fin 1)) := by
  refine broadcastTo_apply v broadcasts_S5000x1_S5000x64 (ix2 p q) (ix2 p (0 : Fin 1)) fun ax => ?_
  match ax with
  | ⟨0, _⟩ => rfl
  | ⟨1, _⟩ => rfl

/-- The body's payload at row `p` and column `q` of the block: the block's row `p` times the weight matrix's column
    `q` (the change of float format in front of the product is the identity at the ideal values, the accumulator zero),
    scaled by the row's normalisation. -/
theorem lin2_pay_apply (x0 : Vec Ideal S5000x64 .f32) (x1 : Vec Ideal S64x64 .f32) (x2 : Vec Ideal S5000x1 .f32) (p : Fin 5000) (q : Fin 64) :
    k1_pay1 x0 x1 x2 (ix2 p q) = (∑ k : Fin 64, x0 (ix2 p k) * x1 (ix2 k q)) * x2 (ix2 p (0 : Fin 1)) := by
  unfold k1_pay1
  simp only [shapeCast_self]
  refine (mulf_apply _ _ _).trans ?_
  refine congrArg₂ (· * ·) ?_ ?_
  · exact lin2_matmul_apply _ _ p q
  · exact lin2_spread_apply _ p q

-- the TensorCore's buffer contents when the region is entered, at the ideal values
variable (V : (c : Dev nD) → (b : Ref sig .tc) → Buf (Elt Ideal) ((c : Thread nD τ).loc b))

/-! ## One block of the result from the blocks of the inputs -/

/-- Row `p`, column `q` of the block the body stores is entry (`n`, `q`) of the region's function of the whole arrays,
    once the block of activations holds the array's row `n` in its row `p`, the weight block the weight matrix, and the
    block of normalisations the array's entry `n` in its row `p`. -/
theorem lin2_entry (h : sNH.Idx → EReal) (w : sHH.Idx → EReal) (d : sN1.Idx → EReal)
    (x0 : Vec Ideal S5000x64 .f32) (x1 : Vec Ideal S64x64 .f32) (x2 : Vec Ideal S5000x1 .f32)
    (p : Fin 5000) (q : Fin 64) (n : Fin 200000)
    (h0 : ∀ k : Fin 64, x0 (ix2 p k) = h (ix2 n k))
    (h1 : ∀ k : Fin 64, x1 (ix2 k q) = w (ix2 k q))
    (h2 : x2 (ix2 p (0 : Fin 1)) = d (ix2 n (0 : Fin 1))) :
    k1_pay1 x0 x1 x2 (ix2 p q) = G1 h w d (ix2 n q) := by
  rw [lin2_pay_apply, h2]
  unfold G1 kH2p matOf w2Of colOf
  refine congrArg (· * d (ix2 n (0 : Fin 1))) (Finset.sum_congr rfl fun k _ => ?_)
  rw [h0 k, h1 k]

/-- The same at any index `j` of the block and any index `i` of the array with row `r·5000 + j₀` and column `j₁`,
    the block reads given for every row of the block. -/
theorem lin2_block_value (h : sNH.Idx → EReal) (w : sHH.Idx → EReal) (d : sN1.Idx → EReal)
    (x0 : Vec Ideal S5000x64 .f32) (x1 : Vec Ideal S64x64 .f32) (x2 : Vec Ideal S5000x1 .f32) (r : Nat)
    (h0 : ∀ (p : Fin 5000) (k : Fin 64) (n : Fin 200000), n.val = r * 5000 + p.val → x0 (ix2 p k) = h (ix2 n k))
    (h1 : ∀ k q : Fin 64, x1 (ix2 k q) = w (ix2 k q))
    (h2 : ∀ (p : Fin 5000) (n : Fin 200000), n.val = r * 5000 + p.val → x2 (ix2 p (0 : Fin 1)) = d (ix2 n (0 : Fin 1)))
    (j : S5000x64.Idx) (i : sNH.Idx) (hi0 : (i 0).val = r * 5000 + (j 0).val) (hi1 : (i 1).val = (j 1).val) :
    k1_pay1 x0 x1 x2 j = G1 h w d i := by
  obtain ⟨p, q, rfl⟩ : ∃ (p : Fin 5000) (q : Fin 64), j = ix2 p q := ⟨j 0, j 1, eq_ix2 j⟩
  obtain ⟨n, q', rfl⟩ : ∃ (n : Fin 200000) (q' : Fin 64), i = ix2 n q' := ⟨i 0, i 1, eq_ix2 i⟩
  have hn : n.val = r * 5000 + p.val := hi0
  obtain rfl : q' = q := Fin.ext hi1
  exact lin2_entry h w d x0 x1 x2 p q' n (fun k => h0 p k n hn) (fun k => h1 k q') (h2 p n hn)

/-! ## The blocks of the three inputs and of the result -/

theorem lin2_zero_offsets : (![0, 0] : Fin 2 → Nat) = fun _ => 0 :=
  funext fun a => by match a with | ⟨0, _⟩ => rfl | ⟨1, _⟩ => rfl

/-- Where the four windows' blocks sit, decided once over the 40 grid points: the activations', the normalisation's and
    the result's block at point `t` is block row `t`, block column 0; the weight matrix is one block. -/
theorem lin2_block_indices : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0) :=
  (by decide +kernel : ∀ t : Fin grid1.N, _)

/-- The block of activations at point `t` holds rows `5000·t … 5000·t + 4999` of the array of activations. -/
theorem lin2_rows_read (c : Dev nD) (t : Fin cfg1.N) (x : S5000x64.Idx) (i : sNH.Idx)
    (hi0 : (i 0).val = t.val * 5000 + (x 0).val) (hi1 : (i 1).val = (x 1).val) :
    (iblk1 (F := Ideal) V c 0 t : Vec Ideal S5000x64 .f32) x = (V c main_v30 : sNH.Idx → EReal) i := by
  obtain ⟨⟨e0, e1⟩, -, -, -⟩ := lin2_block_indices t
  unfold iblk1
  rw [View.read_apply]
  show (V c main_v30 : sNH.Idx → EReal) _ = (V c main_v30 : sNH.Idx → EReal) _
  refine congrArg (V c main_v30 : sNH.Idx → EReal) (funext fun a => Fin.ext ?_)
  match a with
  | ⟨0, _⟩ => show win1_0.index t (0 : Fin 2) * 5000 + 1 * (x 0).val = (i 0).val; rw [e0, hi0]; omega
  | ⟨1, _⟩ => show win1_0.index t (1 : Fin 2) * 64 + 1 * (x 1).val = (i 1).val; rw [e1, hi1]; omega

/-- The weight window's one block is the weight matrix. -/
theorem lin2_weights_read (c : Dev nD) (t : Fin cfg1.N) (x : S64x64.Idx) :
    (iblk1 (F := Ideal) V c 1 t : Vec Ideal S64x64 .f32) x = (V c main_arg5 : sHH.Idx → EReal) x := by
  obtain ⟨-, ⟨e0, e1⟩, -, -⟩ := lin2_block_indices t
  unfold iblk1
  rw [View.read_apply]
  show (V c main_arg5 : sHH.Idx → EReal) _ = (V c main_arg5 : sHH.Idx → EReal) _
  refine congrArg (V c main_arg5 : sHH.Idx → EReal) (funext fun a => Fin.ext ?_)
  match a with
  | ⟨0, _⟩ => show win1_1.index t (0 : Fin 2) * 64 + 1 * (x 0).val = (x 0).val; rw [e0]; omega
  | ⟨1, _⟩ => show win1_1.index t (1 : Fin 2) * 64 + 1 * (x 1).val = (x 1).val; rw [e1]; omega

/-- The block of normalisations at point `t` holds entries `5000·t … 5000·t + 4999` of the normalisation column. -/
theorem lin2_norm_read (c : Dev nD) (t : Fin cfg1.N) (x : S5000x1.Idx) (i : sN1.Idx)
    (hi0 : (i 0).val = t.val * 5000 + (x 0).val) (hi1 : (i 1).val = (x 1).val) :
    (iblk1 (F := Ideal) V c 2 t : Vec Ideal S5000x1 .f32) x = (V c main_v15 : sN1.Idx → EReal) i := by
  obtain ⟨-, -, ⟨e0, e1⟩, -⟩ := lin2_block_indices t
  unfold iblk1
  rw [View.read_apply]
  show (V c main_v15 : sN1.Idx → EReal) _ = (V c main_v15 : sN1.Idx → EReal) _
  refine congrArg (V c main_v15 : sN1.Idx → EReal) (funext fun a => Fin.ext ?_)
  match a with
  | ⟨0, _⟩ => show win1_2.index t (0 : Fin 2) * 5000 + 1 * (x 0).val = (i 0).val; rw [e0, hi0]; omega
  | ⟨1, _⟩ => show win1_2.index t (1 : Fin 2) * 1 + 1 * (x 1).val = (i 1).val; rw [e1, hi1]; omega

/-- What point `t` writes back is block `t` of the region's function of the arrays it was entered with. -/
theorem lin2_flushed_eq (c : Dev nD) (t : Fin cfg1.N) :
    (dat1 (F := Ideal) V c).flushed 3 t
      = ((cfg1.win 3).blk t).view.read (Elt Ideal) (G1 (V c main_v30) (V c main_arg5) (V c main_v15)) := by
  show (cfg1.win 3).cut (grid1.coords t) ((dat1 (F := Ideal) V c).after 3 t) = _
  rw [after1_3]
  unfold out1_3
  rw [View.canon_unit_zero lin2_zero_offsets]
  simp only [View.ld_unit_zero (S := S5000x64) lin2_zero_offsets, View.ld_unit_zero (S := S64x64) lin2_zero_offsets, View.ld_unit_zero (S := S5000x1) lin2_zero_offsets]
  obtain ⟨-, -, -, ⟨e0, e1⟩⟩ := lin2_block_indices t
  funext y
  show k1_pay1 (iblk1 V c 0 t) (iblk1 V c 1 t) (iblk1 V c 2 t) y
    = G1 (V c main_v30) (V c main_arg5) (V c main_v15) (((cfg1.win 3).blk t).view.emb y)
  refine lin2_block_value (V c main_v30) (V c main_arg5) (V c main_v15) (iblk1 V c 0 t) (iblk1 V c 1 t) (iblk1 V c 2 t) t.val
    (fun p k n hn => lin2_rows_read V c t (ix2 p k) (ix2 n k) hn rfl)
    (fun k q => lin2_weights_read V c t (ix2 k q))
    (fun p n hn => lin2_norm_read V c t (ix2 p (0 : Fin 1)) (ix2 n (0 : Fin 1)) hn rfl)
    y (((cfg1.win 3).blk t).view.emb y) ?_ ?_
  · show win1_3.index t (0 : Fin 2) * 5000 + 1 * (y 0).val = t.val * 5000 + (y 0).val
    rw [e0]; omega
  · show win1_3.index t (1 : Fin 2) * 64 + 1 * (y 1).val = (y 1).val
    rw [e1]; omega

/-! ## The 40 blocks tile the array -/

/-- An index of the result array is in point `t`'s block iff each coordinate is in the block's range on its axis. -/
theorem lin2_mem_blk (t : Fin cfg1.N) (i : sNH.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v31).slice (win1_3.rect t)).set ↔ _
  rw [View.set_slice_whole, Rect.mem_set_unit]
  exact Iff.rfl

/-- Row `r` of the result array lies in the block of point `r / 5000`. -/
theorem lin2_cover (i : sNH.Idx) : ∃ t : Fin cfg1.N, (cfg1.win 3).flush t = true ∧ i ∈ ((cfg1.win 3).blk t).view.set := by
  have hN : cfg1.N = 40 := N_1
  have hi0 : (i 0).val < 200000 := (i 0).isLt
  have hi1 : (i 1).val < 64 := (i 1).isLt
  have hr : (i 0).val / 5000 < cfg1.N := by rw [hN]; omega
  obtain ⟨-, -, -, ⟨e0, e1⟩⟩ := lin2_block_indices ⟨(i 0).val / 5000, hr⟩
  have e0' : win1_3.index ⟨(i 0).val / 5000, hr⟩ (0 : Fin 2) = (i 0).val / 5000 := e0
  refine ⟨⟨(i 0).val / 5000, hr⟩, flush1_3 _, ?_⟩
  rw [lin2_mem_blk]
  intro a
  match a with
  | ⟨0, _⟩ => show win1_3.index ⟨(i 0).val / 5000, hr⟩ (0 : Fin 2) * 5000 ≤ (i 0).val ∧ (i 0).val < win1_3.index ⟨(i 0).val / 5000, hr⟩ (0 : Fin 2) * 5000 + 5000; rw [e0']; omega
  | ⟨1, _⟩ => show win1_3.index ⟨(i 0).val / 5000, hr⟩ (1 : Fin 2) * 64 ≤ (i 1).val ∧ (i 1).val < win1_3.index ⟨(i 0).val / 5000, hr⟩ (1 : Fin 2) * 64 + 64; rw [e1]; omega

/-- After the last grid point the region's result array is `G1` of the arrays it was entered with. -/
theorem arr1 (c : Dev nD) :
    (dat1 (F := Ideal) V c).arrAt 3 cfg1.N = G1 (V c main_v30) (V c main_arg5) (V c main_v15) :=
  (dat1 (F := Ideal) V c).arrAt_eq_of_cover 3 (G1 (V c main_v30) (V c main_arg5) (V c main_v15))
    (fun t _ => lin2_flushed_eq V c t) lin2_cover

end Cert.KernelIdeal.Val

end
-- ==== Proof.Val.Val2.lean ====
/-
  What the third pallas_call leaves in its result array, read as one function of the arrays it was entered with: each of
  the 40 grid points writes rows 5000·t … 5000·t + 4999, and what it writes there is the body's payload, entry by entry
  max(d·r + b, 0) of the normalisation column, the block and the bias row. The 40 blocks tile the array.
-/
import proofs.«416223_j40458591928693_3_alg».proof.Proof.KI.Reg2
import proofs.«416223_j40458591928693_3_alg».proof.Proof.Val.GSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Cert.Math Cert.Data Cert.GSpec

/-! ## The payload, entry by entry -/

/-- The whole rectangle of a rank-2 buffer starts at the origin. -/
theorem origin_r2 : (![0, 0] : Fin 2 → Nat) = fun _ => 0 := funext fun a => by fin_cases a <;> rfl

/-- Two functions of a row and a column agree when they agree at every `(p, q)`. -/
theorem ext_rows_r2 {α : Type} {a b : ℕ} (f g : (⟨2, ![a, b]⟩ : Shape).Idx → α) (h : ∀ p q, f (ix2 p q) = g (ix2 p q)) : f = g :=
  funext fun j => by rw [eq_ix2 j]; exact h _ _

/-- A column spread along a row: at `(p, q)` the spread column is the column at `p`, whatever `q`. -/
theorem col_spread_r2 {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's payload at row `p`, feature `q` of the block: the column's entry of row `p` times the block's entry at
    `(p, q)`, plus the bias row's entry of feature `q`, clamped below at zero. -/
theorem pay2_at (x1 : Vec Ideal S5000x1 .f32) (x0 : Vec Ideal S5000x64 .f32) (x2 : Vec Ideal S1x64 .f32) (p : Fin 5000) (q : Fin 64) :
    k2_pay1 x1 x0 x2 (ix2 p q) = max (x1 (ix2 p 0) * x0 (ix2 p q) + x2 (ix2 0 q)) z0 := by
  unfold k2_pay1
  simp only [shapeCast_self]
  rw [maximumf_apply, addf_apply, mulf_apply, broadcast_apply, col_spread_r2, broadcastTo_1b_ab_apply]
  rfl

/-- The payload of blocks that hold, in row `p`, node `n`'s entry of the column and node `n`'s row of the array, and the
    bias row: the region's function at node `n`. -/
theorem pay2_G2 (x1 : Vec Ideal S5000x1 .f32) (x0 : Vec Ideal S5000x64 .f32) (x2 : Vec Ideal S1x64 .f32)
    (r : sNH.Idx → EReal) (d : sN1.Idx → EReal) (b : s1H.Idx → EReal) (p : Fin 5000) (q : Fin 64) (n : Fin 200000)
    (h0 : x0 (ix2 p q) = r (ix2 n q)) (h1 : x1 (ix2 p 0) = d (ix2 n 0)) (h2 : x2 (ix2 0 q) = b (ix2 0 q)) :
    k2_pay1 x1 x0 x2 (ix2 p q) = G2 r d b (ix2 n q) := by
  rw [pay2_at, h0, h1, h2]
  rfl

-- the TensorCore's buffer contents when the region is entered, at the ideal values
variable (V : (c : Dev nD) → (b : Ref sig .tc) → Buf (Elt Ideal) ((c : Thread nD τ).loc b))

/-! ## Where the blocks sit -/

/-- The block index maps over the grid: the array, the column and the result move one block of rows per point; the bias
    row stays. -/
theorem where2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `p` of the array's block at point `t` is node `5000·t + p`'s row of the array. -/
theorem mat0_at (c : Dev nD) (t : Fin cfg2.N) (p : Fin 5000) (q : Fin 64) (n : Fin 200000) (hn : n.val = t.val * 5000 + p.val) :
    (iblk2 V c 0 t : Vec Ideal S5000x64 .f32) (ix2 p q) = (V c main_v41 : sNH.Idx → EReal) (ix2 n q) := by
  obtain ⟨e0, e1, -⟩ := where2 t
  unfold iblk2
  rw [View.read_apply]
  show V c main_v41 _ = V c main_v41 _
  congr 1
  funext a; apply Fin.ext
  match a with
  | ⟨0, _⟩ => show win2_0.index t (0 : Fin 2) * 5000 + 1 * p.val = n.val; rw [e0, hn]; omega
  | ⟨1, _⟩ => show win2_0.index t (1 : Fin 2) * 64 + 1 * q.val = q.val; rw [e1]; omega

/-- Row `p` of the column's block at point `t` is node `5000·t + p` of the column. -/
theorem col1_r2_at (c : Dev nD) (t : Fin cfg2.N) (p : Fin 5000) (n : Fin 200000) (hn : n.val = t.val * 5000 + p.val) :
    (iblk2 V c 1 t : Vec Ideal S5000x1 .f32) (ix2 p 0) = (V c main_v15 : sN1.Idx → EReal) (ix2 n 0) := by
  obtain ⟨-, -, e0, e1, -⟩ := where2 t
  unfold iblk2
  rw [View.read_apply]
  show V c main_v15 _ = V c main_v15 _
  congr 1
  funext a; apply Fin.ext
  match a with
  | ⟨0, _⟩ => show win2_1.index t (0 : Fin 2) * 5000 + 1 * p.val = n.val; rw [e0, hn]; omega
  | ⟨1, _⟩ => show win2_1.index t (1 : Fin 2) * 1 + 1 * 0 = 0; rw [e1]

/-- The bias row's block is the bias row, at every point. -/
theorem row2_r2_at (c : Dev nD) (t : Fin cfg2.N) (q : Fin 64) :
    (iblk2 V c 2 t : Vec Ideal S1x64 .f32) (ix2 0 q) = (V c main_v42 : s1H.Idx → EReal) (ix2 0 q) := by
  obtain ⟨-, -, -, -, e0, e1, -⟩ := where2 t
  unfold iblk2
  rw [View.read_apply]
  show V c main_v42 _ = V c main_v42 _
  congr 1
  funext a; apply Fin.ext
  match a with
  | ⟨0, _⟩ => show win2_2.index t (0 : Fin 2) * 1 + 1 * 0 = 0; rw [e0]
  | ⟨1, _⟩ => show win2_2.index t (1 : Fin 2) * 64 + 1 * q.val = q.val; rw [e1]; omega

/-- The grid has 40 points. -/
theorem lt40_r2 (t : Fin cfg2.N) : t.val < 40 :=
  (show t.val < grid2.N from t.isLt).trans_eq N_2

/-- What point `t` writes back is block `t` of `G2` of the arrays as the region finds them. -/
theorem flushed2 (c : Dev nD) (t : Fin cfg2.N) :
    (dat2 (F := Ideal) V c).flushed 3 t
      = ((cfg2.win 3).blk t).view.read (Elt Ideal) (G2 (V c main_v41) (V c main_v15) (V c main_v42)) := by
  show (cfg2.win 3).cut (grid2.coords t) ((dat2 (F := Ideal) V c).after 3 t) = _
  rw [after2_3]
  unfold out2_3
  rw [View.canon_unit_zero origin_r2]
  simp only [View.ld_unit_zero (S := S5000x64) origin_r2, View.ld_unit_zero (S := S5000x1) origin_r2,
    View.ld_unit_zero (S := S1x64) origin_r2]
  refine ext_rows_r2 (a := 5000) (b := 64) _ _ fun p q => ?_
  have ht := lt40_r2 t
  have hp := p.isLt
  let n : Fin 200000 := ⟨t.val * 5000 + p.val, by omega⟩
  have hn : n.val = t.val * 5000 + p.val := rfl
  obtain ⟨-, -, -, -, -, -, e0, e1⟩ := where2 t
  have he : ((cfg2.win 3).blk t).view.emb (ix2 p q) = (ix2 n q : sNH.Idx) := by
    funext a; apply Fin.ext
    match a with
    | ⟨0, _⟩ => show win2_3.index t (0 : Fin 2) * 5000 + 1 * p.val = n.val; rw [e0, hn]; omega
    | ⟨1, _⟩ => show win2_3.index t (1 : Fin 2) * 64 + 1 * q.val = q.val; rw [e1]; omega
  refine (pay2_G2 _ _ _ (V c main_v41) (V c main_v15) (V c main_v42) p q n
    (mat0_at V c t p q n hn) (col1_r2_at V c t p n hn) (row2_r2_at V c t q)).trans ?_
  exact (congrArg (G2 (V c main_v41) (V c main_v15) (V c main_v42)) he).symm

/-! ## The blocks tile the array -/

/-- An entry of the result is in point `t`'s block iff each coordinate is in the block's range on its axis. -/
theorem mem_blk2 (t : Fin cfg2.N) (i : sNH.Idx) :
    i ∈ ((cfg2.win 3).blk t).view.set
      ↔ ∀ a : Fin 2, win2_3.index t a * S5000x64.size a ≤ (i a).val ∧ (i a).val < win2_3.index t a * S5000x64.size a + S5000x64.size a := by
  show i ∈ ((View.whole main_v43).slice (win2_3.rect t)).set ↔ _
  rw [View.set_slice_whole, Rect.mem_set_unit]
  exact Iff.rfl

/-- Row `r` of the result is written by point `r / 5000`. -/
theorem cover2 (i : sNH.Idx) : ∃ t : Fin cfg2.N, (cfg2.win 3).flush t = true ∧ i ∈ ((cfg2.win 3).blk t).view.set := by
  have hi0 : (i 0).val < 200000 := (i 0).isLt
  have hi1 : (i 1).val < 64 := (i 1).isLt
  let t : Fin cfg2.N := ⟨(i 0).val / 5000, by rw [show cfg2.N = 40 from N_2]; omega⟩
  have htv : t.val = (i 0).val / 5000 := rfl
  obtain ⟨-, -, -, -, -, -, e0, e1⟩ := where2 t
  refine ⟨t, flush2_3 t, ?_⟩
  rw [mem_blk2]
  intro a
  match a with
  | ⟨0, _⟩ =>
    show win2_3.index t (0 : Fin 2) * 5000 ≤ (i 0).val ∧ (i 0).val < win2_3.index t (0 : Fin 2) * 5000 + 5000
    rw [e0, htv]; omega
  | ⟨1, _⟩ =>
    show win2_3.index t (1 : Fin 2) * 64 ≤ (i 1).val ∧ (i 1).val < win2_3.index t (1 : Fin 2) * 64 + 64
    rw [e1]; omega

/-- After the last grid point the region's result array is `G2` of the arrays it was entered with. -/
theorem arr2 (c : Dev nD) :
    (dat2 (F := Ideal) V c).arrAt 3 cfg2.N = G2 (V c main_v41) (V c main_v15) (V c main_v42) := by
  exact (dat2 (F := Ideal) V c).arrAt_eq_of_cover 3 (G2 (V c main_v41) (V c main_v15) (V c main_v42))
    (fun t _ => flushed2 V c t) cover2

end Cert.KernelIdeal.Val

end
-- ==== Proof.KI.Reg3Pieces.lean ====
/-
  The pooling kernel's found pieces read as the body's payloads. Every access of the body is a whole buffer at zero
  offsets, so a load reads the buffer's contents and the last whole store decides what a buffer holds. Hence: the
  first point leaves in the accumulator the point's sum over the zero block; every later point leaves the point's
  sum over what the point before left; and the last point's result window is the closing payload of the accumulator
  it has just completed and the three whole inputs. Stated at any float family.
-/
import proofs.«416223_j40458591928693_3_alg».proof.Proof.KI.Reg3
import Idealize.ShloMosaic.Lib.Pipeline.Value

-- membership in a rectangle of 1280 rows is decided coordinate by coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The offsets of every access: zero on both axes. -/
theorem zeroOff3 : (![0, 0] : Fin 2 → Nat) = fun _ => 0 := funext fun a => by fin_cases a <;> rfl

/-! ## The cases' pieces as payloads -/

/-- A middle point: the accumulator ends at the point's sum over what it held (`a`). -/
theorem accMid_eq (c : Dev nD) (i : grid3.Coords) (arg1 : Memref sig .tc .vmem S1280x64 .f32) (harg1 : arg1.IsWhole) (arg2 : Memref sig .tc .vmem S1x1280 .i32) (harg2 : arg2.IsWhole)
    (arg3 : Memref sig .tc .vmem S1024x1 .f32) (harg3 : arg3.IsWhole) (arg4 : Memref sig .tc .vmem S64x1 .f32) (harg4 : arg4.IsWhole)
    (arg5 : Memref sig .tc .vmem S1x1 .f32) (harg5 : arg5.IsWhole) (arg6 : Memref sig .tc .vmem S1024x1 .f32) (harg6 : arg6.IsWhole)
    (arg7 : Memref sig .tc .vmem S1024x64 .f32) (harg7 : arg7.IsWhole)
    (hfirst : ¬atFirst3 i) (hlast : ¬atLast3 i) (x0 : Vec F S1280x64 .f32) (x1 : Vec F S1x1280 .i32) (x2 : Vec F S1024x1 .f32) (x3 : Vec F S64x1 .f32) (x4 : Vec F S1x1 .f32) (a : Vec F S1024x64 .f32) :
    accMid c i arg1 harg1 arg2 harg2 arg3 harg3 arg4 harg4 arg5 harg5 arg6 harg6 arg7 harg7 hfirst hlast x0 x1 x2 x3 x4 a = k3_pay2 x1 a x0 := by
  unfold accMid
  rw [View.read_writes_eq_canon _ _ _ (accCoverMid c i arg1 harg1 arg2 harg2 arg3 harg3 arg4 harg4 arg5 harg5 arg6 harg6 arg7 harg7 hfirst hlast x0 x1 x2 x3 x4 a)]
  unfold poolRunMid
  dsimp only
  sl_unfold_words
  rw [View.canon_unit_zero zeroOff3]
  simp only [View.readAt_eq_ld, harg1.read_unread, harg2.read_unread, harg7.read_unread, View.ld_unit_zero (S := S1280x64) zeroOff3, View.ld_unit_zero (S := S1x1280) zeroOff3,
    View.ld_unit_zero (S := S1024x64) zeroOff3, View.ld_unit_zero (S := S1024x1) zeroOff3, View.ld_unit_zero (S := S64x1) zeroOff3, View.ld_unit_zero (S := S1x1) zeroOff3,
    View.readCov_unit_zero (S := S1024x64) _ zeroOff3]

/-- The first point: the zero store is read back, so the accumulator ends at the point's sum over the zero block. -/
theorem accFirst_eq (c : Dev nD) (i : grid3.Coords) (arg1 : Memref sig .tc .vmem S1280x64 .f32) (harg1 : arg1.IsWhole) (arg2 : Memref sig .tc .vmem S1x1280 .i32) (harg2 : arg2.IsWhole)
    (arg3 : Memref sig .tc .vmem S1024x1 .f32) (harg3 : arg3.IsWhole) (arg4 : Memref sig .tc .vmem S64x1 .f32) (harg4 : arg4.IsWhole)
    (arg5 : Memref sig .tc .vmem S1x1 .f32) (harg5 : arg5.IsWhole) (arg6 : Memref sig .tc .vmem S1024x1 .f32) (harg6 : arg6.IsWhole)
    (arg7 : Memref sig .tc .vmem S1024x64 .f32) (harg7 : arg7.IsWhole)
    (hfirst : atFirst3 i) (hlast : ¬atLast3 i) (x0 : Vec F S1280x64 .f32) (x1 : Vec F S1x1280 .i32) (x2 : Vec F S1024x1 .f32) (x3 : Vec F S64x1 .f32) (x4 : Vec F S1x1 .f32) :
    accFirst c i arg1 harg1 arg2 harg2 arg3 harg3 arg4 harg4 arg5 harg5 arg6 harg6 arg7 harg7 hfirst hlast x0 x1 x2 x3 x4 = k3_pay2 x1 (k3_pay1 (F := F)) x0 := by
  unfold accFirst
  rw [View.read_writes_eq_canon _ _ _ (accCoverFirst c i arg1 harg1 arg2 harg2 arg3 harg3 arg4 harg4 arg5 harg5 arg6 harg6 arg7 harg7 hfirst hlast x0 x1 x2 x3 x4)]
  unfold poolRunFirst
  dsimp only
  sl_unfold_words
  rw [View.canon_cons_unit_zero (S := S1024x64) zeroOff3]
  simp only [View.readAt_eq_ld, harg1.read_unread, harg2.read_unread, View.ld_unit_zero (S := S1280x64) zeroOff3, View.ld_unit_zero (S := S1x1280) zeroOff3,
    View.ld_unit_zero (S := S1024x64) zeroOff3, View.ld_unit_zero (S := S1024x1) zeroOff3, View.ld_unit_zero (S := S64x1) zeroOff3, View.ld_unit_zero (S := S1x1) zeroOff3,
    View.readCov_unit_zero (S := S1024x64) _ zeroOff3]

/-- The last point: the accumulator ends at the point's sum over what it held, -/
theorem accLast_eq (c : Dev nD) (i : grid3.Coords) (arg1 : Memref sig .tc .vmem S1280x64 .f32) (harg1 : arg1.IsWhole) (arg2 : Memref sig .tc .vmem S1x1280 .i32) (harg2 : arg2.IsWhole)
    (arg3 : Memref sig .tc .vmem S1024x1 .f32) (harg3 : arg3.IsWhole) (arg4 : Memref sig .tc .vmem S64x1 .f32) (harg4 : arg4.IsWhole)
    (arg5 : Memref sig .tc .vmem S1x1 .f32) (harg5 : arg5.IsWhole) (arg6 : Memref sig .tc .vmem S1024x1 .f32) (harg6 : arg6.IsWhole)
    (arg7 : Memref sig .tc .vmem S1024x64 .f32) (harg7 : arg7.IsWhole)
    (hfirst : ¬atFirst3 i) (hlast : atLast3 i) (x0 : Vec F S1280x64 .f32) (x1 : Vec F S1x1280 .i32) (x2 : Vec F S1024x1 .f32) (x3 : Vec F S64x1 .f32) (x4 : Vec F S1x1 .f32) (a : Vec F S1024x64 .f32) :
    accLast c i arg1 harg1 arg2 harg2 arg3 harg3 arg4 harg4 arg5 harg5 arg6 harg6 arg7 harg7 hfirst hlast x0 x1 x2 x3 x4 a = k3_pay2 x1 a x0 := by
  unfold accLast
  rw [View.read_writes_eq_canon _ _ _ (accCoverLast c i arg1 harg1 arg2 harg2 arg3 harg3 arg4 harg4 arg5 harg5 arg6 harg6 arg7 harg7 hfirst hlast x0 x1 x2 x3 x4 a)]
  unfold poolRunLast
  dsimp only
  sl_unfold_words
  rw [View.canon_unit_zero zeroOff3]
  simp only [View.readAt_eq_ld, harg1.read_unread, harg2.read_unread, harg7.read_unread, View.ld_unit_zero (S := S1280x64) zeroOff3, View.ld_unit_zero (S := S1x1280) zeroOff3,
    View.ld_unit_zero (S := S1024x64) zeroOff3, View.ld_unit_zero (S := S1024x1) zeroOff3, View.ld_unit_zero (S := S64x1) zeroOff3, View.ld_unit_zero (S := S1x1) zeroOff3,
    View.readCov_unit_zero (S := S1024x64) _ zeroOff3]

/-- and the result window at the closing payload of that completed accumulator and the three whole inputs. -/
theorem resLast_eq (c : Dev nD) (i : grid3.Coords) (arg1 : Memref sig .tc .vmem S1280x64 .f32) (harg1 : arg1.IsWhole) (arg2 : Memref sig .tc .vmem S1x1280 .i32) (harg2 : arg2.IsWhole)
    (arg3 : Memref sig .tc .vmem S1024x1 .f32) (harg3 : arg3.IsWhole) (arg4 : Memref sig .tc .vmem S64x1 .f32) (harg4 : arg4.IsWhole)
    (arg5 : Memref sig .tc .vmem S1x1 .f32) (harg5 : arg5.IsWhole) (arg6 : Memref sig .tc .vmem S1024x1 .f32) (harg6 : arg6.IsWhole)
    (arg7 : Memref sig .tc .vmem S1024x64 .f32) (harg7 : arg7.IsWhole)
    (hfirst : ¬atFirst3 i) (hlast : atLast3 i) (x0 : Vec F S1280x64 .f32) (x1 : Vec F S1x1280 .i32) (x2 : Vec F S1024x1 .f32) (x3 : Vec F S64x1 .f32) (x4 : Vec F S1x1 .f32) (a : Vec F S1024x64 .f32) :
    resLast c i arg1 harg1 arg2 harg2 arg3 harg3 arg4 harg4 arg5 harg5 arg6 harg6 arg7 harg7 hfirst hlast x0 x1 x2 x3 x4 a = k3_pay3 (k3_pay2 x1 a x0) x2 x3 x4 := by
  unfold resLast
  rw [View.read_writes_eq_canon _ _ _ (resCoverLast c i arg1 harg1 arg2 harg2 arg3 harg3 arg4 harg4 arg5 harg5 arg6 harg6 arg7 harg7 hfirst hlast x0 x1 x2 x3 x4 a)]
  unfold poolRunLast
  dsimp only
  sl_unfold_words
  rw [View.canon_unit_zero zeroOff3]
  simp only [View.readAt_eq_ld, harg1.read_unread, harg2.read_unread, harg3.read_unread, harg4.read_unread, harg5.read_unread, harg7.read_unread, View.ld_unit_zero (S := S1280x64) zeroOff3, View.ld_unit_zero (S := S1x1280) zeroOff3,
    View.ld_unit_zero (S := S1024x64) zeroOff3, View.ld_unit_zero (S := S1024x1) zeroOff3, View.ld_unit_zero (S := S64x1) zeroOff3, View.ld_unit_zero (S := S1x1) zeroOff3,
    View.readCov_unit_zero (S := S1024x64) _ zeroOff3]

/-! ## The same, point by point -/

/-- After the first point the accumulator holds the point's sum over the zero block. -/
theorem outsAt3_first_acc (c : Dev nD) (t : Fin cfg3.N) (h0 : t.val = 0) (h1 : ¬t.val = 156) :
    (outsAt3 V c t.val t.isLt).2 = k3_pay2 (iblk3 V c 1 t) (k3_pay1 (F := F)) (iblk3 V c 0 t) := by
  rw [outsAt3_A V c t h0 h1]; dsimp only
  exact accFirst_eq c (grid3.coords t) (st3_0 t) (hst3_0 t) (st3_1 t) (hst3_1 t) (st3_2 t) (hst3_2 t) (st3_3 t) (hst3_3 t) (st3_4 t) (hst3_4 t) (st3_5 t) (hst3_5 t) acc3 (Memref.isWhole_whole _) ((atFirst3_iff t).mpr h0) (fun h => h1 ((atLast3_iff t).mp h)) (iblk3 V c 0 t) (iblk3 V c 1 t) (iblk3 V c 2 t) (iblk3 V c 3 t) (iblk3 V c 4 t)

/-- After a middle point it holds the point's sum over what the point before left. -/
theorem outsAt3_mid_acc (c : Dev nD) (t : Fin cfg3.N) (h0 : ¬t.val = 0) (h1 : ¬t.val = 156) :
    (outsAt3 V c t.val t.isLt).2 = k3_pay2 (iblk3 V c 1 t) (outsAt3 V c (t.val - 1) (Nat.lt_of_le_of_lt (Nat.sub_le _ _) t.isLt)).2 (iblk3 V c 0 t) := by
  rw [outsAt3_B V c t h0 h1]; dsimp only
  exact accMid_eq c (grid3.coords t) (st3_0 t) (hst3_0 t) (st3_1 t) (hst3_1 t) (st3_2 t) (hst3_2 t) (st3_3 t) (hst3_3 t) (st3_4 t) (hst3_4 t) (st3_5 t) (hst3_5 t) acc3 (Memref.isWhole_whole _) (fun h => h0 ((atFirst3_iff t).mp h)) (fun h => h1 ((atLast3_iff t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2

/-- After the last point likewise, -/
theorem outsAt3_last_acc (c : Dev nD) (t : Fin cfg3.N) (h0 : ¬t.val = 0) (h1 : t.val = 156) :
    (outsAt3 V c t.val t.isLt).2 = k3_pay2 (iblk3 V c 1 t) (outsAt3 V c (t.val - 1) (Nat.lt_of_le_of_lt (Nat.sub_le _ _) t.isLt)).2 (iblk3 V c 0 t) := by
  rw [outsAt3_C V c t h0 h1]; dsimp only
  exact accLast_eq c (grid3.coords t) (st3_0 t) (hst3_0 t) (st3_1 t) (hst3_1 t) (st3_2 t) (hst3_2 t) (st3_3 t) (hst3_3 t) (st3_4 t) (hst3_4 t) (st3_5 t) (hst3_5 t) acc3 (Memref.isWhole_whole _) (fun h => h0 ((atFirst3_iff t).mp h)) ((atLast3_iff t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2

/-- and the result window holds the closing payload of the completed accumulator. -/
theorem outsAt3_last_res (c : Dev nD) (t : Fin cfg3.N) (h0 : ¬t.val = 0) (h1 : t.val = 156) :
    (outsAt3 V c t.val t.isLt).1 = k3_pay3 ((outsAt3 V c t.val t.isLt).2) (iblk3 V c 2 t) (iblk3 V c 3 t) (iblk3 V c 4 t) := by
  rw [outsAt3_last_acc V c t h0 h1, outsAt3_C V c t h0 h1]; dsimp only
  exact resLast_eq c (grid3.coords t) (st3_0 t) (hst3_0 t) (st3_1 t) (hst3_1 t) (st3_2 t) (hst3_2 t) (st3_3 t) (hst3_3 t) (st3_4 t) (hst3_4 t) (st3_5 t) (hst3_5 t) acc3 (Memref.isWhole_whole _) (fun h => h0 ((atFirst3_iff t).mp h)) ((atLast3_iff t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2

end Cert.KernelIdeal.Fr

end
-- ==== Proof.Val.Val3Pay.lean ====
/-
  The three stored values of the fourth pallas_call's body, each read at one index, and the re-indexing that joins the
  157 tiles of 1280 padded rows into one sum over all 200960 rows.

  The first stored value clears the running group sums: every entry is the number zero. The second adds to the running
  sums the membership matrix of the tile's 1280 rows times those rows: entry (g, k) of the matrix compares the word of
  the group number g with the label of row k, and the comparison's bit, widened and converted, is the number one where
  they agree and zero elsewhere; the product with the rows goes into a zero accumulator, so it is the plain sum over
  the 1280 rows. The third divides the sums by the counts clamped below at one, multiplies by the final weight column
  (a sum over the 64 features) and adds the bias.
-/
import proofs.«416223_j40458591928693_3_alg».proof.Proof.Gen.KernelIdeal.Skeleton
import proofs.«416223_j40458591928693_3_alg».proof.Proof.Val.GSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.ValueIdx
open Cert.Math Cert.Data Cert.GSpec

/-! ## The cleared sums -/

/-- The value the first grid point stores into the running sums: zero at every group and feature. -/
theorem pay1_apply (g : Fin 1024) (j : Fin 64) : (k3_pay1 (F := Ideal)) (ix2 g j) = z0 := by
  unfold k3_pay1
  rw [shapeCast_self]
  rfl

/-! ## Tiles of rows as one range of rows -/

/-- A sum over `m` blocks of `n` consecutive positions is the sum over all `m * n` positions: position `n * t + k` is
    the pair (block `t`, offset `k`), and the pairs are in bijection with the positions. -/
theorem sum_blocks {M : Type*} [AddCommMonoid M] (m n N : ℕ) (h : m * n = N) (f : Fin N → M)
    (hb : ∀ (t : Fin m) (k : Fin n), n * t.val + k.val < N) :
    (∑ t : Fin m, ∑ k : Fin n, f ⟨n * t.val + k.val, hb t k⟩) = ∑ p : Fin N, f p := by
  subst h
  rw [← Equiv.sum_comp finProdFinEquiv f, Fintype.sum_prod_type]
  refine Finset.sum_congr rfl fun t _ => Finset.sum_congr rfl fun k _ => congrArg f (Fin.ext ?_)
  exact Nat.add_comm _ _

/-- The 157 tiles of 1280 padded rows cover the 200960 padded rows once each. -/
theorem sum_tiles (f : Fin 200960 → EReal) :
    (∑ t : Fin 157, ∑ k : Fin 1280, f ⟨1280 * t.val + k.val, by have := t.isLt; have := k.isLt; omega⟩) = ∑ p : Fin 200960, f p :=
  sum_blocks 157 1280 200960 (by norm_num) f _

/-! ## Layout: a column spread over the features -/

/-- A column of `a` entries spread over `b` features reads, at (row, feature), the column's entry of that row. -/
theorem column_spread_apply {α : Type} {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    -- the row axis: kept, unless the column has a single row, and then the row is row 0 anyway
    show r.val = if a = 1 then 0 else r.val
    split
    · have := r.isLt; omega
    · rfl
  | ⟨1, _⟩ => rfl

/-! ## The final linear map: [1024,64] times [64,1] -/

-- Which operand entries the product at (g, 0) and contraction position q reads: the left operand at (g, q), the right at (q, 0).
theorem lhs_fc_0 (i : S1024x1.Idx) (q : dot_S1024x64_S64x1_S1024x1_1_0_0_1_n_n.contr.Idx) :
    (dot_S1024x64_S64x1_S1024x1_1_0_0_1_n_n.lhsIdx i q 0).val = (i 0).val := by
  unfold DotDims.lhsIdx
  rw [dif_neg (show ¬(0 : Fin S1024x64.rank) ∈ dot_S1024x64_S64x1_S1024x1_1_0_0_1_n_n.lhsBatch by decide), dif_pos (show (0 : Fin S1024x64.rank) ∈ dot_S1024x64_S64x1_S1024x1_1_0_0_1_n_n.lhsNonContracting by decide)]
  rfl
theorem lhs_fc_1 (i : S1024x1.Idx) (q : dot_S1024x64_S64x1_S1024x1_1_0_0_1_n_n.contr.Idx) :
    (dot_S1024x64_S64x1_S1024x1_1_0_0_1_n_n.lhsIdx i q 1).val = (q ⟨0, by decide⟩).val :=
  dot_S1024x64_S64x1_S1024x1_1_0_0_1_n_n.lhsIdx_val_of_single rfl i q
theorem rhs_fc_0 (i : S1024x1.Idx) (q : dot_S1024x64_S64x1_S1024x1_1_0_0_1_n_n.contr.Idx) :
    (dot_S1024x64_S64x1_S1024x1_1_0_0_1_n_n.rhsIdx i q 0).val = (q ⟨0, by decide⟩).val :=
  dot_S1024x64_S64x1_S1024x1_1_0_0_1_n_n.rhsIdx_val_of_single rfl i q
theorem rhs_fc_1 (i : S1024x1.Idx) (q : dot_S1024x64_S64x1_S1024x1_1_0_0_1_n_n.contr.Idx) :
    (dot_S1024x64_S64x1_S1024x1_1_0_0_1_n_n.rhsIdx i q 1).val = (i 1).val := by
  unfold DotDims.rhsIdx
  rw [dif_neg (show ¬(1 : Fin S64x1.rank) ∈ dot_S1024x64_S64x1_S1024x1_1_0_0_1_n_n.rhsBatch by decide), dif_pos (show (1 : Fin S64x1.rank) ∈ dot_S1024x64_S64x1_S1024x1_1_0_0_1_n_n.rhsNonContracting by decide)]
  rfl

/-- The product into a zero accumulator, read at group `g`: the sum over the 64 features of left (g, j) times right (j, 0). -/
theorem fc_matmul_apply (A : FVec Ideal S1024x64 .bf16) (B : FVec Ideal S64x1 .bf16) (g : Fin 1024) :
    matmul dot_S1024x64_S64x1_S1024x1_1_0_0_1_n_n none A B (constant (F := Ideal) S1024x1 .f32 0x00000000#32) (ix2 g 0)
      = ∑ j : Fin 64, A (ix2 g j) * B (ix2 j 0) := by
  simp only [matmul]
  rw [Ideal.matmul_constant_zero_apply, ← Equiv.sum_comp (contrEquiv1 dot_S1024x64_S64x1_S1024x1_1_0_0_1_n_n 64 rfl rfl).symm]
  refine Finset.sum_congr rfl fun k _ => ?_
  have hk := contrEquiv1_symm_val dot_S1024x64_S64x1_S1024x1_1_0_0_1_n_n 64 rfl rfl k
  have el : dot_S1024x64_S64x1_S1024x1_1_0_0_1_n_n.lhsIdx (ix2 g 0) ((contrEquiv1 dot_S1024x64_S64x1_S1024x1_1_0_0_1_n_n 64 rfl rfl).symm k) = ix2 g k := funext fun a => Fin.ext (by
    match a with
    | ⟨0, _⟩ => exact lhs_fc_0 _ _
    | ⟨1, _⟩ => exact (lhs_fc_1 _ _).trans hk)
  have er : dot_S1024x64_S64x1_S1024x1_1_0_0_1_n_n.rhsIdx (ix2 g 0) ((contrEquiv1 dot_S1024x64_S64x1_S1024x1_1_0_0_1_n_n 64 rfl rfl).symm k) = ix2 k 0 := funext fun a => Fin.ext (by
    match a with
    | ⟨0, _⟩ => exact (rhs_fc_0 _ _).trans hk
    | ⟨1, _⟩ => exact rhs_fc_1 _ _)
  rw [el, er]

/-- The value the last grid point stores into the result: the sums divided by the clamped counts, through the final
    weights, plus the bias. -/
theorem pay3_apply (v24 : Vec Ideal S1024x64 .f32) (v25 : Vec Ideal S1024x1 .f32) (v32 : Vec Ideal S64x1 .f32) (v35 : Vec Ideal S1x1 .f32) (g : Fin 1024) :
    k3_pay3 v24 v25 v32 v35 (ix2 g 0) = (∑ j : Fin 64, Ideal.div (v24 (ix2 g j)) (max (v25 (ix2 g 0)) o1) * v32 (ix2 j 0)) + v35 (ix2 0 0) := by
  unfold k3_pay3
  refine (addf_apply _ _ _).trans ?_
  refine congrArg₂ (· + ·) ((fc_matmul_apply _ _ g).trans (Finset.sum_congr rfl fun j _ => ?_)) ?_
  · -- left factor at (g, j): the sum's entry divided by the count of group g clamped below at one; right factor: feature j's weight
    rw [truncf_apply, truncf_apply, divf_apply, column_spread_apply, maximumf_apply, shapeCast_self, broadcast_apply]
    rfl
  · -- the single bias entry, spread over the groups
    rw [shapeCast_self]
    exact broadcastTo_1b_ab_apply v35 _ g 0

/-! ## The membership matrix times the tile's rows: [1024,1280] times [1280,64] -/

-- Which operand entries the product at (g, j) and contraction position q reads: the left operand at (g, q), the right at (q, j).
theorem lhs_pool_0 (i : S1024x64.Idx) (q : dot_S1024x1280_S1280x64_S1024x64_1_0_0_1_n_n.contr.Idx) :
    (dot_S1024x1280_S1280x64_S1024x64_1_0_0_1_n_n.lhsIdx i q 0).val = (i 0).val := by
  unfold DotDims.lhsIdx
  rw [dif_neg (show ¬(0 : Fin S1024x1280.rank) ∈ dot_S1024x1280_S1280x64_S1024x64_1_0_0_1_n_n.lhsBatch by decide), dif_pos (show (0 : Fin S1024x1280.rank) ∈ dot_S1024x1280_S1280x64_S1024x64_1_0_0_1_n_n.lhsNonContracting by decide)]
  rfl
theorem lhs_pool_1 (i : S1024x64.Idx) (q : dot_S1024x1280_S1280x64_S1024x64_1_0_0_1_n_n.contr.Idx) :
    (dot_S1024x1280_S1280x64_S1024x64_1_0_0_1_n_n.lhsIdx i q 1).val = (q ⟨0, by decide⟩).val :=
  dot_S1024x1280_S1280x64_S1024x64_1_0_0_1_n_n.lhsIdx_val_of_single rfl i q
theorem rhs_pool_0 (i : S1024x64.Idx) (q : dot_S1024x1280_S1280x64_S1024x64_1_0_0_1_n_n.contr.Idx) :
    (dot_S1024x1280_S1280x64_S1024x64_1_0_0_1_n_n.rhsIdx i q 0).val = (q ⟨0, by decide⟩).val :=
  dot_S1024x1280_S1280x64_S1024x64_1_0_0_1_n_n.rhsIdx_val_of_single rfl i q
theorem rhs_pool_1 (i : S1024x64.Idx) (q : dot_S1024x1280_S1280x64_S1024x64_1_0_0_1_n_n.contr.Idx) :
    (dot_S1024x1280_S1280x64_S1024x64_1_0_0_1_n_n.rhsIdx i q 1).val = (i 1).val := by
  unfold DotDims.rhsIdx
  rw [dif_neg (show ¬(1 : Fin S1280x64.rank) ∈ dot_S1024x1280_S1280x64_S1024x64_1_0_0_1_n_n.rhsBatch by decide), dif_pos (show (1 : Fin S1280x64.rank) ∈ dot_S1024x1280_S1280x64_S1024x64_1_0_0_1_n_n.rhsNonContracting by decide)]
  rfl

/-- The product into a zero accumulator, read at (g, j): the sum over the tile's 1280 rows of left (g, k) times right (k, j). -/
theorem pool_matmul_apply (A : FVec Ideal S1024x1280 .bf16) (B : FVec Ideal S1280x64 .bf16) (g : Fin 1024) (j : Fin 64) :
    matmul dot_S1024x1280_S1280x64_S1024x64_1_0_0_1_n_n none A B (constant (F := Ideal) S1024x64 .f32 0x00000000#32) (ix2 g j)
      = ∑ k : Fin 1280, A (ix2 g k) * B (ix2 k j) := by
  simp only [matmul]
  rw [Ideal.matmul_constant_zero_apply, ← Equiv.sum_comp (contrEquiv1 dot_S1024x1280_S1280x64_S1024x64_1_0_0_1_n_n 1280 rfl rfl).symm]
  refine Finset.sum_congr rfl fun k _ => ?_
  have hk := contrEquiv1_symm_val dot_S1024x1280_S1280x64_S1024x64_1_0_0_1_n_n 1280 rfl rfl k
  have el : dot_S1024x1280_S1280x64_S1024x64_1_0_0_1_n_n.lhsIdx (ix2 g j) ((contrEquiv1 dot_S1024x1280_S1280x64_S1024x64_1_0_0_1_n_n 1280 rfl rfl).symm k) = ix2 g k := funext fun a => Fin.ext (by
    match a with
    | ⟨0, _⟩ => exact lhs_pool_0 _ _
    | ⟨1, _⟩ => exact (lhs_pool_1 _ _).trans hk)
  have er : dot_S1024x1280_S1280x64_S1024x64_1_0_0_1_n_n.rhsIdx (ix2 g j) ((contrEquiv1 dot_S1024x1280_S1280x64_S1024x64_1_0_0_1_n_n 1280 rfl rfl).symm k) = ix2 k j := funext fun a => Fin.ext (by
    match a with
    | ⟨0, _⟩ => exact (rhs_pool_0 _ _).trans hk
    | ⟨1, _⟩ => exact rhs_pool_1 _ _)
  rw [el, er]

/-- A one-bit word, widened to 32 bits and read as a signed integer, is the number one when the bit is set and the
    number zero when it is not. -/
theorem sitofp_bit (c : BitVec 1) :
    (FloatOps.sitofp (F := Ideal) .f32 (c.setWidth 32) : EReal) = if c = 1#1 then 1 else 0 := by
  rcases BitVec.eq_zero_or_eq_one c with h | h
  · subst h
    rw [if_neg (by decide)]
    show (((BitVec.setWidth 32 0#1).toInt : ℝ) : EReal) = 0
    have hz : (BitVec.setWidth 32 0#1).toInt = 0 := by decide
    rw [hz]; simp
  · subst h
    rw [if_pos rfl]
    show (((BitVec.setWidth 32 1#1).toInt : ℝ) : EReal) = 1
    have ho : (BitVec.setWidth 32 1#1).toInt = 1 := by decide
    rw [ho]; simp

/-- Entry (g, k) of the membership matrix: the word of the group number g compared with row k's label; one where they
    are the same word, zero elsewhere. -/
theorem member_apply (lab : IVec S1x1280 32) (g : Fin 1024) (k : Fin 1280) :
    (sitofp .f32 (extui 32 (cmpi .eq (iota .tc S1024x1280 32 [0] iota_S1024x1280_d0_w32)
        (broadcastTo S1024x1280 lab broadcasts_S1x1280_S1024x1280)) natLt_1_32) : FVec Ideal S1024x1280 .f32) (ix2 g k)
      = if BitVec.ofNat 32 g.val = lab (ix2 0 k) then (1 : EReal) else 0 := by
  refine (sitofp_apply _ _).trans ?_
  rw [extui_apply]
  refine (sitofp_bit _).trans ?_
  show (if IntOp.cmpi .eq (iota .tc S1024x1280 32 [0] iota_S1024x1280_d0_w32 (ix2 g k))
      (broadcastTo S1024x1280 lab broadcasts_S1x1280_S1024x1280 (ix2 g k)) = 1#1 then (1 : EReal) else 0) = _
  rw [iota_single_apply, broadcastTo_1b_ab_apply]
  show (if IntOp.cmpi .eq (BitVec.ofNat 32 g.val) (lab (ix2 0 k)) = 1#1 then (1 : EReal) else 0) = _
  by_cases h : BitVec.ofNat 32 g.val = lab (ix2 0 k)
  · rw [if_pos h, if_pos]
    rw [h]; simp [IntOp.cmpi]
  · rw [if_neg h, if_neg]
    -- different words: the comparison's bit is clear
    have hb : (BitVec.ofNat 32 g.val == lab (ix2 0 k)) = false := beq_eq_false_iff_ne.mpr h
    show ¬ BitVec.ofBool (BitVec.ofNat 32 g.val == lab (ix2 0 k)) = 1#1
    rw [hb]
    decide

/-- The value every grid point stores into the running sums: the sums so far plus the membership matrix of the tile's
    rows times those rows. -/
theorem pay2_apply (v4 : Vec Ideal S1x1280 .i32) (v12 : Vec Ideal S1024x64 .f32) (v13 : Vec Ideal S1280x64 .f32) (g : Fin 1024) (j : Fin 64) :
    k3_pay2 v4 v12 v13 (ix2 g j) = v12 (ix2 g j) + ∑ k : Fin 1280, (if BitVec.ofNat 32 g.val = v4 (ix2 0 k) then (1 : EReal) else 0) * v13 (ix2 k j) := by
  unfold k3_pay2
  simp only [shapeCast_self]
  refine (addf_apply _ _ _).trans ?_
  refine congrArg (v12 (ix2 g j) + ·) ?_
  refine (pool_matmul_apply _ _ g j).trans (Finset.sum_congr rfl fun k _ => ?_)
  rw [truncf_apply, truncf_apply]
  exact congrArg (· * v13 (ix2 k j)) (member_apply v4 g k)

end Cert.KernelIdeal.Val

end
-- ==== Proof.Val.Val3.lean ====
/-
  What the fourth pallas_call leaves in its result array, read as one function of the arrays it was entered with. The grid
  has 157 points; point t works on padded rows 1280·t … 1280·t + 1279. A 1024×64 scratch carries the running group sums:
  the first point clears it, every point adds to it the membership matrix of its 1280 rows (group g against the row's
  label) times those rows, and the last point divides it by the clamped counts, applies the final linear map and bias and
  writes the 1024×1 result, the only write-back of the result window. So the result array after the last point is the
  last point's payload of the scratch after 157 additions, and that scratch is the membership matrix times ALL 200960
  padded rows: the sum over 157 tiles of 1280 rows re-indexed as one sum.
-/
import proofs.«416223_j40458591928693_3_alg».proof.Proof.KI.Reg3Pieces
import proofs.«416223_j40458591928693_3_alg».proof.Proof.Val.GSpec
import proofs.«416223_j40458591928693_3_alg».proof.Proof.Val.Val3Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Cert.Math Cert.Data Cert.GSpec

-- the TensorCore's buffer contents when the region is entered, at the ideal values
variable (V : (c : Dev nD) → (b : Ref sig .tc) → Buf (Elt Ideal) ((c : Thread nD τ).loc b))

/-! ## Where the blocks sit -/

/-- The block index maps over the grid: the padded rows move one block of 1280 rows per point, the labels one block of
    1280 columns; the counts, the final weights, the bias and the result are one block each, the whole array. -/
theorem where3 : ∀ t : Fin cfg3.N, win3_0.index t (0 : Fin 2) = t.val ∧ win3_0.index t (1 : Fin 2) = 0
    ∧ win3_1.index t (0 : Fin 2) = 0 ∧ win3_1.index t (1 : Fin 2) = t.val
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- The blocks of the five inputs at point `t`, under their literal types. -/
abbrev rowsBlk (c : Dev nD) (t : Fin cfg3.N) : Vec Ideal S1280x64 .f32 := iblk3 V c 0 t
abbrev labBlk (c : Dev nD) (t : Fin cfg3.N) : Vec Ideal S1x1280 .i32 := iblk3 V c 1 t
abbrev cntBlk (c : Dev nD) (t : Fin cfg3.N) : Vec Ideal S1024x1 .f32 := iblk3 V c 2 t
abbrev wfBlk (c : Dev nD) (t : Fin cfg3.N) : Vec Ideal S64x1 .f32 := iblk3 V c 3 t
abbrev bfBlk (c : Dev nD) (t : Fin cfg3.N) : Vec Ideal S1x1 .f32 := iblk3 V c 4 t
/-- The five arrays, under their literal types. -/
abbrev rowsArr (c : Dev nD) : sPH.Idx → EReal := V c main_v50
abbrev labArr (c : Dev nD) : s1P.Idx → BitVec 32 := V c main_v49
abbrev cntArr (c : Dev nD) : sG1.Idx → EReal := V c main_v47
abbrev wfArr (c : Dev nD) : sH1.Idx → EReal := V c main_arg7
abbrev bfArr (c : Dev nD) : s11.Idx → EReal := V c main_v51

/-- Row `x 0` of point `t`'s block of the padded rows is row `1280·t + x 0` of the array. -/
theorem rowsBlk_at (c : Dev nD) (t : Fin cfg3.N) (x : S1280x64.Idx) (p : sPH.Idx)
    (h0 : (p 0).val = 1280 * t.val + (x 0).val) (h1 : (p 1).val = (x 1).val) :
    rowsBlk V c t x = rowsArr V c p := by
  obtain ⟨e0, e1, -⟩ := where3 t
  unfold rowsBlk rowsArr iblk3
  rw [View.read_apply]
  show V c main_v50 _ = V c main_v50 _
  congr 1
  funext a
  apply Fin.ext
  match a with
  | ⟨0, _⟩ => show win3_0.index t (0 : Fin 2) * 1280 + 1 * (x 0).val = (p 0).val; rw [e0, h0]; omega
  | ⟨1, _⟩ => show win3_0.index t (1 : Fin 2) * 64 + 1 * (x 1).val = (p 1).val; rw [e1, h1]; omega

/-- Column `x 1` of point `t`'s block of the labels is column `1280·t + x 1` of the array. -/
theorem labBlk_at (c : Dev nD) (t : Fin cfg3.N) (x : S1x1280.Idx) (p : s1P.Idx)
    (h0 : (p 0).val = (x 0).val) (h1 : (p 1).val = 1280 * t.val + (x 1).val) :
    labBlk V c t x = labArr V c p := by
  obtain ⟨-, -, e0, e1, -⟩ := where3 t
  unfold labBlk labArr iblk3
  rw [View.read_apply]
  show V c main_v49 _ = V c main_v49 _
  congr 1
  funext a
  apply Fin.ext
  match a with
  | ⟨0, _⟩ => show win3_1.index t (0 : Fin 2) * 1 + 1 * (x 0).val = (p 0).val; rw [e0, h0]; omega
  | ⟨1, _⟩ => show win3_1.index t (1 : Fin 2) * 1280 + 1 * (x 1).val = (p 1).val; rw [e1, h1]; omega

/-- The counts', the final weights' and the bias's one block is the array. -/
theorem cntBlk_eq (c : Dev nD) (t : Fin cfg3.N) : cntBlk V c t = cntArr V c := by
  obtain ⟨-, -, -, -, e0, e1, -⟩ := where3 t
  funext x
  unfold cntBlk cntArr iblk3
  rw [View.read_apply]
  show V c main_v47 _ = V c main_v47 _
  congr 1
  funext a
  apply Fin.ext
  match a with
  | ⟨0, _⟩ => show win3_2.index t (0 : Fin 2) * 1024 + 1 * (x 0).val = (x 0).val; rw [e0]; omega
  | ⟨1, _⟩ => show win3_2.index t (1 : Fin 2) * 1 + 1 * (x 1).val = (x 1).val; rw [e1]; omega
theorem wfBlk_eq (c : Dev nD) (t : Fin cfg3.N) : wfBlk V c t = wfArr V c := by
  obtain ⟨-, -, -, -, -, -, e0, e1, -⟩ := where3 t
  funext x
  unfold wfBlk wfArr iblk3
  rw [View.read_apply]
  show V c main_arg7 _ = V c main_arg7 _
  congr 1
  funext a
  apply Fin.ext
  match a with
  | ⟨0, _⟩ => show win3_3.index t (0 : Fin 2) * 64 + 1 * (x 0).val = (x 0).val; rw [e0]; omega
  | ⟨1, _⟩ => show win3_3.index t (1 : Fin 2) * 1 + 1 * (x 1).val = (x 1).val; rw [e1]; omega
theorem bfBlk_eq (c : Dev nD) (t : Fin cfg3.N) : bfBlk V c t = bfArr V c := by
  obtain ⟨-, -, -, -, -, -, -, -, e0, e1, -⟩ := where3 t
  funext x
  unfold bfBlk bfArr iblk3
  rw [View.read_apply]
  show V c main_v51 _ = V c main_v51 _
  congr 1
  funext a
  apply Fin.ext
  match a with
  | ⟨0, _⟩ => show win3_4.index t (0 : Fin 2) * 1 + 1 * (x 0).val = (x 0).val; rw [e0]; omega
  | ⟨1, _⟩ => show win3_4.index t (1 : Fin 2) * 1 + 1 * (x 1).val = (x 1).val; rw [e1]; omega

/-! ## The running group sums -/

/-- Tile `t`'s share of group `g`'s sum in feature `j`: over the tile's 1280 padded rows, the membership of the row in
    the group times the row's entry. -/
def tile3 (c : Dev nD) (g : Fin 1024) (j : Fin 64) (t : Fin 157) : EReal :=
  ∑ k : Fin 1280, (if BitVec.ofNat 32 g.val = labArr V c (ix2 0 ⟨1280 * t.val + k.val, by have := t.isLt; have := k.isLt; omega⟩) then 1 else 0)
      * rowsArr V c (ix2 ⟨1280 * t.val + k.val, by have := t.isLt; have := k.isLt; omega⟩ j)

/-- The same at a position that may lie past the grid (nothing there). -/
def tileAt3 (c : Dev nD) (g : Fin 1024) (j : Fin 64) (i : ℕ) : EReal :=
  if h : i < 157 then tile3 V c g j ⟨i, h⟩ else 0

/-- The product a point adds, entry by entry, is its tile's share: the point's blocks are the tile's columns of the
    labels and the tile's rows of the padded rows. -/
theorem tile_of_blocks (c : Dev nD) (t : Fin cfg3.N) (g : Fin 1024) (j : Fin 64) :
    (∑ k : Fin 1280, (if BitVec.ofNat 32 g.val = labBlk V c t (ix2 0 k) then 1 else 0) * rowsBlk V c t (ix2 k j))
      = tileAt3 V c g j t.val := by
  have hN : t.val < 157 := lt_of_lt_of_eq t.isLt (show cfg3.N = 157 from N_3)
  unfold tileAt3
  rw [dif_pos hN]
  unfold tile3
  refine Finset.sum_congr rfl fun k _ => ?_
  rw [labBlk_at V c t (ix2 0 k) (ix2 0 ⟨1280 * t.val + k.val, by have := k.isLt; omega⟩) rfl rfl,
    rowsBlk_at V c t (ix2 k j) (ix2 ⟨1280 * t.val + k.val, by have := k.isLt; omega⟩ j) rfl rfl]

/-- After the first point the scratch holds, entry by entry, zero plus the first tile's share. -/
theorem acc_first (c : Dev nD) (hn : 0 < cfg3.N) (g : Fin 1024) (j : Fin 64) :
    (outsAt3 V c 0 hn).2 (ix2 g j) = z0 + tileAt3 V c g j 0 := by
  have e : (outsAt3 V c 0 hn).2 = k3_pay2 (labBlk V c ⟨0, hn⟩) (k3_pay1 (F := Ideal)) (rowsBlk V c ⟨0, hn⟩) :=
    outsAt3_first_acc V c ⟨0, hn⟩ rfl (show ¬(0 : ℕ) = 156 from by decide)
  rw [e, pay2_apply (labBlk V c ⟨0, hn⟩) (k3_pay1 (F := Ideal)) (rowsBlk V c ⟨0, hn⟩) g j, pay1_apply g j,
    tile_of_blocks V c ⟨0, hn⟩ g j]

/-- After every later point it holds what the point before left plus the point's tile's share. -/
theorem acc_next (c : Dev nD) (n : ℕ) (hn : n + 1 < cfg3.N) (g : Fin 1024) (j : Fin 64) :
    (outsAt3 V c (n + 1) hn).2 (ix2 g j) = (outsAt3 V c n (Nat.lt_of_succ_lt hn)).2 (ix2 g j) + tileAt3 V c g j (n + 1) := by
  have e : (outsAt3 V c (n + 1) hn).2
      = k3_pay2 (labBlk V c ⟨n + 1, hn⟩) ((outsAt3 V c n (Nat.lt_of_succ_lt hn)).2) (rowsBlk V c ⟨n + 1, hn⟩) := by
    by_cases h1 : n + 1 = 156
    · exact outsAt3_last_acc V c ⟨n + 1, hn⟩ (Nat.succ_ne_zero n) h1
    · exact outsAt3_mid_acc V c ⟨n + 1, hn⟩ (Nat.succ_ne_zero n) h1
  rw [e, pay2_apply (labBlk V c ⟨n + 1, hn⟩) ((outsAt3 V c n (Nat.lt_of_succ_lt hn)).2) (rowsBlk V c ⟨n + 1, hn⟩) g j,
    tile_of_blocks V c ⟨n + 1, hn⟩ g j]

/-- So after point `n` the scratch holds zero plus the shares of the tiles up to `n`. -/
theorem acc_upto (c : Dev nD) (g : Fin 1024) (j : Fin 64) : ∀ (n : ℕ) (hn : n < cfg3.N),
    (outsAt3 V c n hn).2 (ix2 g j) = z0 + ∑ i ∈ Finset.range (n + 1), tileAt3 V c g j i
  | 0, hn => by rw [acc_first V c hn g j, Finset.sum_range_one]
  | n + 1, hn => by
    rw [acc_next V c n hn g j, acc_upto c g j n (Nat.lt_of_succ_lt hn), Finset.sum_range_succ _ (n + 1), add_assoc]

/-- After the last point: the membership matrix times all 200960 padded rows. -/
theorem acc_last (c : Dev nD) (h : 156 < cfg3.N) (g : Fin 1024) (j : Fin 64) :
    (outsAt3 V c 156 h).2 (ix2 g j) = kAcc (ohOf (labArr V c)) (fun p j => rowsArr V c (ix2 p j)) g j := by
  rw [acc_upto V c g j 156 h, z0_eq, zero_add, Finset.sum_range (fun i => tileAt3 V c g j i)]
  unfold kAcc ohOf
  rw [← sum_tiles (fun p => (if BitVec.ofNat 32 g.val = labArr V c (ix2 0 p) then 1 else 0) * rowsArr V c (ix2 p j))]
  refine Finset.sum_congr rfl fun t _ => ?_
  unfold tileAt3
  rw [dif_pos t.isLt]
  rfl

/-! ## The result -/

/-- The result window's buffer after the last point, entry by entry: the closing payload of the completed sums, the
    counts, the final weights and the bias, which is the region's function. -/
theorem res_last (c : Dev nD) (h : 156 < cfg3.N) (g : Fin 1024) :
    (outsAt3 V c 156 h).1 (ix2 g 0) = G3 (rowsArr V c) (labArr V c) (cntArr V c) (wfArr V c) (bfArr V c) (ix2 g 0) := by
  have e : (outsAt3 V c 156 h).1
      = k3_pay3 ((outsAt3 V c 156 h).2) (cntBlk V c ⟨156, h⟩) (wfBlk V c ⟨156, h⟩) (bfBlk V c ⟨156, h⟩) :=
    outsAt3_last_res V c ⟨156, h⟩ (Nat.succ_ne_zero 155) rfl
  rw [e, pay3_apply ((outsAt3 V c 156 h).2) (cntBlk V c ⟨156, h⟩) (wfBlk V c ⟨156, h⟩) (bfBlk V c ⟨156, h⟩) g,
    cntBlk_eq V c ⟨156, h⟩, wfBlk_eq V c ⟨156, h⟩, bfBlk_eq V c ⟨156, h⟩]
  unfold G3 kernelOut finish wfcOf
  show _ = (∑ j : H, Ideal.div (kAcc (ohOf (labArr V c)) (fun p j => rowsArr V c (ix2 p j)) g j) (max (cntArr V c (ix2 g 0)) o1) * wfArr V c (ix2 j 0))
    + bfArr V c (ix2 0 0)
  refine congrArg (fun v : EReal => v + bfArr V c (ix2 0 0)) ?_
  refine Finset.sum_congr rfl fun j _ => ?_
  rw [acc_last V c h g j]

/-- The same as functions of the index. -/
theorem res_last_all (c : Dev nD) (h : 156 < cfg3.N) :
    ((outsAt3 V c 156 h).1 : sG1.Idx → EReal) = G3 (V c main_v50) (V c main_v49) (V c main_v47) (V c main_arg7) (V c main_v51) := by
  funext i
  have ei : i = ix2 (i 0) (0 : Fin 1) := (eq_ix2 i).trans (congrArg (ix2 (i 0)) (Fin.eq_zero (i 1)))
  rw [ei]
  exact res_last V c h (i 0)

/-- The result window's buffer after the last point, at a point known to be the last only by its position. -/
theorem res_at_last (c : Dev nD) (t : Fin cfg3.N) (h1 : t.val = 156) :
    ((outsAt3 V c t.val t.isLt).1 : sG1.Idx → EReal) = G3 (V c main_v50) (V c main_v49) (V c main_v47) (V c main_arg7) (V c main_v51) := by
  obtain ⟨tv, ht⟩ := t
  dsimp only at h1
  subst h1
  exact res_last_all V c ht

/-- The one write-back, at the last point, writes the region's function: the result's one block is the whole array. -/
theorem flushed3 (c : Dev nD) (t : Fin cfg3.N) (hf : (cfg3.win 5).flush t = true) :
    (dat3 (F := Ideal) V c).flushed 5 t
      = ((cfg3.win 5).blk t).view.read (Elt Ideal) (G3 (V c main_v50) (V c main_v49) (V c main_v47) (V c main_arg7) (V c main_v51)) := by
  have hN : cfg3.N = 157 := N_3
  have h1 : t.val = 156 := by have := (flush3_5 t).mp hf; have := t.isLt; omega
  obtain ⟨-, -, -, -, -, -, -, -, -, -, e0, e1⟩ := where3 t
  show (cfg3.win 5).cut (grid3.coords t) ((dat3 (F := Ideal) V c).after 5 t) = _
  rw [after3_5, res_at_last V c t h1]
  funext y
  rw [View.read_apply]
  show G3 (V c main_v50) (V c main_v49) (V c main_v47) (V c main_arg7) (V c main_v51) (win3_5.xinj (grid3.coords t) y) = G3 (V c main_v50) (V c main_v49) (V c main_v47) (V c main_arg7) (V c main_v51) (((cfg3.win 5).blk t).view.emb y)
  refine congrArg (G3 (V c main_v50) (V c main_v49) (V c main_v47) (V c main_arg7) (V c main_v51)) ?_
  funext a
  apply Fin.ext
  match a with
  | ⟨0, _⟩ => show (y 0).val = win3_5.index t (0 : Fin 2) * 1024 + 1 * (y 0).val; rw [e0]; omega
  | ⟨1, _⟩ => show (y 1).val = win3_5.index t (1 : Fin 2) * 1 + 1 * (y 1).val; rw [e1]; omega

/-- An index of the result array is in point `t`'s block iff each coordinate is in the block's range on its axis. -/
theorem mem_blk3 (t : Fin cfg3.N) (i : S1024x1.Idx) :
    i ∈ ((cfg3.win 5).blk t).view.set ↔ ∀ a : Fin 2, win3_5.index t a * S1024x1.size a ≤ (i a).val ∧ (i a).val < win3_5.index t a * S1024x1.size a + S1024x1.size a := by
  show i ∈ ((View.whole main_v52).slice (win3_5.rect t)).set ↔ _
  rw [View.set_slice_whole, Rect.mem_set_unit]
  exact Iff.rfl

/-- After the last grid point the region's result array is `G3` of the arrays it was entered with. -/
theorem arr3 (c : Dev nD) :
    (dat3 (F := Ideal) V c).arrAt 5 cfg3.N = G3 (V c main_v50) (V c main_v49) (V c main_v47) (V c main_arg7) (V c main_v51) :=
  (dat3 (F := Ideal) V c).arrAt_eq_of_cover 5 (G3 (V c main_v50) (V c main_v49) (V c main_v47) (V c main_arg7) (V c main_v51)) (flushed3 V c) fun i => by
    have hN : (156 : ℕ) < cfg3.N := by rw [show cfg3.N = 157 from N_3]; decide
    obtain ⟨-, -, -, -, -, -, -, -, -, -, e0, e1⟩ := where3 ⟨156, hN⟩
    refine ⟨⟨156, hN⟩, (flush3_5 ⟨156, hN⟩).mpr rfl, ?_⟩
    rw [mem_blk3]
    intro a
    have h0 : (i 0).val < 1024 := (i 0).isLt
    have h1 : (i 1).val < 1 := (i 1).isLt
    match a with
    | ⟨0, _⟩ =>
      show win3_5.index ⟨156, hN⟩ (0 : Fin 2) * 1024 ≤ (i 0).val ∧ (i 0).val < win3_5.index ⟨156, hN⟩ (0 : Fin 2) * 1024 + 1024
      rw [e0]; omega
    | ⟨1, _⟩ =>
      show win3_5.index ⟨156, hN⟩ (1 : Fin 2) * 1 ≤ (i 1).val ∧ (i 1).val < win3_5.index ⟨156, hN⟩ (1 : Fin 2) * 1 + 1
      rw [e1]; omega

end Cert.KernelIdeal.Val

end
-- ==== Proof.Val.KHost.lean ====
/-
  The buffers the four pallas_calls read and write, stage by stage of the program, as terms of the argument arrays.

  The program is a chain: three host stretches, region 0, region 1, a host stretch, region 2, five host stretches,
  region 3, a last host stretch. A host stretch computes new arrays from the ones in front of it and leaves every
  other buffer alone; a region replaces its result array by one function of the arrays it reads (`G0` … `G3`) and
  leaves every other buffer alone. So each buffer a region reads is, when the region is entered, a term built from
  the arguments by the host's operations and the earlier regions' functions:
  * before region 0: the neighbour sums as a column, the normalisation as a column, the first bias as a row;
  * region 0 leaves `G0` of those and the first weights; region 1 leaves `G1` of that, the second weights and the
    normalisation;
  * the stretch after it gathers region 1's rows through the wrapped source indices and adds them up at the
    destination indices, and turns the second bias into a row; region 2 leaves `G2` of those and the normalisation;
  * the stretches after it count the groups, pad the labels (as a row) and region 2's rows, and turn the last bias
    into a 1×1 array; region 3 leaves `G3` of those and the last weights; the result is that column as a vector.
  Each host stretch is read off once, from ANY contents in front of it; the stages are then chained.
-/
import proofs.«416223_j40458591928693_3_alg».proof.Proof.KI.Run
import proofs.«416223_j40458591928693_3_alg».proof.Proof.Val.GSpec
import proofs.«416223_j40458591928693_3_alg».proof.Proof.Val.KTerms
import proofs.«416223_j40458591928693_3_alg».proof.Proof.Val.Val0
import proofs.«416223_j40458591928693_3_alg».proof.Proof.Val.Val1
import proofs.«416223_j40458591928693_3_alg».proof.Proof.Val.Val2
import proofs.«416223_j40458591928693_3_alg».proof.Proof.Val.Val3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KR

open Cert.KernelIdeal Cert.KernelIdeal.Gen Cert.KernelIdeal.Fr
open Idealize.ShloMosaic Idealize.ShloMosaic.TcCoe Idealize.ShloMosaic.ValueIdx Idealize.SL.Sem
open Cert.Math Cert.Data Cert.GSpec Cert.Decode

/-! ## Two of the host's computations as functions of the arrays they read -/

/-- Negative indices wrapped around, as the program does before an indexed read. -/
def wrapA (s : (⟨S3400000, .i32⟩ : BufTy).Contents (Elt Ideal)) : (⟨S3400000, .i32⟩ : BufTy).Contents (Elt Ideal) :=
  select (cmpi .slt s (broadcastInDim S3400000 ![] bcast_S_S3400000 (constantI S_ 32 0#32)))
    (addi s (broadcastInDim S3400000 ![] bcast_S_S3400000 (constantI S_ 32 200000#32))) s

/-- The first layer's scalar neighbour sums from the feature column `x`, the normalisation `dis`, the source indices `s`
    and the destination indices `d`: feature times normalisation, read through the wrapped source indices, added onto
    zeros at the destination indices. -/
def sumA (x : (⟨S200000x1, .f32⟩ : BufTy).Contents (Elt Ideal)) (dis : (⟨S200000, .f32⟩ : BufTy).Contents (Elt Ideal))
    (s d : (⟨S3400000, .i32⟩ : BufTy).Contents (Elt Ideal)) : (⟨S200000, .f32⟩ : BufTy).Contents (Elt Ideal) :=
  Host.scatterAdd (F := Ideal) (φ := .f32) scatter_S200000_S3400000x1_S3400000_n_0_0_1
    (broadcastInDim S200000 ![] bcast_S_S200000 (constant (F := Ideal) S_ .f32 0x00000000#32))
    (broadcastInDim S3400000x1 ![0] bcast_S3400000_S3400000x1_0 d)
    (Host.gather gather_S200000_S3400000x1_S3400000_n_0_n_n_0_1_1
      (mulf (F := Ideal) (φ := .f32) (shapeCast S200000 x shapeCasts_S200000x1_S200000) dis)
      (broadcastInDim S3400000x1 ![0] bcast_S3400000_S3400000x1_0 (wrapA s)))

/-- The second layer's gathered-and-scattered rows from the rows `h`, the source indices `s` and the destination
    indices `d`. -/
def rawA (h : (⟨S200000x64, .f32⟩ : BufTy).Contents (Elt Ideal))
    (s d : (⟨S3400000, .i32⟩ : BufTy).Contents (Elt Ideal)) : (⟨S200000x64, .f32⟩ : BufTy).Contents (Elt Ideal) :=
  Host.scatterAdd (F := Ideal) (φ := .f32) scatter_S200000x64_S3400000x1_S3400000x64_1_0_0_1
    (broadcastInDim S200000x64 ![] bcast_S_S200000x64 (constant (F := Ideal) S_ .f32 0x00000000#32))
    (broadcastInDim S3400000x1 ![0] bcast_S3400000_S3400000x1_0 d)
    (Host.gather gather_S200000x64_S3400000x1_S3400000x64_1_0_n_n_0_1_164 h
      (broadcastInDim S3400000x1 ![0] bcast_S3400000_S3400000x1_0 (wrapA s)))

/-! ## Each host stretch from ANY contents

What a stretch leaves in the buffers the regions read, as a term of what it found in the buffers it reads; every other
buffer it leaves as it found it. -/

section Stretches
variable (W : Valuation τ sig (Elt Ideal))

theorem s0_v3 : StableHlo.after hostOps0 W (Proc.devRef .tc main_v3) = KT.srcA (W (Proc.devRef .tc main_arg1)) := by
  after_results <;> rfl
theorem s0_v6 : StableHlo.after hostOps0 W (Proc.devRef .tc main_v6) = KT.dstA (W (Proc.devRef .tc main_arg1)) := by
  after_results <;> rfl
theorem s0_v12 : StableHlo.after hostOps0 W (Proc.devRef .tc main_v12) = KT.t12 (W (Proc.devRef .tc main_arg1)) := by
  after_results <;> rfl
theorem s0_v13 : StableHlo.after hostOps0 W (Proc.devRef .tc main_v13) = KT.t13 (W (Proc.devRef .tc main_arg1)) := by
  after_results <;> rfl
theorem s0_cst2 : StableHlo.after hostOps0 W (Proc.devRef .tc main_cst_2) = constant (F := Ideal) S_ .f32 0x00000000#32 := by
  after_results <;> rfl
theorem s0_keep (r : Ref sig .tc) (h : r ∉ (hostOps0_W : List (Ref sig .tc))) :
    StableHlo.after hostOps0 W (Proc.devRef .tc r) = W (Proc.devRef .tc r) :=
  StableHlo.after_of_writes_sub hostOps0 W hostOps0_writes h

theorem s1_v14 : StableHlo.after hostOps0_1 W (Proc.devRef .tc main_v14)
    = select (W (Proc.devRef .tc main_v12)) (W (Proc.devRef .tc main_v13))
        (broadcastInDim S200000 ![] bcast_S_S200000 (id (W (Proc.devRef .tc main_cst_2)))) := by
  after_results <;> rfl
theorem s1_keep (r : Ref sig .tc) (h : r ∉ (hostOps0_1_W : List (Ref sig .tc))) :
    StableHlo.after hostOps0_1 W (Proc.devRef .tc r) = W (Proc.devRef .tc r) :=
  StableHlo.after_of_writes_sub hostOps0_1 W hostOps0_1_writes h

theorem s2_v15 : StableHlo.after hostOps0_2 W (Proc.devRef .tc main_v15)
    = shapeCast S200000x1 (W (Proc.devRef .tc main_v14)) shapeCasts_S200000_S200000x1 := by
  after_results <;> rfl
theorem s2_v28 : StableHlo.after hostOps0_2 W (Proc.devRef .tc main_v28)
    = shapeCast S200000x1 (sumA (W (Proc.devRef .tc main_arg0)) (W (Proc.devRef .tc main_v14)) (W (Proc.devRef .tc main_v3)) (W (Proc.devRef .tc main_v6)))
        shapeCasts_S200000_S200000x1 := by
  after_results_simp <;> rfl
theorem s2_v29 : StableHlo.after hostOps0_2 W (Proc.devRef .tc main_v29)
    = shapeCast S1x64 (W (Proc.devRef .tc main_arg4)) shapeCasts_S64_S1x64 := by
  after_results <;> rfl
theorem s2_keep (r : Ref sig .tc) (h : r ∉ (hostOps0_2_W : List (Ref sig .tc))) :
    StableHlo.after hostOps0_2 W (Proc.devRef .tc r) = W (Proc.devRef .tc r) :=
  StableHlo.after_of_writes_sub hostOps0_2 W hostOps0_2_writes h

theorem s3_v41 : StableHlo.after hostOps2 W (Proc.devRef .tc main_v41)
    = rawA (W (Proc.devRef .tc main_v31)) (W (Proc.devRef .tc main_v3)) (W (Proc.devRef .tc main_v6)) := by
  after_results <;> rfl
theorem s3_v42 : StableHlo.after hostOps2 W (Proc.devRef .tc main_v42)
    = shapeCast S1x64 (W (Proc.devRef .tc main_arg6)) shapeCasts_S64_S1x64 := by
  after_results <;> rfl
theorem s3_keep (r : Ref sig .tc) (h : r ∉ (hostOps2_W : List (Ref sig .tc))) :
    StableHlo.after hostOps2 W (Proc.devRef .tc r) = W (Proc.devRef .tc r) :=
  StableHlo.after_of_writes_sub hostOps2 W hostOps2_writes h

theorem s4_v47 : StableHlo.after hostOps3 W (Proc.devRef .tc main_v47) = KT.t47 (W (Proc.devRef .tc main_arg2)) := by
  after_results <;> rfl
theorem s4_c10 : StableHlo.after hostOps3 W (Proc.devRef .tc main_c_10) = constantI S_ 32 1024#32 := by
  after_results <;> rfl
theorem s4_keep (r : Ref sig .tc) (h : r ∉ (hostOps3_W : List (Ref sig .tc))) :
    StableHlo.after hostOps3 W (Proc.devRef .tc r) = W (Proc.devRef .tc r) :=
  StableHlo.after_of_writes_sub hostOps3 W hostOps3_writes h

theorem s5_v48 : StableHlo.after hostOps3_1 W (Proc.devRef .tc main_v48)
    = pad S200960 ![0] ![960] ![0] (W (Proc.devRef .tc main_arg2)) (id (W (Proc.devRef .tc main_c_10))) pads_S200000_S200960_09600 h_S_ := by
  after_results <;> rfl
theorem s5_keep (r : Ref sig .tc) (h : r ∉ (hostOps3_1_W : List (Ref sig .tc))) :
    StableHlo.after hostOps3_1 W (Proc.devRef .tc r) = W (Proc.devRef .tc r) :=
  StableHlo.after_of_writes_sub hostOps3_1 W hostOps3_1_writes h

theorem s6_v49 : StableHlo.after hostOps3_2 W (Proc.devRef .tc main_v49)
    = shapeCast S1x200960 (W (Proc.devRef .tc main_v48)) shapeCasts_S200960_S1x200960 := by
  after_results <;> rfl
theorem s6_c11 : StableHlo.after hostOps3_2 W (Proc.devRef .tc main_c_11) = constantI S_ 32 0#32 := by
  after_results <;> rfl
theorem s6_keep (r : Ref sig .tc) (h : r ∉ (hostOps3_2_W : List (Ref sig .tc))) :
    StableHlo.after hostOps3_2 W (Proc.devRef .tc r) = W (Proc.devRef .tc r) :=
  StableHlo.after_of_writes_sub hostOps3_2 W hostOps3_2_writes h

theorem s7_v50 : StableHlo.after hostOps3_3 W (Proc.devRef .tc main_v50)
    = pad S200960x64 ![0, 0] ![960, 0] ![0, 0] (W (Proc.devRef .tc main_v43)) (sitofp (F := Ideal) .f32 (W (Proc.devRef .tc main_c_11)))
        pads_S200000x64_S200960x64_09600_000 h_S_ := by
  after_results <;> rfl
theorem s7_keep (r : Ref sig .tc) (h : r ∉ (hostOps3_3_W : List (Ref sig .tc))) :
    StableHlo.after hostOps3_3 W (Proc.devRef .tc r) = W (Proc.devRef .tc r) :=
  StableHlo.after_of_writes_sub hostOps3_3 W hostOps3_3_writes h

theorem s8_v51 : StableHlo.after hostOps3_4 W (Proc.devRef .tc main_v51) = KT.t51 (W (Proc.devRef .tc main_arg8)) := by
  after_results <;> rfl
theorem s8_keep (r : Ref sig .tc) (h : r ∉ (hostOps3_4_W : List (Ref sig .tc))) :
    StableHlo.after hostOps3_4 W (Proc.devRef .tc r) = W (Proc.devRef .tc r) :=
  StableHlo.after_of_writes_sub hostOps3_4 W hostOps3_4_writes h

theorem s9_v53 : StableHlo.after hostOps4 W (Proc.devRef .tc main_v53)
    = shapeCast S1024 (W (Proc.devRef .tc main_v52)) shapeCasts_S1024x1_S1024 := by
  after_results <;> rfl

end Stretches

/-! ## The fold's buffers, stage by stage -/

section Fold
variable (m : (ℓ : Loc nD τ sig) → Buf (Elt Ideal) ℓ) (c : Dev nD)

/-- A buffer none of the three stretches in front of region 0 writes is as launched. -/
theorem Y3_keep (r : Ref sig .tc) (h0 : r ∉ (hostOps0_W : List (Ref sig .tc))) (h1 : r ∉ (hostOps0_1_W : List (Ref sig .tc)))
    (h2 : r ∉ (hostOps0_2_W : List (Ref sig .tc))) : Y3 m c (Proc.devRef .tc r) = m ((c : Thread nD τ).loc r) :=
  (s2_keep _ r h2).trans ((s1_keep _ r h1).trans (s0_keep _ r h0))
theorem Y4_keep (r : Ref sig .tc) (h : r ≠ main_v30) : Y4 m c (Proc.devRef .tc r) = Y3 m c (Proc.devRef .tc r) := by
  unfold Y4; exact Function.update_of_ne (StableHlo.devRef_ne_of_ne h) _ _
theorem Y5_keep (r : Ref sig .tc) (h : r ≠ main_v31) : Y5 m c (Proc.devRef .tc r) = Y4 m c (Proc.devRef .tc r) := by
  unfold Y5; exact Function.update_of_ne (StableHlo.devRef_ne_of_ne h) _ _
theorem Y6_keep (r : Ref sig .tc) (h : r ∉ (hostOps2_W : List (Ref sig .tc))) : Y6 m c (Proc.devRef .tc r) = Y5 m c (Proc.devRef .tc r) :=
  s3_keep _ r h
theorem Y7_keep (r : Ref sig .tc) (h : r ≠ main_v43) : Y7 m c (Proc.devRef .tc r) = Y6 m c (Proc.devRef .tc r) := by
  unfold Y7; exact Function.update_of_ne (StableHlo.devRef_ne_of_ne h) _ _
/-- A buffer that regions 0, 1 and 2 and the stretch between regions 1 and 2 all leave alone. -/
theorem Y7_keep3 (r : Ref sig .tc) (h30 : r ≠ main_v30) (h31 : r ≠ main_v31) (h2 : r ∉ (hostOps2_W : List (Ref sig .tc))) (h43 : r ≠ main_v43) :
    Y7 m c (Proc.devRef .tc r) = Y3 m c (Proc.devRef .tc r) :=
  (Y7_keep m c r h43).trans ((Y6_keep m c r h2).trans ((Y5_keep m c r h31).trans (Y4_keep m c r h30)))
theorem Y12_keep (r : Ref sig .tc) (h3 : r ∉ (hostOps3_W : List (Ref sig .tc))) (h31 : r ∉ (hostOps3_1_W : List (Ref sig .tc)))
    (h32 : r ∉ (hostOps3_2_W : List (Ref sig .tc))) (h33 : r ∉ (hostOps3_3_W : List (Ref sig .tc))) (h34 : r ∉ (hostOps3_4_W : List (Ref sig .tc))) :
    Y12 m c (Proc.devRef .tc r) = Y7 m c (Proc.devRef .tc r) :=
  (s8_keep _ r h34).trans ((s7_keep _ r h33).trans ((s6_keep _ r h32).trans ((s5_keep _ r h31).trans (s4_keep _ r h3))))

set_option quotPrecheck false in
local notation "x0" => m ((c : Thread nD τ).loc main_arg0)
set_option quotPrecheck false in
local notation "x1" => m ((c : Thread nD τ).loc main_arg1)
set_option quotPrecheck false in
local notation "x2" => m ((c : Thread nD τ).loc main_arg2)
set_option quotPrecheck false in
local notation "x3" => m ((c : Thread nD τ).loc main_arg3)
set_option quotPrecheck false in
local notation "x4" => m ((c : Thread nD τ).loc main_arg4)
set_option quotPrecheck false in
local notation "x5" => m ((c : Thread nD τ).loc main_arg5)
set_option quotPrecheck false in
local notation "x6" => m ((c : Thread nD τ).loc main_arg6)
set_option quotPrecheck false in
local notation "x7" => m ((c : Thread nD τ).loc main_arg7)
set_option quotPrecheck false in
local notation "x8" => m ((c : Thread nD τ).loc main_arg8)

/-! ### Before region 0 -/

theorem Y3_v3 : Y3 m c (Proc.devRef .tc main_v3) = KT.srcA x1 :=
  (s2_keep _ main_v3 (by decide)).trans ((s1_keep _ main_v3 (by decide)).trans (s0_v3 _))
theorem Y3_v6 : Y3 m c (Proc.devRef .tc main_v6) = KT.dstA x1 :=
  (s2_keep _ main_v6 (by decide)).trans ((s1_keep _ main_v6 (by decide)).trans (s0_v6 _))
/-- The normalisation after the inlined where. -/
theorem V2_v14 : StableHlo.after hostOps0_1 (StableHlo.after hostOps0 (Gen.V0 m c)) (Proc.devRef .tc main_v14) = KT.t14 x1 := by
  rw [s1_v14, s0_v12, s0_v13, s0_cst2]; rfl
theorem Y3_v15 : Y3 m c (Proc.devRef .tc main_v15) = KT.t15 x1 := by
  show StableHlo.after hostOps0_2 (StableHlo.after hostOps0_1 (StableHlo.after hostOps0 (Gen.V0 m c))) (Proc.devRef .tc main_v15) = _
  rw [s2_v15, V2_v14]; rfl
theorem Y3_v28 : Y3 m c (Proc.devRef .tc main_v28) = KT.t28 x0 x1 := by
  show StableHlo.after hostOps0_2 (StableHlo.after hostOps0_1 (StableHlo.after hostOps0 (Gen.V0 m c))) (Proc.devRef .tc main_v28) = _
  rw [s2_v28, V2_v14, s1_keep _ main_v3 (by decide), s0_v3, s1_keep _ main_v6 (by decide), s0_v6,
    s1_keep _ main_arg0 (by decide), s0_keep _ main_arg0 (by decide)]
  rfl
theorem Y3_v29 : Y3 m c (Proc.devRef .tc main_v29) = KT.t29 x4 := by
  show StableHlo.after hostOps0_2 (StableHlo.after hostOps0_1 (StableHlo.after hostOps0 (Gen.V0 m c))) (Proc.devRef .tc main_v29) = _
  rw [s2_v29, s1_keep _ main_arg4 (by decide), s0_keep _ main_arg4 (by decide)]; rfl
theorem Y3_arg3 : Y3 m c (Proc.devRef .tc main_arg3) = x3 := Y3_keep m c main_arg3 (by decide) (by decide) (by decide)

/-! ### Regions 0 and 1 -/

theorem Y4_v30 : Y4 m c (Proc.devRef .tc main_v30) = G0 (KT.t28 x0 x1) (KT.t15 x1) x3 (KT.t29 x4) := by
  have h := Val.arr0 (atTc (Y3 m)) c
  rw [show atTc (Y3 m) c main_v28 = KT.t28 x0 x1 from Y3_v28 m c, show atTc (Y3 m) c main_v15 = KT.t15 x1 from Y3_v15 m c,
    show atTc (Y3 m) c main_arg3 = x3 from Y3_arg3 m c, show atTc (Y3 m) c main_v29 = KT.t29 x4 from Y3_v29 m c] at h
  unfold Y4
  exact (Function.update_self (Proc.devRef .tc main_v30 : DevRef τ sig) _ (Y3 m c)).trans h
theorem Y4_v15 : Y4 m c (Proc.devRef .tc main_v15) = KT.t15 x1 := (Y4_keep m c main_v15 (by decide)).trans (Y3_v15 m c)
theorem Y4_arg5 : Y4 m c (Proc.devRef .tc main_arg5) = x5 :=
  (Y4_keep m c main_arg5 (by decide)).trans (Y3_keep m c main_arg5 (by decide) (by decide) (by decide))

theorem Y5_v31 : Y5 m c (Proc.devRef .tc main_v31) = G1 (G0 (KT.t28 x0 x1) (KT.t15 x1) x3 (KT.t29 x4)) x5 (KT.t15 x1) := by
  have h := Val.arr1 (atTc (Y4 m)) c
  rw [show atTc (Y4 m) c main_v30 = _ from Y4_v30 m c, show atTc (Y4 m) c main_arg5 = x5 from Y4_arg5 m c,
    show atTc (Y4 m) c main_v15 = KT.t15 x1 from Y4_v15 m c] at h
  unfold Y5
  exact (Function.update_self (Proc.devRef .tc main_v31 : DevRef τ sig) _ (Y4 m c)).trans h

/-! ### Between regions 1 and 2, and region 2 -/

theorem Y5_v3 : Y5 m c (Proc.devRef .tc main_v3) = KT.srcA x1 :=
  (Y5_keep m c main_v3 (by decide)).trans ((Y4_keep m c main_v3 (by decide)).trans (Y3_v3 m c))
theorem Y5_v6 : Y5 m c (Proc.devRef .tc main_v6) = KT.dstA x1 :=
  (Y5_keep m c main_v6 (by decide)).trans ((Y4_keep m c main_v6 (by decide)).trans (Y3_v6 m c))
theorem Y6_v41 : Y6 m c (Proc.devRef .tc main_v41) = KT.t41 x1 (Y5 m c (Proc.devRef .tc main_v31)) := by
  show StableHlo.after hostOps2 (Y5 m c) (Proc.devRef .tc main_v41) = _
  rw [s3_v41, Y5_v3, Y5_v6]; rfl
theorem Y6_v42 : Y6 m c (Proc.devRef .tc main_v42) = KT.t42 x6 := by
  show StableHlo.after hostOps2 (Y5 m c) (Proc.devRef .tc main_v42) = _
  rw [s3_v42, Y5_keep m c main_arg6 (by decide), Y4_keep m c main_arg6 (by decide), Y3_keep m c main_arg6 (by decide) (by decide) (by decide)]; rfl
theorem Y6_v15 : Y6 m c (Proc.devRef .tc main_v15) = KT.t15 x1 :=
  (Y6_keep m c main_v15 (by decide)).trans ((Y5_keep m c main_v15 (by decide)).trans (Y4_v15 m c))

theorem Y7_v43 : Y7 m c (Proc.devRef .tc main_v43) = G2 (KT.t41 x1 (Y5 m c (Proc.devRef .tc main_v31))) (KT.t15 x1) (KT.t42 x6) := by
  have h := Val.arr2 (atTc (Y6 m)) c
  rw [show atTc (Y6 m) c main_v41 = _ from Y6_v41 m c, show atTc (Y6 m) c main_v15 = KT.t15 x1 from Y6_v15 m c,
    show atTc (Y6 m) c main_v42 = KT.t42 x6 from Y6_v42 m c] at h
  unfold Y7
  exact (Function.update_self (Proc.devRef .tc main_v43 : DevRef τ sig) _ (Y6 m c)).trans h

/-! ### Between regions 2 and 3, region 3, and the end -/

/-- An argument of the program is as launched when region 3 is entered. -/
theorem Y7_arg (r : Ref sig .tc) (h0 : r ∉ (hostOps0_W : List (Ref sig .tc))) (h1 : r ∉ (hostOps0_1_W : List (Ref sig .tc)))
    (h2 : r ∉ (hostOps0_2_W : List (Ref sig .tc))) (h30 : r ≠ main_v30) (h31 : r ≠ main_v31) (h3 : r ∉ (hostOps2_W : List (Ref sig .tc)))
    (h43 : r ≠ main_v43) : Y7 m c (Proc.devRef .tc r) = m ((c : Thread nD τ).loc r) :=
  (Y7_keep3 m c r h30 h31 h3 h43).trans (Y3_keep m c r h0 h1 h2)

theorem Y12_v47 : Y12 m c (Proc.devRef .tc main_v47) = KT.t47 x2 := by
  show StableHlo.after hostOps3_4 (StableHlo.after hostOps3_3 (StableHlo.after hostOps3_2 (StableHlo.after hostOps3_1 (StableHlo.after hostOps3 (Y7 m c))))) (Proc.devRef .tc main_v47) = _
  rw [s8_keep _ main_v47 (by decide), s7_keep _ main_v47 (by decide), s6_keep _ main_v47 (by decide), s5_keep _ main_v47 (by decide), s4_v47,
    Y7_arg m c main_arg2 (by decide) (by decide) (by decide) (by decide) (by decide) (by decide) (by decide)]
theorem Y12_v49 : Y12 m c (Proc.devRef .tc main_v49) = KT.t49 x2 := by
  show StableHlo.after hostOps3_4 (StableHlo.after hostOps3_3 (StableHlo.after hostOps3_2 (StableHlo.after hostOps3_1 (StableHlo.after hostOps3 (Y7 m c))))) (Proc.devRef .tc main_v49) = _
  rw [s8_keep _ main_v49 (by decide), s7_keep _ main_v49 (by decide), s6_v49, s5_v48, s4_c10, s4_keep _ main_arg2 (by decide),
    Y7_arg m c main_arg2 (by decide) (by decide) (by decide) (by decide) (by decide) (by decide) (by decide)]
  rfl
theorem Y12_v50 : Y12 m c (Proc.devRef .tc main_v50) = KT.t50 (Y7 m c (Proc.devRef .tc main_v43)) := by
  show StableHlo.after hostOps3_4 (StableHlo.after hostOps3_3 (StableHlo.after hostOps3_2 (StableHlo.after hostOps3_1 (StableHlo.after hostOps3 (Y7 m c))))) (Proc.devRef .tc main_v50) = _
  rw [s8_keep _ main_v50 (by decide), s7_v50, s6_c11, s6_keep _ main_v43 (by decide), s5_keep _ main_v43 (by decide), s4_keep _ main_v43 (by decide)]
  rfl
theorem Y12_v51 : Y12 m c (Proc.devRef .tc main_v51) = KT.t51 x8 := by
  show StableHlo.after hostOps3_4 (StableHlo.after hostOps3_3 (StableHlo.after hostOps3_2 (StableHlo.after hostOps3_1 (StableHlo.after hostOps3 (Y7 m c))))) (Proc.devRef .tc main_v51) = _
  rw [s8_v51, s7_keep _ main_arg8 (by decide), s6_keep _ main_arg8 (by decide), s5_keep _ main_arg8 (by decide), s4_keep _ main_arg8 (by decide),
    Y7_arg m c main_arg8 (by decide) (by decide) (by decide) (by decide) (by decide) (by decide) (by decide)]
theorem Y12_arg7 : Y12 m c (Proc.devRef .tc main_arg7) = x7 :=
  (Y12_keep m c main_arg7 (by decide) (by decide) (by decide) (by decide) (by decide)).trans
    (Y7_arg m c main_arg7 (by decide) (by decide) (by decide) (by decide) (by decide) (by decide) (by decide))

theorem Y13_v52 : Y13 m c (Proc.devRef .tc main_v52)
    = G3 (KT.t50 (Y7 m c (Proc.devRef .tc main_v43))) (KT.t49 x2) (KT.t47 x2) x7 (KT.t51 x8) := by
  have h := Val.arr3 (atTc (Y12 m)) c
  rw [show atTc (Y12 m) c main_v50 = _ from Y12_v50 m c, show atTc (Y12 m) c main_v49 = KT.t49 x2 from Y12_v49 m c,
    show atTc (Y12 m) c main_v47 = KT.t47 x2 from Y12_v47 m c, show atTc (Y12 m) c main_arg7 = x7 from Y12_arg7 m c,
    show atTc (Y12 m) c main_v51 = KT.t51 x8 from Y12_v51 m c] at h
  unfold Y13
  exact (Function.update_self (Proc.devRef .tc main_v52 : DevRef τ sig) _ (Y12 m c)).trans h

theorem Y14_v53 : Y14 m c (Proc.devRef .tc main_v53)
    = shapeCast S1024 (G3 (KT.t50 (Y7 m c (Proc.devRef .tc main_v43))) (KT.t49 x2) (KT.t47 x2) x7 (KT.t51 x8)) shapeCasts_S1024x1_S1024 := by
  show StableHlo.after hostOps4 (Y13 m c) (Proc.devRef .tc main_v53) = _
  rw [s9_v53, Y13_v52]

end Fold

end Cert.KernelIdeal.KR

end
-- ==== Proof.Val.PadRead.lean ====
/-
  Two readings the pooled sums need.

  The host pads the 200000 rows (and the 200000 labels) at the end with 960 more, no padding in front and none between
  entries: read at row `p`, the padded array is the operand's row `p` while `p < 200000`, and the padding value from
  there on. On the feature axis nothing is added.

  The membership matrix asks, for group `g` and padded row `p`, whether the row's label is the 32-bit word of `g`. On a
  real row the label is the node's own, and "the label is the word of `g`" is "the node's label lands on `g`" (a label
  lands on a group exactly when it is that group's word); on a padded row the label is the word 1024, which is the word
  of no group, the groups being numbered below 1024.
-/
import proofs.«416223_j40458591928693_3_alg».proof.Proof.Val.GSpec
import Idealize.ShloMosaic.Lib.KernelVsHost
import Idealize.ShloMosaic.Lib.ValueIdx

noncomputable section

namespace Cert.PadRead

open Idealize.ShloMosaic Idealize.ShloMosaic.ValueIdx Cert.Math

section Pad
variable {α : Type}

/-- The rows padded at the end, read at row `p` and feature `j`: the operand's entry on a real row, the padding value
    below it. Row `p` is `0 + p · (0 + 1)` and feature `j` is `0 + j · (0 + 1)`; past row 200000 the row axis is outside. -/
theorem pad_rows_apply (x : (⟨2, ![200000, 64]⟩ : Shape).Idx → α) (v : (⟨0, ![]⟩ : Shape).Idx → α)
    (h : (⟨2, ![200000, 64]⟩ : Shape).Pads (![0, 0] : Fin 2 → Nat) ![960, 0] ![0, 0] ⟨2, ![200960, 64]⟩)
    (hv : 0 < (⟨0, ![]⟩ : Shape).numel) (p : Fin 200960) (j : Fin 64) :
    pad ⟨2, ![200960, 64]⟩ ![0, 0] ![960, 0] ![0, 0] x v h hv (ix2 p j)
      = if hp : p.val < 200000 then x (ix2 ⟨p.val, hp⟩ j) else v ix0 := by
  by_cases hp : p.val < 200000
  · rw [dif_pos hp]
    exact pad_apply_of_inside _ _ _ x v h hv _ (ix2 (⟨p.val, hp⟩ : Fin 200000) j) (by
      intro a
      match a with
      | ⟨0, _⟩ => show p.val = 0 + p.val * (0 + 1); omega
      | ⟨1, _⟩ => show j.val = 0 + j.val * (0 + 1); omega)
  · rw [dif_neg hp]
    refine (pad_apply_of_not_inside _ _ _ x v h hv _ (0 : Fin 2) (by
      intro hin
      have e : (p.val - 0) / (0 + 1) < 200000 := hin.2.2
      omega)).trans (congrArg v (eq_ix0 _))

/-- The labels padded at the end, read at row `p`: the operand's entry on a real row, the padding value below it. -/
theorem pad_vec_apply (x : (⟨1, ![200000]⟩ : Shape).Idx → α) (v : (⟨0, ![]⟩ : Shape).Idx → α)
    (h : (⟨1, ![200000]⟩ : Shape).Pads (![0] : Fin 1 → Nat) ![960] ![0] ⟨1, ![200960]⟩)
    (hv : 0 < (⟨0, ![]⟩ : Shape).numel) (p : Fin 200960) :
    pad ⟨1, ![200960]⟩ ![0] ![960] ![0] x v h hv (ix1 p)
      = if hp : p.val < 200000 then x (ix1 ⟨p.val, hp⟩) else v ix0 := by
  by_cases hp : p.val < 200000
  · rw [dif_pos hp]
    exact pad_apply_of_inside _ _ _ x v h hv _ (ix1 (⟨p.val, hp⟩ : Fin 200000)) (by
      intro a
      match a with
      | ⟨0, _⟩ => show p.val = 0 + p.val * (0 + 1); omega)
  · rw [dif_neg hp]
    refine (pad_apply_of_not_inside _ _ _ x v h hv _ (0 : Fin 1) (by
      intro hin
      have e : (p.val - 0) / (0 + 1) < 200000 := hin.2.2
      omega)).trans (congrArg v (eq_ix0 _))

end Pad

/-- On a real row the membership matrix is the indicator of "the node's label lands on the group": the row's label is
    the node's, and a label lands on `g` exactly when it is the word of `g`. -/
theorem ohOf_pad (labels : (⟨1, ![200000]⟩ : Shape).Idx → BitVec 32) (brow : GSpec.s1P.Idx → BitVec 32)
    (hb : ∀ n : Fin 200000, brow (ix2 0 (Cert.Math.padRow n)) = labels (ix1 n)) (g : Cert.Math.Gn) (n : Cert.Math.N) :
    GSpec.ohOf brow g (Cert.Math.padRow n) = if Data.bt labels n = some g then 1 else 0 := by
  show (if BitVec.ofNat 32 g.val = brow (ix2 0 (padRow n)) then (1 : EReal) else 0)
    = if Decode.landing 1024 (labels (ix1 n)) = some g then 1 else 0
  rw [hb n]
  have hiff : Decode.landing 1024 (labels (ix1 n)) = some g ↔ labels (ix1 n) = BitVec.ofNat 32 g.val :=
    Decode.landing_eq_some_iff (n := 1024) (by decide) (labels (ix1 n)) g
  by_cases hc : BitVec.ofNat 32 g.val = labels (ix1 n)
  · rw [if_pos hc, if_pos (hiff.mpr hc.symm)]
  · rw [if_neg hc, if_neg (fun e => hc (hiff.mp e).symm)]

/-- On a padded row the label is the word 1024, the word of no group: the membership matrix is zero there. -/
theorem ohOf_pad_zero (brow : GSpec.s1P.Idx → BitVec 32)
    (hb : ∀ p : Fin 200960, 200000 ≤ p.val → brow (ix2 0 p) = 1024#32) (g : Cert.Math.Gn) (p : Cert.Math.P)
    (hp : 200000 ≤ p.val) : GSpec.ohOf brow g p = 0 := by
  show (if BitVec.ofNat 32 g.val = brow (ix2 0 p) then (1 : EReal) else 0) = 0
  rw [hb p hp, if_neg]
  intro e
  have hg : g.val < 1024 := g.isLt
  have e' : (BitVec.ofNat 32 g.val).toNat = (1024#32 : BitVec 32).toNat := congrArg BitVec.toNat e
  rw [BitVec.toNat_ofNat] at e'
  have h1024 : (1024#32 : BitVec 32).toNat = 1024 := rfl
  rw [h1024] at e'
  omega

end Cert.PadRead

end
-- ==== Proof.Val.KTerms2.lean ====
/-
  The host-side values of the kernel program read at an index, second group: the rows the second layer gathers at each
  edge slot's wrapped source index and scatters over the destinations are the mathematics' gathered-and-scattered rows;
  the ones scattered over the labels are the group counts; the padded labels are the node's own label on a real row and
  the word 1024 below; the padded rows are the node's row on a real row and zero below.
-/
import proofs.«416223_j40458591928693_3_alg».proof.Proof.Val.KTerms
import proofs.«416223_j40458591928693_3_alg».proof.Proof.Val.PadRead
import proofs.«416223_j40458591928693_3_alg».proof.Proof.Val.Decode
import Idealize.ShloMosaic.Lib.IdealHost
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KT

open Cert.KernelIdeal Cert.KernelIdeal.Gen
open Idealize.ShloMosaic Idealize.ShloMosaic.ValueIdx Idealize.ShloMosaic.StableHlo
open Cert.Math Cert.Data Cert.GSpec Cert.Decode Cert.PadRead

/-! ## A vector as an index column -/

/-- A vector of `m` entries laid out as an [m × 1] column reads, at row `e`, the vector's entry `e`. -/
theorem asColumn_apply {α : Type} {m : ℕ} (h : (⟨1, ![m]⟩ : Shape).BroadcastsInDim ⟨2, ![m, 1]⟩ ![0])
    (x : (⟨1, ![m]⟩ : Shape).Idx → α) (e : Fin m) :
    broadcastInDim ⟨2, ![m, 1]⟩ ![0] h x (ix2 e (0 : Fin 1)) = x (ix1 e) :=
  broadcastInDim_apply ![0] h x (ix2 e (0 : Fin 1)) (ix1 e) fun a => by
    match a with
    | ⟨0, _⟩ =>
      show e.val = if m = 1 then 0 else e.val
      split
      · have := e.isLt; omega
      · rfl

section Readings

variable (x1 : (⟨S2x3200000, .i32⟩ : BufTy).Contents (Elt Ideal)) (x2 : (⟨S200000, .i32⟩ : BufTy).Contents (Elt Ideal))
  (v31 v43 : (⟨S200000x64, .f32⟩ : BufTy).Contents (Elt Ideal))

/-! ## The second layer's gathered-and-scattered rows -/

/-- The destination column at slot `e` is the slot's destination index. -/
theorem t9_at (e : Fin 3400000) : t9 x1 (ix2 e 0) = dstA x1 (ix1 e) := by
  unfold t9
  exact asColumn_apply bcast_S3400000_S3400000x1_0 (dstA x1) e

/-- The second layer's source column at slot `e` is the slot's source index with a negative one wrapped around. -/
theorem t37_at (e : Fin 3400000) : t37 x1 (ix2 e 0) = wrap (srcA x1 (ix1 e)) := by
  unfold t37
  rw [asColumn_apply bcast_S3400000_S3400000x1_0 (t36 x1) e]
  rfl

/-- The gathered rows at slot `e`: the row of the slot's source node. -/
theorem t38_at (e : Fin 3400000) (j : Fin 64) : t38 x1 v31 (ix2 e j) = matOf v31 (src (srcA x1) e) j := by
  unfold t38
  rw [gather_rows (N := 200000) (n := 3400000) (h := 64) gather_S200000x64_S3400000x1_S3400000x64_1_0_n_n_0_1_164
    rfl rfl rfl rfl rfl rfl rfl v31 (t37 x1) e j (by decide), t37_at x1 e]
  rfl

/-- The zero the rows are scattered onto. -/
theorem t39_at (n : Fin 200000) (j : Fin 64) : t39 (ix2 n j) = z0 := by
  unfold t39
  rw [broadcastInDim_scalar_apply]
  rfl

/-- The second layer's gathered-and-scattered rows, at node `n` and feature `j`. -/
theorem t41_read (n : Fin 200000) (j : Fin 64) :
    t41 x1 v31 (ix2 n j) = kRaw (tgt (dstA x1)) (src (srcA x1)) (matOf v31) n j := by
  unfold t41
  rw [scatterAdd_rows (n := 200000) (m := 3400000) (h := 64) scatter_S200000x64_S3400000x1_S3400000x64_1_0_0_1
    rfl rfl rfl rfl t39 (t9 x1) (t38 x1 v31) n j]
  unfold kRaw segSum
  refine congrArg₂ (· + ·) (t39_at n j) (Finset.sum_congr (Finset.filter_congr fun e _ => ?_) fun e _ => t38_at x1 v31 e j)
  rw [t9_at x1 e]
  exact Iff.rfl

/-! ## The group counts -/

/-- The group counts, at group `g`. -/
theorem t47_read (g : Fin 1024) : t47 x2 (ix2 g 0) = cnt x2 g := by
  unfold t47
  rw [scatterAdd_rows (n := 1024) (m := 200000) (h := 1) scatter_S1024x1_S200000x1_S200000x1_1_0_0_1
    rfl rfl rfl rfl t45 (t46 x2) t44 g 0]
  unfold cnt
  refine congrArg₂ (· + ·) ?_ (Finset.sum_congr (Finset.filter_congr fun e _ => ?_) fun e _ => ?_)
  · unfold t45
    rw [broadcastInDim_scalar_apply]
    rfl
  · unfold t46
    rw [asColumn_apply bcast_S200000_S200000x1_0 x2 e]
    exact Iff.rfl
  · unfold t44
    rw [broadcastInDim_scalar_apply]
    rfl

/-! ## The padded labels and the padded rows -/

/-- The padded labels at position `p`: the node's label on a real row, the word 1024 below. -/
theorem t49_at (p : Fin 200960) : t49 x2 (ix2 0 p) = if hp : p.val < 200000 then x2 (ix1 ⟨p.val, hp⟩) else 1024#32 := by
  unfold t49 t48
  rw [shapeCast_a_1a_apply _ shapeCasts_S200960_S1x200960 0 p,
    pad_vec_apply x2 (constantI S_ 32 1024#32) pads_S200000_S200960_09600 h_S_ p]
  rfl

theorem t49_real (n : Fin 200000) : t49 x2 (ix2 0 (padRow n)) = x2 (ix1 n) := by
  rw [t49_at, dif_pos (show (padRow n).val < 200000 from n.isLt)]
  rfl

theorem t49_pad (p : Fin 200960) (hp : 200000 ≤ p.val) : t49 x2 (ix2 0 p) = 1024#32 := by
  rw [t49_at, dif_neg (by omega)]

/-- The padded rows at position `p`, feature `j`: the node's row on a real row, zero below. -/
theorem t50_read (p : Fin 200960) (j : Fin 64) :
    t50 v43 (ix2 p j) = if hp : p.val < 200000 then v43 (ix2 ⟨p.val, hp⟩ j) else 0 := by
  unfold t50
  rw [pad_rows_apply v43 (sitofp (F := Ideal) .f32 (constantI S_ 32 0#32)) pads_S200000x64_S200960x64_09600_000 h_S_ p j]
  have hz : (sitofp (F := Ideal) .f32 (constantI S_ 32 0#32) : S_.Idx → EReal) ix0 = 0 := by
    show (((0#32 : BitVec 32).toInt : ℝ) : EReal) = 0
    rw [BitVec.toInt_zero, Int.cast_zero, EReal.coe_zero]
  rw [hz]

end Readings

end Cert.KernelIdeal.KT

end
-- ==== Proof.Val.KTerms3.lean ====
/-
  The host-side values of the kernel program read at an index, third group: the degree normalisation (the reciprocal
  square root of a positive degree, zero elsewhere), as a vector and as a column; and the first layer's neighbour sums:
  the feature times the normalisation, read at each edge slot's wrapped source index and added up over the slots landing
  on a node. Every step is stated over a variable vector first, so that the degree, a sum over all edge slots, stays one
  unopened term throughout.
-/
import proofs.«416223_j40458591928693_3_alg».proof.Proof.Val.KTerms
import proofs.«416223_j40458591928693_3_alg».proof.Proof.Val.KTerms2
import proofs.«416223_j40458591928693_3_alg».proof.Proof.Val.Decode
import Idealize.ShloMosaic.Lib.IdealHost
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KT

open Cert.KernelIdeal Cert.KernelIdeal.Gen
open Idealize.ShloMosaic Idealize.ShloMosaic.ValueIdx Idealize.ShloMosaic.StableHlo
open Cert.Math Cert.Data Cert.GSpec Cert.Decode

/-! ## A vector as a column, a column as a vector -/

/-- A vector of `a` entries reshaped to an [a × 1] column reads, at row `i`, the vector's entry `i`. -/
theorem vecToColumn_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- An [a × 1] column reshaped to a vector reads, at `i`, the column's row `i`. -/
theorem columnToVec_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-! ## The normalisation -/

/-- The zero vector at an index. -/
theorem t8_at (n : Fin 200000) : t8 (ix1 n) = z0 := by
  unfold t8
  rw [broadcastInDim_scalar_apply]
  rfl

/-- "The reciprocal square root where positive, zero elsewhere" of ANY vector, at an index. -/
theorem rsqrtWhere_at (v : FVec Ideal S200000 .f32) (n : Fin 200000) :
    (select (cmpf (F := Ideal) (φ := .f32) .ogt v t8) (Host.rsqrt (F := Ideal) (φ := .f32) v) t8) (ix1 n)
      = Scalar.select (FloatOps.cmpf (F := Ideal) (φ := .f32) .ogt (v (ix1 n)) z0)
          (FloatOps.hostUnary (F := Ideal) (φ := .f32) .rsqrt (v (ix1 n))) z0 := by
  rw [select_apply, cmpf_apply, t8_at n]
  rfl

section Readings

variable (x0 : (⟨S200000x1, .f32⟩ : BufTy).Contents (Elt Ideal)) (x1 : (⟨S2x3200000, .i32⟩ : BufTy).Contents (Elt Ideal))

/-- The normalisation, at node `n`. -/
theorem t14_read (n : Fin 200000) : t14 x1 (ix1 n) = dis (dstA x1) n := by
  unfold t14 t12 t13
  rw [rsqrtWhere_at (t10 x1) n, t10_read x1 n]
  unfold dis
  generalize deg (dstA x1) n = d
  rfl

/-- The normalisation as a column, at node `n`. -/
theorem t15_read (n : Fin 200000) : t15 x1 (ix2 n 0) = dis (dstA x1) n := by
  unfold t15
  rw [vecToColumn_apply (t14 x1) shapeCasts_S200000_S200000x1 n 0, t14_read x1 n]

/-! ## The first layer's neighbour sums -/

/-- The feature times the normalisation, at node `m`. -/
theorem t17_at (m : Fin 200000) : t17 x0 x1 (ix1 m) = xOf x0 m * dis (dstA x1) m := by
  unfold t17
  rw [mulf_apply, t14_read x1 m]
  unfold t16
  rw [columnToVec_apply x0 shapeCasts_S200000x1_S200000 m]
  rfl

/-- The first layer's source column at slot `e`: the slot's source index with a negative one wrapped around. -/
theorem t23_at (e : Fin 3400000) : t23 x1 (ix2 e 0) = wrap (srcA x1 (ix1 e)) := by
  unfold t23
  rw [asColumn_apply bcast_S3400000_S3400000x1_0 (t22 x1) e]
  rfl

/-- What slot `e` contributes: the feature times the normalisation at the slot's source node. -/
theorem t24_at (e : Fin 3400000) :
    t24 x0 x1 (ix1 e) = xOf x0 (src (srcA x1) e) * dis (dstA x1) (src (srcA x1) e) := by
  unfold t24
  rw [gather_scalar (N := 200000) (n := 3400000) gather_S200000_S3400000x1_S3400000_n_0_n_n_0_1_1
    rfl rfl rfl rfl (t17 x0 x1) (t23 x1) e (by decide), t23_at x1 e]
  have hs : rowOf 200000 (by decide) (wrap (srcA x1 (ix1 e))) = src (srcA x1) e := rfl
  rw [hs, t17_at x0 x1 (src (srcA x1) e)]

/-- The first layer's neighbour sums as a column, at node `n`. -/
theorem t28_read (n : Fin 200000) :
    t28 x0 x1 (ix2 n 0) = kS (tgt (dstA x1)) (src (srcA x1)) (dis (dstA x1)) (xOf x0) n := by
  unfold t28
  rw [vecToColumn_apply (t27 x0 x1) shapeCasts_S200000_S200000x1 n 0]
  unfold t27
  rw [scatterAdd_scalar (n := 200000) (m := 3400000) scatter_S200000_S3400000x1_S3400000_n_0_0_1
    rfl rfl rfl rfl t8 (t9 x1) (t24 x0 x1) n]
  unfold kS segSum
  refine congrArg₂ (· + ·) (t8_at n) (Finset.sum_congr (Finset.filter_congr fun e _ => ?_) fun e _ => t24_at x0 x1 e)
  rw [t9_at x1 e]
  exact Iff.rfl

end Readings

end Cert.KernelIdeal.KT

end
-- ==== Proof.Val.KRead.lean ====
/-
  The kernel program's result, read at one group, as the mathematics' pooled expression over the data extracted from the
  program's arguments.

  The result vector at group `g` is region 3's column at row `g`, and region 3's column is the pooled expression
  `kernelOut` over: the membership matrix of the padded labels, the padded rows region 2 left, the counts, the last
  weights and the last bias. Three facts about these make it the expression the reference's pooled sums are compared
  with. On a real row the membership matrix is the indicator of the node's group: the padded labels hold the node's own
  label there. On a real row the padded rows hold the node's row of region 2's result, and that row is the second layer's
  activations: region 2 applies the destination-side normalisation, the bias and the clamp to the gathered-and-scattered
  rows of region 1's result; region 1 applies the second weights and the source-side normalisation to region 0's result;
  region 0 applies the destination-side normalisation, the first weights, bias and clamp to the scalar neighbour sums.
  On a padded row the padded rows are zero.
-/
import proofs.«416223_j40458591928693_3_alg».proof.Proof.Val.KHost
import proofs.«416223_j40458591928693_3_alg».proof.Proof.Val.KTerms2
import proofs.«416223_j40458591928693_3_alg».proof.Proof.Val.KTerms3
import proofs.«416223_j40458591928693_3_alg».proof.Proof.Val.PadRead

set_option maxRecDepth 16384

noncomputable section

namespace Cert.KernelIdeal.KR

open Cert.KernelIdeal Cert.KernelIdeal.Gen Cert.KernelIdeal.Fr
open Idealize.ShloMosaic Idealize.ShloMosaic.TcCoe Idealize.ShloMosaic.ValueIdx Idealize.SL.Sem
open Cert.Math Cert.Data Cert.GSpec Cert.Decode

/-! ## The regions' functions read at a node and a feature -/

/-- Region 0's result as a function of node and feature is the first layer's activations of its columns and rows. -/
theorem matOf_G0 (s d : sN1.Idx → EReal) (w b : s1H.Idx → EReal) : matOf (G0 s d w b) = kH1 (colOf s) (colOf d) (w1Of w) (w1Of b) := rfl
/-- Region 1's result as a function of node and feature. -/
theorem matOf_G1 (h : sNH.Idx → EReal) (w : sHH.Idx → EReal) (d : sN1.Idx → EReal) : matOf (G1 h w d) = kH2p (matOf h) (w2Of w) (colOf d) := rfl
/-- Region 2's result at node `n`, feature `j`. -/
theorem G2_at (r : sNH.Idx → EReal) (d : sN1.Idx → EReal) (b : s1H.Idx → EReal) (n : N) (j : H) :
    G2 r d b (ix2 n j) = kH2 (matOf r) (colOf d) (w1Of b) n j := rfl
/-- Region 3's result at group `g`. -/
theorem G3_at (hp : sPH.Idx → EReal) (brow : s1P.Idx → BitVec 32) (cn : sG1.Idx → EReal) (wf : sH1.Idx → EReal) (bf : s11.Idx → EReal) (g : Gn) :
    G3 hp brow cn wf bf (ix2 g 0) = kernelOut (ohOf brow) (fun p j => hp (ix2 p j)) (fun g => cn (ix2 g 0)) (wfcOf wf) (bf (ix2 0 0)) g := rfl

/-! ## The result read at one group -/

section Read
variable (m : (ℓ : Loc nD τ sig) → Buf (Elt Ideal) ℓ) (c : Dev nD)

set_option quotPrecheck false in
local notation "x0" => m ((c : Thread nD τ).loc main_arg0)
set_option quotPrecheck false in
local notation "x1" => m ((c : Thread nD τ).loc main_arg1)
set_option quotPrecheck false in
local notation "x2" => m ((c : Thread nD τ).loc main_arg2)
set_option quotPrecheck false in
local notation "x3" => m ((c : Thread nD τ).loc main_arg3)
set_option quotPrecheck false in
local notation "x4" => m ((c : Thread nD τ).loc main_arg4)
set_option quotPrecheck false in
local notation "x5" => m ((c : Thread nD τ).loc main_arg5)
set_option quotPrecheck false in
local notation "x6" => m ((c : Thread nD τ).loc main_arg6)
set_option quotPrecheck false in
local notation "x7" => m ((c : Thread nD τ).loc main_arg7)
set_option quotPrecheck false in
local notation "x8" => m ((c : Thread nD τ).loc main_arg8)

/-- The result vector at group `g` is the result column at row `g`: the two have the same row-major position. -/
theorem col_as_vec (y : (⟨S1024x1, .f32⟩ : BufTy).Contents (Elt Ideal)) (g : Fin 1024) :
    shapeCast S1024 y shapeCasts_S1024x1_S1024 (ix1 g) = y (ix2 g 0) :=
  shapeCast_apply y shapeCasts_S1024x1_S1024 (ix1 g) (ix2 g 0) (by
    rw [Shape.rowMajor_val_two, Shape.rowMajor_val_one]; show g.val * 1 + 0 = g.val; omega)

/-- Region 2's rows: the second layer's activations, node by node and feature by feature. The rows region 2 reads are
    the gathered-and-scattered rows of region 1's result, which is the second layer's linear map (with the source-side
    normalisation) of region 0's result, the first layer's activations of the scalar neighbour sums. -/
theorem rows_eq (n : N) (j : H) :
    Y7 m c (Proc.devRef .tc main_v43) (ix2 n j)
      = kernelH2 (tgt (KT.dstA x1)) (src (KT.srcA x1)) (dis (KT.dstA x1)) (xOf x0) (w1Of x3) (vecOf x4) (w2Of x5) (vecOf x6) n j := by
  have e28 : colOf (KT.t28 x0 x1) = kS (tgt (KT.dstA x1)) (src (KT.srcA x1)) (dis (KT.dstA x1)) (xOf x0) := funext fun n => KT.t28_read x0 x1 n
  have e15 : colOf (KT.t15 x1) = dis (KT.dstA x1) := funext fun n => KT.t15_read x1 n
  have e29 : w1Of (KT.t29 x4) = vecOf x4 := funext fun j => KT.t29_read x4 j
  have e42 : w1Of (KT.t42 x6) = vecOf x6 := funext fun j => KT.t42_read x6 j
  have e41 : ∀ v31, matOf (KT.t41 x1 v31) = kRaw (tgt (KT.dstA x1)) (src (KT.srcA x1)) (matOf v31) :=
    fun v31 => funext fun n => funext fun j => KT.t41_read x1 v31 n j
  rw [Y7_v43, G2_at, e41, Y5_v31, matOf_G1, matOf_G0, e28, e15, e29, e42]
  unfold kernelH2
  rfl

/-- The kernel program's result at group `g`: the pooled expression over the membership matrix of the padded labels and
    the padded second-layer activations. On a real row the matrix is the indicator of the node's group and the padded
    array holds the node's second-layer activations; on a padded row the padded array is zero. -/
theorem kernel_read (g : Fin 1024) :
    ∃ (oh : Gn → P → EReal) (hp : P → H → EReal),
      (Y14 (F := Ideal) m c (Proc.devRef .tc main_v53)) (ix1 g) = kernelOut oh hp (cnt x2) (wfcOf x7) (bfcOf x8) g
      ∧ (∀ g' (n : N), oh g' (padRow n) = if bt x2 n = some g' then 1 else 0)
      ∧ (∀ (n : N) j, hp (padRow n) j
          = kernelH2 (tgt (KT.dstA x1)) (src (KT.srcA x1)) (dis (KT.dstA x1)) (xOf x0) (w1Of x3) (vecOf x4) (w2Of x5) (vecOf x6) n j)
      ∧ (∀ (p : P) j, 200000 ≤ p.val → hp p j = 0) := by
  refine ⟨ohOf (KT.t49 x2), fun p j => KT.t50 (Y7 m c (Proc.devRef .tc main_v43)) (ix2 p j), ?_, ?_, ?_, ?_⟩
  · have e47 : (fun g : Gn => KT.t47 x2 (ix2 g 0)) = cnt x2 := funext fun g => KT.t47_read x2 g
    rw [Y14_v53, col_as_vec, G3_at, e47, KT.t51_read x8]
  · intro g' n
    exact PadRead.ohOf_pad x2 (KT.t49 x2) (fun n => KT.t49_real x2 n) g' n
  · intro n j
    have hn : (padRow n).val < 200000 := n.isLt
    refine ((KT.t50_read _ (padRow n) j).trans (dif_pos hn)).trans ?_
    exact rows_eq m c n j
  · intro p j hp
    exact (KT.t50_read _ p j).trans (dif_neg (by omega))

end Read

end Cert.KernelIdeal.KR

end
-- ==== Proof.Val.RRead.lean ====
/-
  The reference program's result, read at one group, is the mathematical expression `Cert.Math.refOut` over the data
  extracted from its arguments.

  The reading goes stage by stage. The degree of a node is the accumulating scatter of ones over the destination array;
  the normalisation is the select between its reciprocal square root and zero. The three index columns the gathers read
  are the source and destination arrays with negative entries wrapped around, so the gathers read the normalisation at
  the source node and at the destination-side node of an edge slot, and the weighted rows at the source node. One
  convolution layer is the accumulating scatter, over the destination array, of the gathered rows times the product of
  the two normalisations; both layers are the same chain over different rows. Pooling is one more accumulating scatter
  over the group labels, the counts another, and the last steps are pointwise.
-/
import proofs.«416223_j40458591928693_3_alg».proof.Proof.RefReadP
import proofs.«416223_j40458591928693_3_alg».proof.Proof.Val.Data
import Idealize.ShloMosaic.Lib.ValueIdx
import Idealize.ShloMosaic.PureOps.Ideal.Laws

noncomputable section

namespace Cert.ReferenceIdeal.RR

open Cert.ReferenceIdeal Cert.ReferenceIdeal.Read Idealize.ShloMosaic Idealize.ShloMosaic.ValueIdx Idealize.ShloMosaic.StableHlo Cert.Decode

variable (x0 : (⟨S200000x1, .f32⟩ : BufTy).Contents (Elt Ideal)) (x1 : (⟨S2x3200000, .i32⟩ : BufTy).Contents (Elt Ideal))
  (x2 : (⟨S200000, .i32⟩ : BufTy).Contents (Elt Ideal)) (x3 : (⟨S1x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S64x1, .f32⟩ : BufTy).Contents (Elt Ideal))
  (x8 : (⟨S1, .f32⟩ : BufTy).Contents (Elt Ideal))

/-- The edge slots' source index array and destination index array, taken as they are. -/
abbrev srcA : (⟨1, ![3400000]⟩ : Shape).Idx → BitVec 32 := val_main_v4 (F := Ideal) x1
abbrev dstA : (⟨1, ![3400000]⟩ : Shape).Idx → BitVec 32 := val_main_v7 (F := Ideal) x1

/-! ## The second layer's copies of the index arrays, the normalisation and the edge weights are the first layer's -/

section Copies
variable {F : FTy → Type} [FloatOps F] (y1 : (⟨S2x3200000, .i32⟩ : BufTy).Contents (Elt F))

theorem v52_eq : val_main_v52 (F := F) y1 = val_main_v4 (F := F) y1 := rfl
theorem v55_eq : val_main_v55 (F := F) y1 = val_main_v7 (F := F) y1 := rfl
theorem v63_eq : val_main_v63 (F := F) y1 = val_main_v15 (F := F) y1 := rfl
theorem v84_eq : val_main_v84 (F := F) y1 = val_main_v36 (F := F) y1 := rfl
theorem v87_eq : val_main_v87 (F := F) y1 = val_main_v39 (F := F) y1 := rfl
theorem v90_eq : val_main_v90 (F := F) y1 = val_main_v42 (F := F) y1 := rfl
theorem v89_eq : val_main_v89 (F := F) = val_main_v41 (F := F) := rfl

end Copies

/-! ## Constants -/

theorem v9_at (i : S200000.Idx) : val_main_v9 (F := Ideal) i = Cert.Math.z0 := by
  rw [val_main_v9_apply, val_main_cst_0_apply, Ideal.ofBits_def]
theorem v8_at (i : S3400000.Idx) : val_main_v8 (F := Ideal) i = Cert.Math.o1 := by
  rw [val_main_v8_apply, val_main_cst_apply, Ideal.ofBits_def]

/-! ## (1) The degree -/

/-- The destination array as an index column, read at row `e`. -/
theorem v10_at (e : Fin 3400000) : val_main_v10 (F := Ideal) x1 (ix2 e (0 : Fin 1)) = dstA x1 (ix1 e) := by
  rw [val_main_v10_apply]
  refine congrArg (val_main_v7 (F := Ideal) x1) ?_
  funext a
  match a with
  | ⟨0, _⟩ => rfl

/-- The degree: ones, scattered over the destination array, added to zero. -/
theorem deg_read (n : Fin 200000) : val_main_v11 (F := Ideal) x1 (ix1 n) = Cert.Data.deg (dstA x1) n := by
  unfold val_main_v11 Cert.Data.deg
  rw [scatterAdd_scalar scatter_S200000_S3400000x1_S3400000_n_0_0_1 rfl rfl rfl rfl, v9_at]
  refine congrArg (fun s : EReal => Cert.Math.z0 + s) ?_
  simp only [v10_at, v8_at]
  rfl

/-! ## (2) The normalisation -/

theorem dis_read (n : Fin 200000) : val_main_v15 (F := Ideal) x1 (ix1 n) = Cert.Data.dis (dstA x1) n := by
  rw [val_main_v15_apply, val_main_v13_apply, val_main_v14_apply, deg_read, val_main_v12_apply, val_main_cst_1_apply,
    val_main_call0_v1_apply, val_main_call0_v0_apply, val_main_cst_2_apply]
  rfl

/-! ## (3) The wrapped index columns and what the gathers read -/

/-- A rank-1 array broadcast to a column, read at row `e`: the column's row index is the array's index. -/
theorem col_idx (e : Fin 3400000) : idx_main_v21 (ix2 e (0 : Fin 1)) = ix1 e := by
  funext a
  match a with
  | ⟨0, _⟩ => rfl

/-- The first source column: the source array with negative entries wrapped around. -/
theorem v21_at (e : Fin 3400000) : val_main_v21 (F := Ideal) x1 (ix2 e (0 : Fin 1)) = Cert.Data.wrap (srcA x1 (ix1 e)) := by
  rw [val_main_v21_apply, col_idx, val_main_v20_apply, val_main_v17_apply, val_main_v19_apply, val_main_v16_apply,
    val_main_c_apply, val_main_v18_apply, val_main_c_3_apply]
  rfl

/-- The destination column of the normalisation gather. -/
theorem v28_at (e : Fin 3400000) : val_main_v28 (F := Ideal) x1 (ix2 e (0 : Fin 1)) = Cert.Data.wrap (dstA x1 (ix1 e)) := by
  rw [val_main_v28_apply, show idx_main_v28 (ix2 e (0 : Fin 1)) = ix1 e from col_idx e, val_main_v27_apply,
    val_main_v24_apply, val_main_v26_apply, val_main_v23_apply, val_main_c_4_apply, val_main_v25_apply, val_main_c_5_apply]
  rfl

/-- The source column of the row gather. -/
theorem v36_at (e : Fin 3400000) : val_main_v36 (F := Ideal) x1 (ix2 e (0 : Fin 1)) = Cert.Data.wrap (srcA x1 (ix1 e)) := by
  rw [val_main_v36_apply, show idx_main_v36 (ix2 e (0 : Fin 1)) = ix1 e from col_idx e, val_main_v35_apply,
    val_main_v32_apply, val_main_v34_apply, val_main_v31_apply, val_main_c_6_apply, val_main_v33_apply, val_main_c_7_apply]
  rfl

/-- The normalisation at an edge slot's source node. -/
theorem v22_at (e : Fin 3400000) :
    val_main_v22 (F := Ideal) x1 (ix1 e) = Cert.Data.dis (dstA x1) (Cert.Data.src (srcA x1) e) := by
  unfold val_main_v22
  rw [gather_scalar gather_S200000_S3400000x1_S3400000_n_0_n_n_0_1_1 rfl rfl rfl rfl _ _ e (by decide : 0 < 200000),
    v21_at, dis_read]
  rfl

/-- The normalisation at an edge slot's destination-side node. -/
theorem v29_at (e : Fin 3400000) :
    val_main_v29 (F := Ideal) x1 (ix1 e) = Cert.Data.dis (dstA x1) (Cert.Data.dr (dstA x1) e) := by
  unfold val_main_v29
  rw [gather_scalar gather_S200000_S3400000x1_S3400000_n_0_n_n_0_1_1 rfl rfl rfl rfl _ _ e (by decide : 0 < 200000),
    v28_at, dis_read]
  rfl

/-- The edge weight: the product of the two normalisations. -/
theorem v30_at (e : Fin 3400000) :
    val_main_v30 (F := Ideal) x1 (ix1 e)
      = Cert.Data.dis (dstA x1) (Cert.Data.src (srcA x1) e) * Cert.Data.dis (dstA x1) (Cert.Data.dr (dstA x1) e) := by
  rw [val_main_v30_apply, v22_at, v29_at, Ideal.mulf_def]

/-- The edge weight broadcast along the features. -/
theorem v39_at (e : Fin 3400000) (j : Fin 64) :
    val_main_v39 (F := Ideal) x1 (ix2 e j)
      = Cert.Data.dis (dstA x1) (Cert.Data.src (srcA x1) e) * Cert.Data.dis (dstA x1) (Cert.Data.dr (dstA x1) e) := by
  rw [val_main_v39_apply, show idx_main_v39 (ix2 e j) = ix2 e (0 : Fin 1) from by
        funext a
        match a with
        | ⟨0, _⟩ => rfl
        | ⟨1, _⟩ => rfl,
    val_main_v38_apply, show idx_main_v38 (ix2 e (0 : Fin 1)) = ix1 e from col_idx e, v30_at]

/-! ## (4), (5) One convolution layer -/

theorem v41_at (i : S200000x64.Idx) : val_main_v41 (F := Ideal) i = Cert.Math.z0 := by
  rw [val_main_v41_apply, val_main_cst_8_apply, Ideal.ofBits_def]

/-- The destination array as the layer scatter's index column, read at row `e`. -/
theorem v42_at (e : Fin 3400000) : val_main_v42 (F := Ideal) x1 (ix2 e (0 : Fin 1)) = dstA x1 (ix1 e) := by
  rw [val_main_v42_apply]
  refine congrArg (val_main_v7 (F := Ideal) x1) ?_
  exact col_idx e

/-- One layer's chain over any weighted rows `hl`: gather the rows at the source column, multiply by the edge weights,
    scatter over the destination array onto zero. -/
def layerOf (hl : FVec Ideal S200000x64 .f32) : FVec Ideal S200000x64 .f32 :=
  Host.scatterAdd (F := Ideal) (φ := .f32) scatter_S200000x64_S3400000x1_S3400000x64_1_0_0_1 (val_main_v41 (F := Ideal))
    (val_main_v42 (F := Ideal) x1)
    (mulf (F := Ideal) (Host.gather gather_S200000x64_S3400000x1_S3400000x64_1_0_n_n_0_1_164 hl (val_main_v36 (F := Ideal) x1))
      (val_main_v39 (F := Ideal) x1))

/-- The first layer's scatter is the chain over the first linear map's rows. -/
theorem v43_eq : val_main_v43 (F := Ideal) x0 x1 x3 = layerOf x1 (val_main_v0 (F := Ideal) x0 x3) := rfl

/-- The second layer's scatter is the same chain over the second linear map's rows. -/
theorem v91_eq : val_main_v91 (F := Ideal) x0 x1 x3 x4 x5 = layerOf x1 (val_main_v48 (F := Ideal) x0 x1 x3 x4 x5) := by
  unfold val_main_v91 val_main_v88 val_main_v85 layerOf
  rw [v89_eq, v90_eq, v87_eq, v84_eq]

/-- The gathered row of edge slot `e` is the row of its source node. -/
theorem gather_at (hl : FVec Ideal S200000x64 .f32) (e : Fin 3400000) (j : Fin 64) :
    Host.gather gather_S200000x64_S3400000x1_S3400000x64_1_0_n_n_0_1_164 hl (val_main_v36 (F := Ideal) x1) (ix2 e j)
      = hl (ix2 (Cert.Data.src (srcA x1) e) j) := by
  rw [gather_rows gather_S200000x64_S3400000x1_S3400000x64_1_0_n_n_0_1_164 rfl rfl rfl rfl rfl rfl rfl _ _ e j
    (by decide : 0 < 200000), v36_at]
  rfl

/-- One layer's chain at node `n`, feature `j`: the sum, from zero, over the slots landing on `n` of the source row's
    entry times the two normalisations. -/
theorem layer_read (hl : FVec Ideal S200000x64 .f32) (n : Fin 200000) (j : Fin 64) :
    layerOf x1 hl (ix2 n j)
      = Cert.Math.segSum (Cert.Data.tgt (dstA x1))
          (fun e => hl (ix2 (Cert.Data.src (srcA x1) e) j)
            * (Cert.Data.dis (dstA x1) (Cert.Data.src (srcA x1) e) * Cert.Data.dis (dstA x1) (Cert.Data.dr (dstA x1) e))) n := by
  unfold layerOf Cert.Math.segSum
  rw [scatterAdd_rows scatter_S200000x64_S3400000x1_S3400000x64_1_0_0_1 rfl rfl rfl rfl, v41_at]
  refine congrArg (fun s : EReal => Cert.Math.z0 + s) ?_
  simp only [v42_at, mulf_apply, v39_at, gather_at]
  rfl

/-! ## (4) The first layer -/

/-- The first linear map: the contraction runs over the single input feature. -/
theorem v0_at (n : Fin 200000) (j : Fin 64) :
    val_main_v0 (F := Ideal) x0 x3 (ix2 n j) = Cert.Math.lin1 (Cert.Data.xOf x0) (Cert.Data.w1Of x3) n j := by
  have hl : lidx_main_v0 (ix2 n j) (0 : Fin 1) = ix2 n (0 : Fin 1) :=
    funext fun a => Fin.ext (by match a with | ⟨0, _⟩ => rfl | ⟨1, _⟩ => rfl)
  have hr : ridx_main_v0 (ix2 n j) (0 : Fin 1) = ix2 (0 : Fin 1) j :=
    funext fun a => Fin.ext (by match a with | ⟨0, _⟩ => rfl | ⟨1, _⟩ => rfl)
  rw [val_main_v0_apply, Fin.sum_univ_one, hl, hr]
  rfl

/-- A bias vector broadcast over the nodes. -/
theorem v45_at (n : Fin 200000) (j : Fin 64) : val_main_v45 (F := Ideal) x4 (ix2 n j) = Cert.Data.vecOf x4 j := by
  rw [val_main_v45_apply, val_main_v44_apply]
  refine congrArg x4 ?_
  funext a
  match a with
  | ⟨0, _⟩ => rfl

theorem call1_at (i : S200000x64.Idx) : val_main_call1_v0 (F := Ideal) i = Cert.Math.z0 := by
  rw [val_main_call1_v0_apply, val_main_call1_cst_apply, Ideal.ofBits_def]

abbrev h1 : Cert.Math.N → Cert.Math.H → EReal :=
  Cert.Math.refH1 (Cert.Data.tgt (dstA x1)) (Cert.Data.src (srcA x1)) (Cert.Data.dr (dstA x1)) (Cert.Data.dis (dstA x1))
    (Cert.Data.xOf x0) (Cert.Data.w1Of x3) (Cert.Data.vecOf x4)

theorem h1_read (n : Fin 200000) (j : Fin 64) : val_main_v47 (F := Ideal) x0 x1 x3 x4 (ix2 n j) = h1 x0 x1 x3 x4 n j := by
  rw [val_main_v47_apply, val_main_v46_apply, v43_eq, layer_read, v45_at, call1_at, Ideal.maximumf_def, Ideal.addf_def]
  simp only [v0_at]
  rfl

/-! ## (5) The second layer -/

/-- The second linear map: the contraction over the 64 features of the first layer's rows. -/
theorem v48_at (n : Fin 200000) (j : Fin 64) :
    val_main_v48 (F := Ideal) x0 x1 x3 x4 x5 (ix2 n j) = Cert.Math.lin2 (h1 x0 x1 x3 x4) (Cert.Data.w2Of x5) n j := by
  rw [val_main_v48_apply]
  unfold Cert.Math.lin2 Cert.Data.w2Of
  refine Finset.sum_congr rfl fun k _ => ?_
  have hl : lidx_main_v48 (ix2 n j) k = ix2 n k :=
    funext fun a => Fin.ext (by match a with | ⟨0, _⟩ => rfl | ⟨1, _⟩ => rfl)
  have hr : ridx_main_v48 (ix2 n j) k = ix2 k j :=
    funext fun a => Fin.ext (by match a with | ⟨0, _⟩ => rfl | ⟨1, _⟩ => rfl)
  rw [hl, hr, h1_read]

theorem v93_at (n : Fin 200000) (j : Fin 64) : val_main_v93 (F := Ideal) x6 (ix2 n j) = Cert.Data.vecOf x6 j := by
  rw [val_main_v93_apply, val_main_v92_apply]
  refine congrArg x6 ?_
  funext a
  match a with
  | ⟨0, _⟩ => rfl

theorem call3_at (i : S200000x64.Idx) : val_main_call3_v0 (F := Ideal) i = Cert.Math.z0 := by
  rw [val_main_call3_v0_apply, val_main_call3_cst_apply, Ideal.ofBits_def]

abbrev h2 : Cert.Math.N → Cert.Math.H → EReal :=
  Cert.Math.refH2 (Cert.Data.tgt (dstA x1)) (Cert.Data.src (srcA x1)) (Cert.Data.dr (dstA x1)) (Cert.Data.dis (dstA x1))
    (Cert.Data.xOf x0) (Cert.Data.w1Of x3) (Cert.Data.vecOf x4) (Cert.Data.w2Of x5) (Cert.Data.vecOf x6)

/-- The second layer's activations at node `n`, feature `j`. -/
theorem h2_read (n : Fin 200000) (j : Fin 64) :
    val_main_v95 (F := Ideal) x0 x1 x3 x4 x5 x6 (ix2 n j)
      = Cert.Math.refH2 (Cert.Data.tgt (val_main_v7 (F := Ideal) x1)) (Cert.Data.src (val_main_v4 (F := Ideal) x1))
          (Cert.Data.dr (val_main_v7 (F := Ideal) x1)) (Cert.Data.dis (val_main_v7 (F := Ideal) x1))
          (Cert.Data.xOf x0) (Cert.Data.w1Of x3) (Cert.Data.vecOf x4) (Cert.Data.w2Of x5) (Cert.Data.vecOf x6) n j := by
  rw [val_main_v95_apply, val_main_v94_apply, v91_eq, layer_read, v93_at, call3_at, Ideal.maximumf_def, Ideal.addf_def]
  simp only [v48_at]
  rfl

/-! ## (6) Pooling, the counts and the last linear map -/

theorem v96_at (i : S1024x64.Idx) : val_main_v96 (F := Ideal) i = Cert.Math.z0 := by
  rw [val_main_v96_apply, val_main_cst_20_apply, Ideal.ofBits_def]
theorem v99_at (i : S200000x1.Idx) : val_main_v99 (F := Ideal) i = Cert.Math.o1 := by
  rw [val_main_v99_apply, val_main_cst_21_apply, Ideal.ofBits_def]
theorem v100_at (i : S1024x1.Idx) : val_main_v100 (F := Ideal) i = Cert.Math.z0 := by
  rw [val_main_v100_apply, val_main_cst_22_apply, Ideal.ofBits_def]
theorem v103_at (i : S1024x1.Idx) : val_main_v103 (F := Ideal) i = Cert.Math.o1 := by
  rw [val_main_v103_apply, val_main_cst_23_apply, Ideal.ofBits_def]

/-- The group labels as an index column, read at row `n`. -/
theorem v97_at (n : Fin 200000) : val_main_v97 (F := Ideal) x2 (ix2 n (0 : Fin 1)) = x2 (ix1 n) := by
  rw [val_main_v97_apply]
  refine congrArg x2 ?_
  funext a
  match a with
  | ⟨0, _⟩ => rfl
theorem v101_at (n : Fin 200000) : val_main_v101 (F := Ideal) x2 (ix2 n (0 : Fin 1)) = x2 (ix1 n) := by
  rw [val_main_v101_apply]
  refine congrArg x2 ?_
  funext a
  match a with
  | ⟨0, _⟩ => rfl

/-- The group sums: the second layer's rows scattered over the group labels onto zero. -/
theorem sums_read (g : Fin 1024) (j : Fin 64) :
    val_main_v98 (F := Ideal) x0 x1 x2 x3 x4 x5 x6 (ix2 g j)
      = Cert.Math.refSums (Cert.Data.bt x2) (h2 x0 x1 x3 x4 x5 x6) g j := by
  unfold val_main_v98 Cert.Math.refSums
  rw [scatterAdd_rows scatter_S1024x64_S200000x1_S200000x64_1_0_0_1 rfl rfl rfl rfl, v96_at]
  refine congrArg (fun s : EReal => Cert.Math.z0 + s) ?_
  simp only [v97_at, h2_read]
  rfl

/-- The group counts: ones scattered over the group labels onto zero. -/
theorem cnt_read (g : Fin 1024) : val_main_v102 (F := Ideal) x2 (ix2 g (0 : Fin 1)) = Cert.Data.cnt x2 g := by
  unfold val_main_v102 Cert.Data.cnt
  rw [scatterAdd_rows scatter_S1024x1_S200000x1_S200000x1_1_0_0_1 rfl rfl rfl rfl, v100_at]
  refine congrArg (fun s : EReal => Cert.Math.z0 + s) ?_
  simp only [v101_at, v99_at]
  rfl

/-- The last bias, broadcast over the groups. -/
theorem v109_at (g : Fin 1024) : val_main_v109 (F := Ideal) x8 (ix2 g (0 : Fin 1)) = Cert.Data.bfcOf x8 := by
  rw [val_main_v109_apply, val_main_v108_apply]
  refine congrArg x8 ?_
  funext a
  match a with
  | ⟨0, _⟩ => rfl

/-- The clamped count, broadcast along the features. -/
theorem v105_at (g : Fin 1024) (k : Fin 64) :
    val_main_v105 (F := Ideal) x2 (ix2 g k) = max (Cert.Data.cnt x2 g) Cert.Math.o1 := by
  rw [val_main_v105_apply, show idx_main_v105 (ix2 g k) = ix2 g (0 : Fin 1) from by
        funext a
        match a with
        | ⟨0, _⟩ => rfl
        | ⟨1, _⟩ => rfl,
    val_main_v104_apply, cnt_read, v103_at, Ideal.maximumf_def]

/-- The reference's result at group `g`. -/
theorem ref_read (g : Fin 1024) :
    val_main_v111 (F := Ideal) x0 x1 x2 x3 x4 x5 x6 x7 x8 (ix1 g)
      = Cert.Math.refOut (Cert.Data.tgt (val_main_v7 (F := Ideal) x1)) (Cert.Data.src (val_main_v4 (F := Ideal) x1))
          (Cert.Data.dr (val_main_v7 (F := Ideal) x1)) (Cert.Data.bt x2) (Cert.Data.dis (val_main_v7 (F := Ideal) x1))
          (Cert.Data.xOf x0) (Cert.Data.w1Of x3) (Cert.Data.vecOf x4) (Cert.Data.w2Of x5) (Cert.Data.vecOf x6)
          (Cert.Data.cnt x2) (Cert.Data.wfcOf x7) (Cert.Data.bfcOf x8) g := by
  have hi : idx_main_v111 (ix1 g) = ix2 g (0 : Fin 1) :=
    funext fun a => Fin.ext (by match a with | ⟨0, _⟩ => exact Nat.div_one _ | ⟨1, _⟩ => rfl)
  rw [val_main_v111_apply, hi, val_main_v110_apply, val_main_v107_apply, v109_at, Ideal.addf_def]
  unfold Cert.Math.refOut Cert.Math.finish Cert.Data.wfcOf
  refine congrArg (fun s : EReal => s + Cert.Data.bfcOf x8) ?_
  refine Finset.sum_congr rfl fun k _ => ?_
  have hl : lidx_main_v107 (ix2 g (0 : Fin 1)) k = ix2 g k :=
    funext fun a => Fin.ext (by match a with | ⟨0, _⟩ => rfl | ⟨1, _⟩ => rfl)
  have hr : ridx_main_v107 (ix2 g (0 : Fin 1)) k = ix2 k (0 : Fin 1) :=
    funext fun a => Fin.ext (by match a with | ⟨0, _⟩ => rfl | ⟨1, _⟩ => rfl)
  rw [hl, hr, val_main_v106_apply, sums_read, v105_at, Ideal.hostDivf_def]

end Cert.ReferenceIdeal.RR

end
-- ==== Proof.Val.FinPre.lean ====
/-
  From the precondition to finiteness of the inputs.

  The precondition computes, for each of the seven float arrays, "every entry's absolute value is below +infinity"
  (a compare entry by entry, then an `and` over all entries), and `and`s the seven answers. When the answer is 1, each of
  the seven inner answers is 1, so every entry of every array satisfies the compare. On the extended reals the absolute
  value of -infinity and of +infinity is +infinity, which is not below +infinity: an entry that passes the compare is
  neither of them, hence a real number.
-/
import proofs.«416223_j40458591928693_3_alg».proof.Pre_finite_inputs
import proofs.«416223_j40458591928693_3_alg».proof.Proof.Gen.Pre_finite_inputs
import proofs.«416223_j40458591928693_3_alg».proof.Proof.Val.Math
import Idealize.ShloMosaic.Lib.ReduceAll
import Idealize.ShloMosaic.Lib.ValueIdx
import Idealize.ShloMosaic.PureOps.Ideal.Laws

noncomputable section

namespace Cert.FinPre

open Idealize.ShloMosaic

/-- A full reduction's result has a single index: an index of rank 0 has no coordinate to differ in. -/
instance : Subsingleton Cert.Pre_finite_inputs.S_.Idx := ⟨fun _ _ => funext fun d => d.elim0⟩

/-- The word 0x7F800000 is +infinity. -/
theorem inf_word : Ideal.ofBits .f32 0x7F800000#32 = (⊤ : EReal) := by simp [Ideal.ofBits, Ideal.ieee]

/-- A value whose absolute value compares below +infinity is a real number: `|⊥| = |⊤| = ⊤`, and `⊤ < ⊤` is false. -/
theorem real_of_abs_lt_inf (v : EReal)
    (h : FloatOps.cmpf (F := Ideal) (φ := .f32) .olt (FloatOps.absf (F := Ideal) (φ := .f32) v)
      (Ideal.ofBits .f32 0x7F800000#32) = 1#1) :
    ∃ r : ℝ, v = (r : EReal) := by
  rw [Ideal.cmpf_def, Ideal.absf_def, inf_word] at h
  induction v using EReal.rec with
  | bot => simp [Ideal.cmp] at h
  | coe r => exact ⟨r, rfl⟩
  | top => simp [Ideal.cmp] at h

/-- An array all of whose entries pass the compare is an array of real numbers. -/
theorem fin1_of_all {s : Shape} (x : FVec Ideal s .f32)
    (hall : ∀ i, FloatOps.cmpf (F := Ideal) (φ := .f32) .olt (FloatOps.absf (F := Ideal) (φ := .f32) (x i))
      (Ideal.ofBits .f32 0x7F800000#32) = 1#1) :
    Cert.Math.Fin1 x := fun i => real_of_abs_lt_inf (x i) (hall i)

/-- The precondition holds: each of the seven float arrays is an array of real numbers. -/
theorem finite_of_pre [hP : Cert.Pre_finite_inputs.Facts]
    (x0 : FVec Ideal Cert.Pre_finite_inputs.S200000x1 .f32) (x1 : IVec Cert.Pre_finite_inputs.S2x3200000 32) (x2 : IVec Cert.Pre_finite_inputs.S200000 32)
    (x3 : FVec Ideal Cert.Pre_finite_inputs.S1x64 .f32) (x4 : FVec Ideal Cert.Pre_finite_inputs.S64 .f32) (x5 : FVec Ideal Cert.Pre_finite_inputs.S64x64 .f32)
    (x6 : FVec Ideal Cert.Pre_finite_inputs.S64 .f32) (x7 : FVec Ideal Cert.Pre_finite_inputs.S64x1 .f32) (x8 : FVec Ideal Cert.Pre_finite_inputs.S1 .f32)
    (h : Cert.Pre_finite_inputs.fn (F := Ideal) x0 x1 x2 x3 x4 x5 x6 x7 x8 = fun _ => 1#1) :
    Cert.Math.Fin1 x0 ∧ Cert.Math.Fin1 x3 ∧ Cert.Math.Fin1 x4 ∧ Cert.Math.Fin1 x5 ∧ Cert.Math.Fin1 x6 ∧ Cert.Math.Fin1 x7 ∧ Cert.Math.Fin1 x8 := by
  have h0 := congrFun h ValueIdx.ix0
  dsimp only [Cert.Pre_finite_inputs.fn, Cert.Pre_finite_inputs.fn_part1] at h0
  -- the seven answers, `and`ed from the left: split from the outside in
  simp only [andi, IntOp.andi_eq_one] at h0
  obtain ⟨⟨⟨⟨⟨⟨a0, a3⟩, a4⟩, a5⟩, a6⟩, a7⟩, a8⟩ := h0
  exact ⟨fin1_of_all x0 fun i => Host.reduce_andi_all _ _ _ _ _ a0 i,
    fin1_of_all x3 fun i => Host.reduce_andi_all _ _ _ _ _ a3 i,
    fin1_of_all x4 fun i => Host.reduce_andi_all _ _ _ _ _ a4 i,
    fin1_of_all x5 fun i => Host.reduce_andi_all _ _ _ _ _ a5 i,
    fin1_of_all x6 fun i => Host.reduce_andi_all _ _ _ _ _ a6 i,
    fin1_of_all x7 fun i => Host.reduce_andi_all _ _ _ _ _ a7 i,
    fin1_of_all x8 fun i => Host.reduce_andi_all _ _ _ _ _ a8 i⟩

end Cert.FinPre

end
-- ==== Proof.lean ====
/-
  The proof of the certificate's claim: the graph-convolution kernel against its reference.

  Both programs compute, for 200000 nodes with one input feature, 3400000 edge slots (the given edges and one self-loop
  per node) and 1024 groups: two layers  h ↦ relu(D^(-1/2) A D^(-1/2) (h W) + b)  and a group mean followed by a linear
  map. The reference multiplies every edge's row by the product of the two endpoint normalisations and sums the rows
  landing on a node. The kernel's host code and its four pallas_calls move the source-side normalisation in front of
  the gather and the destination-side one behind the sum, sum scalars in the first layer (one feature) and multiply by
  the weight row afterwards, and pool by a 0/1 membership matrix product over zero-padded rows. At the ideal values the
  two agree by distributivity over finite sums of finite numbers: this is where the precondition (all float inputs
  finite) is used; the changes of float format in front of the kernel's matrix products are the identity there.

  The frames. Each kernel program is a list of host stretches and four kernel regions; every region's pipeline is run
  from that kernel body's own triple (three bodies that read their input blocks whole and overwrite their output block
  whole; the pooling body with its three control cases, its scratch carried from point to point and its result window
  written only at the last point), and the library's theorem for a program of several regions composes them:
  every weakly fair execution terminates, nothing faulting, with every unscoped buffer at the last contents of the fold
  through the program (KI/Run.lean; K/Run.lean for the word-level program: the same text, stated at any float family).
  The arguments are written by nothing, so they end as launched. The reference is a host program: its run is its
  operations' composed term.

  The values. What each region leaves in its result array is one function of its input arrays (Val/Val0 … Val3); the
  kernel's result read at a group is the mathematical expression `kernelOut` and the reference's `refOut` over the same
  data extracted from the arguments (Val/KRead, Val/RRead, over the scatter and gather read at an index, Val/Decode);
  they agree (Val/Math).
-/
import proofs.«416223_j40458591928693_3_alg».proof.Defs
import proofs.«416223_j40458591928693_3_alg».proof.Proof.Gen.Kernel
import proofs.«416223_j40458591928693_3_alg».proof.Proof.Gen.KernelIdeal
import proofs.«416223_j40458591928693_3_alg».proof.Proof.Gen.ReferenceIdeal
import proofs.«416223_j40458591928693_3_alg».proof.Proof.Gen.Pre_finite_inputs
import proofs.«416223_j40458591928693_3_alg».proof.Proof.K.Run
import proofs.«416223_j40458591928693_3_alg».proof.Proof.KI.Run
import proofs.«416223_j40458591928693_3_alg».proof.Proof.RefRunP
import proofs.«416223_j40458591928693_3_alg».proof.Proof.RefReadP
import proofs.«416223_j40458591928693_3_alg».proof.Proof.Val.KRead
import proofs.«416223_j40458591928693_3_alg».proof.Proof.Val.RRead
import proofs.«416223_j40458591928693_3_alg».proof.Proof.Val.FinPre
import Idealize.ShloMosaic.Adequacy
import Idealize.ShloMosaic.Init

noncomputable section

namespace Cert.Proof

open Idealize.ShloMosaic Idealize.ShloMosaic.TcCoe Idealize.SL.Sem

/-- The word-level kernel program runs and leaves its arguments as launched: the run of its segments, each argument read
    off the last contents of the fold, which no host stretch and no region writes. -/
theorem frame_k : Cert.frame_Kernel := fun m ρ _ =>
  (θ_run Cert.Kernel.defs _ _).mono (fun r h c => ⟨
      (h c _ (Cert.Kernel.Fr.mem_uc Cert.Kernel.main_arg0 (by decide))).trans ((congrFun (Cert.Kernel.Fr.V14_eq m c).symm _).trans (Cert.Kernel.Gen.V14_main_arg0 m (Cert.Kernel.Fr.outs m) c)),
      (h c _ (Cert.Kernel.Fr.mem_uc Cert.Kernel.main_arg1 (by decide))).trans ((congrFun (Cert.Kernel.Fr.V14_eq m c).symm _).trans (Cert.Kernel.Gen.V14_main_arg1 m (Cert.Kernel.Fr.outs m) c)),
      (h c _ (Cert.Kernel.Fr.mem_uc Cert.Kernel.main_arg2 (by decide))).trans ((congrFun (Cert.Kernel.Fr.V14_eq m c).symm _).trans (Cert.Kernel.Gen.V14_main_arg2 m (Cert.Kernel.Fr.outs m) c)),
      (h c _ (Cert.Kernel.Fr.mem_uc Cert.Kernel.main_arg3 (by decide))).trans ((congrFun (Cert.Kernel.Fr.V14_eq m c).symm _).trans (Cert.Kernel.Gen.V14_main_arg3 m (Cert.Kernel.Fr.outs m) c)),
      (h c _ (Cert.Kernel.Fr.mem_uc Cert.Kernel.main_arg4 (by decide))).trans ((congrFun (Cert.Kernel.Fr.V14_eq m c).symm _).trans (Cert.Kernel.Gen.V14_main_arg4 m (Cert.Kernel.Fr.outs m) c)),
      (h c _ (Cert.Kernel.Fr.mem_uc Cert.Kernel.main_arg5 (by decide))).trans ((congrFun (Cert.Kernel.Fr.V14_eq m c).symm _).trans (Cert.Kernel.Gen.V14_main_arg5 m (Cert.Kernel.Fr.outs m) c)),
      (h c _ (Cert.Kernel.Fr.mem_uc Cert.Kernel.main_arg6 (by decide))).trans ((congrFun (Cert.Kernel.Fr.V14_eq m c).symm _).trans (Cert.Kernel.Gen.V14_main_arg6 m (Cert.Kernel.Fr.outs m) c)),
      (h c _ (Cert.Kernel.Fr.mem_uc Cert.Kernel.main_arg7 (by decide))).trans ((congrFun (Cert.Kernel.Fr.V14_eq m c).symm _).trans (Cert.Kernel.Gen.V14_main_arg7 m (Cert.Kernel.Fr.outs m) c)),
      (h c _ (Cert.Kernel.Fr.mem_uc Cert.Kernel.main_arg8 (by decide))).trans ((congrFun (Cert.Kernel.Fr.V14_eq m c).symm _).trans (Cert.Kernel.Gen.V14_main_arg8 m (Cert.Kernel.Fr.outs m) c))⟩)
    (Cert.Kernel.Fr.run_all (F := Bits) m ρ)

/-- The idealized kernel program likewise: the same run read at the ideal values. -/
theorem frame_ki : Cert.frame_KernelIdeal := fun m ρ _ =>
  (θ_run Cert.KernelIdeal.defs _ _).mono (fun r h c => ⟨
      (h c _ (Cert.KernelIdeal.Fr.mem_uc Cert.KernelIdeal.main_arg0 (by decide))).trans ((congrFun (Cert.KernelIdeal.Fr.V14_eq m c).symm _).trans (Cert.KernelIdeal.Gen.V14_main_arg0 m (Cert.KernelIdeal.Fr.outs m) c)),
      (h c _ (Cert.KernelIdeal.Fr.mem_uc Cert.KernelIdeal.main_arg1 (by decide))).trans ((congrFun (Cert.KernelIdeal.Fr.V14_eq m c).symm _).trans (Cert.KernelIdeal.Gen.V14_main_arg1 m (Cert.KernelIdeal.Fr.outs m) c)),
      (h c _ (Cert.KernelIdeal.Fr.mem_uc Cert.KernelIdeal.main_arg2 (by decide))).trans ((congrFun (Cert.KernelIdeal.Fr.V14_eq m c).symm _).trans (Cert.KernelIdeal.Gen.V14_main_arg2 m (Cert.KernelIdeal.Fr.outs m) c)),
      (h c _ (Cert.KernelIdeal.Fr.mem_uc Cert.KernelIdeal.main_arg3 (by decide))).trans ((congrFun (Cert.KernelIdeal.Fr.V14_eq m c).symm _).trans (Cert.KernelIdeal.Gen.V14_main_arg3 m (Cert.KernelIdeal.Fr.outs m) c)),
      (h c _ (Cert.KernelIdeal.Fr.mem_uc Cert.KernelIdeal.main_arg4 (by decide))).trans ((congrFun (Cert.KernelIdeal.Fr.V14_eq m c).symm _).trans (Cert.KernelIdeal.Gen.V14_main_arg4 m (Cert.KernelIdeal.Fr.outs m) c)),
      (h c _ (Cert.KernelIdeal.Fr.mem_uc Cert.KernelIdeal.main_arg5 (by decide))).trans ((congrFun (Cert.KernelIdeal.Fr.V14_eq m c).symm _).trans (Cert.KernelIdeal.Gen.V14_main_arg5 m (Cert.KernelIdeal.Fr.outs m) c)),
      (h c _ (Cert.KernelIdeal.Fr.mem_uc Cert.KernelIdeal.main_arg6 (by decide))).trans ((congrFun (Cert.KernelIdeal.Fr.V14_eq m c).symm _).trans (Cert.KernelIdeal.Gen.V14_main_arg6 m (Cert.KernelIdeal.Fr.outs m) c)),
      (h c _ (Cert.KernelIdeal.Fr.mem_uc Cert.KernelIdeal.main_arg7 (by decide))).trans ((congrFun (Cert.KernelIdeal.Fr.V14_eq m c).symm _).trans (Cert.KernelIdeal.Gen.V14_main_arg7 m (Cert.KernelIdeal.Fr.outs m) c)),
      (h c _ (Cert.KernelIdeal.Fr.mem_uc Cert.KernelIdeal.main_arg8 (by decide))).trans ((congrFun (Cert.KernelIdeal.Fr.V14_eq m c).symm _).trans (Cert.KernelIdeal.Gen.V14_main_arg8 m (Cert.KernelIdeal.Fr.outs m) c))⟩)
    (Cert.KernelIdeal.Fr.run_all (F := Ideal) m ρ)

/-- The reference is a host program: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel: nothing to preserve. -/
theorem preserves : Cert.preserves_Kernel_KernelIdeal := trivial

open Cert.Math Cert.Data Idealize.ShloMosaic.ValueIdx in
/-- From memories agreeing on the arguments, both programs run, and their results agree group by group: the kernel's
    result read at a group is `kernelOut`, the reference's `refOut`, over the same data extracted from the arguments
    (the two programs build the same two edge-slot index arrays); the precondition makes every float argument finite,
    the degree normalisation is finite by itself, an edge slot that lands on a node reads that node's normalisation, and
    the two expressions then agree. -/
theorem algebraic : Cert.algebraic_KernelIdeal_ReferenceIdeal := by
  intro m ρ m' ρ' hpre hagree
  refine ⟨fun c => Cert.KernelIdeal.Fr.Y14 (F := Ideal) m c Cert.KernelIdeal.main_v53, ?_, ?_⟩
  · exact (θ_run Cert.KernelIdeal.defs _ _).mono (fun r h c => ⟨
      h c _ (Cert.KernelIdeal.Fr.mem_uc Cert.KernelIdeal.main_v53 (by decide)),
      (h c _ (Cert.KernelIdeal.Fr.mem_uc Cert.KernelIdeal.main_arg0 (by decide))).trans ((congrFun (Cert.KernelIdeal.Fr.V14_eq m c).symm _).trans (Cert.KernelIdeal.Gen.V14_main_arg0 m (Cert.KernelIdeal.Fr.outs m) c)),
      (h c _ (Cert.KernelIdeal.Fr.mem_uc Cert.KernelIdeal.main_arg1 (by decide))).trans ((congrFun (Cert.KernelIdeal.Fr.V14_eq m c).symm _).trans (Cert.KernelIdeal.Gen.V14_main_arg1 m (Cert.KernelIdeal.Fr.outs m) c)),
      (h c _ (Cert.KernelIdeal.Fr.mem_uc Cert.KernelIdeal.main_arg2 (by decide))).trans ((congrFun (Cert.KernelIdeal.Fr.V14_eq m c).symm _).trans (Cert.KernelIdeal.Gen.V14_main_arg2 m (Cert.KernelIdeal.Fr.outs m) c)),
      (h c _ (Cert.KernelIdeal.Fr.mem_uc Cert.KernelIdeal.main_arg3 (by decide))).trans ((congrFun (Cert.KernelIdeal.Fr.V14_eq m c).symm _).trans (Cert.KernelIdeal.Gen.V14_main_arg3 m (Cert.KernelIdeal.Fr.outs m) c)),
      (h c _ (Cert.KernelIdeal.Fr.mem_uc Cert.KernelIdeal.main_arg4 (by decide))).trans ((congrFun (Cert.KernelIdeal.Fr.V14_eq m c).symm _).trans (Cert.KernelIdeal.Gen.V14_main_arg4 m (Cert.KernelIdeal.Fr.outs m) c)),
      (h c _ (Cert.KernelIdeal.Fr.mem_uc Cert.KernelIdeal.main_arg5 (by decide))).trans ((congrFun (Cert.KernelIdeal.Fr.V14_eq m c).symm _).trans (Cert.KernelIdeal.Gen.V14_main_arg5 m (Cert.KernelIdeal.Fr.outs m) c)),
      (h c _ (Cert.KernelIdeal.Fr.mem_uc Cert.KernelIdeal.main_arg6 (by decide))).trans ((congrFun (Cert.KernelIdeal.Fr.V14_eq m c).symm _).trans (Cert.KernelIdeal.Gen.V14_main_arg6 m (Cert.KernelIdeal.Fr.outs m) c)),
      (h c _ (Cert.KernelIdeal.Fr.mem_uc Cert.KernelIdeal.main_arg7 (by decide))).trans ((congrFun (Cert.KernelIdeal.Fr.V14_eq m c).symm _).trans (Cert.KernelIdeal.Gen.V14_main_arg7 m (Cert.KernelIdeal.Fr.outs m) c)),
      (h c _ (Cert.KernelIdeal.Fr.mem_uc Cert.KernelIdeal.main_arg8 (by decide))).trans ((congrFun (Cert.KernelIdeal.Fr.V14_eq m c).symm _).trans (Cert.KernelIdeal.Gen.V14_main_arg8 m (Cert.KernelIdeal.Fr.outs m) c))⟩)
      (Cert.KernelIdeal.Fr.run_all (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Read.val_main_v111_eq, h0, h1, h2, h3, h4, h5, h6, h7, h8]
    funext i
    obtain ⟨g, rfl⟩ : ∃ g : Fin 1024, i = ix1 g := ⟨i 0, eq_ix1 i⟩
    obtain ⟨oh, hp, hK, hoh, hrow, hpad⟩ := Cert.KernelIdeal.KR.kernel_read m c g
    obtain ⟨f0, f3, f4, f5, f6, f7, f8⟩ := Cert.FinPre.finite_of_pre _ _ _ _ _ _ _ _ _ (hpre c)
    refine (Cert.ReferenceIdeal.RR.ref_read _ _ _ _ _ _ _ _ _ g).trans (Eq.trans ?_ hK.symm)
    -- the two programs build the same two arrays of edge-slot indices from the edge list
    have hs : Cert.ReferenceIdeal.Read.val_main_v4 (F := Ideal) (m ((c.tc : Thread Cert.KernelIdeal.nD Cert.KernelIdeal.τ).loc Cert.KernelIdeal.main_arg1)) = Cert.KernelIdeal.KT.srcA (m ((c.tc : Thread Cert.KernelIdeal.nD Cert.KernelIdeal.τ).loc Cert.KernelIdeal.main_arg1)) := by
      unfold Cert.ReferenceIdeal.Read.val_main_v4 Cert.ReferenceIdeal.Read.val_main_v3 Cert.ReferenceIdeal.Read.val_main_v2
        Cert.ReferenceIdeal.Read.val_main_v1 Cert.KernelIdeal.KT.srcA
      rfl
    have hd : Cert.ReferenceIdeal.Read.val_main_v7 (F := Ideal) (m ((c.tc : Thread Cert.KernelIdeal.nD Cert.KernelIdeal.τ).loc Cert.KernelIdeal.main_arg1)) = Cert.KernelIdeal.KT.dstA (m ((c.tc : Thread Cert.KernelIdeal.nD Cert.KernelIdeal.τ).loc Cert.KernelIdeal.main_arg1)) := by
      unfold Cert.ReferenceIdeal.Read.val_main_v7 Cert.ReferenceIdeal.Read.val_main_v6 Cert.ReferenceIdeal.Read.val_main_v5
        Cert.ReferenceIdeal.Read.val_main_v1 Cert.KernelIdeal.KT.dstA
      rfl
    rw [hs, hd]
    exact (congrFun (kernelOut_eq_refOut _ _ _ (hdr _) _ _ _ _ _ _ _ _ _ _ (dis_finite _)
      (fun n => f0 _) (fun j => f3 _) (fun j => f4 _) (fun k j => f5 _) (fun j => f6 _) oh hp hoh hrow hpad) g).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
